-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg14 : FVec F S10 .f32) (main_v48 : IVec S_ 1) (main_v49 : FVec F S128x10 .f32) (main_v50 : FVec F S128x10 .f32) : IVec S_ 1 :=
  let main_v51 : IVec S128x10 1 := cmpf .olt main_v49 main_v50
  let main_c_19 : IVec S_ 1 := constantI S_ 1 1#1
  let main_v52 : IVec S_ 1 := (fun x v => Host.reduce IntOp.andi x v reducesTo_S128x10_S_d0_1 h_S_) main_v51 main_c_19
  let main_v53 : IVec S_ 1 := andi main_v48 main_v52
  let main_v54 : FVec F S10 .f32 := Host.absf main_arg14
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg10 : FVec F S128x128 .f32) (main_arg11 : FVec F S128x128 .f32) (main_arg12 : FVec F S128 .f32) (main_arg13 : FVec F S128x10 .f32) (main_arg14 : FVec F S10 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x10 .f32 := Host.absf main_arg13
  let main_cst_18 : FVec F S_ .f32 := constant S_ .f32 0x7F800000#32
  let main_v50 : FVec F S128x10 .f32 := broadcastInDim S128x10 ![] bcast_S_S128x10 main_cst_18
  fn_part3 (F := F) main_arg14 main_v48 main_v49 main_v50

def fn_part1 {F : FTy → Type} [FloatOps F] (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x10 .f32) (main_arg14 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S50000x128 .f32) (main_arg1 : IVec S800000 32) (main_arg2 : IVec S800000 32) (main_arg3 : IVec S50000 32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x10 .f32) (main_arg14 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_v13 main_v16
-- ==== Kernel.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S1x10 : Shape := ⟨2, ![1, 10]⟩
abbrev S2000x1 : Shape := ⟨2, ![2000, 1]⟩

abbrev nBuf : Space → Nat
  | .hbm => 79
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x10, .f32⟩
  | .hbm, ⟨14, _⟩ => ⟨S10, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x1, .i32⟩
  | .hbm, ⟨77, _⟩ => ⟨S1x10, .f32⟩
  | .hbm, ⟨78, _⟩ => ⟨S128x10, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x1, .i32⟩
  | .local _ .vmem, ⟨30, _⟩ => ⟨S2000x1, .i32⟩
  | .local _ .vmem, ⟨31, _⟩ => ⟨S128x10, .f32⟩
  | .local _ .vmem, ⟨32, _⟩ => ⟨S1x10, .f32⟩
  | .local _ .vmem, ⟨33, _⟩ => ⟨S128x10, .f32⟩
  | .local _ .vmem, ⟨34, _⟩ => ⟨S128x128, .f32⟩
  | .local _ .vmem, ⟨35, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_scratch0 : Ref sig .tc := ⟨.vmem, 34, rfl⟩
abbrev cc3_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v27 : BitVec 1 := Scalar.cmpi .eq arg0 c24_i32
  let v28 : BitVec 32 := Scalar.extui v27
  let c0_i32_14 : BitVec 32 := 0#32
  let v29 : BitVec 1 := Scalar.cmpi .ne v28 c0_i32_14
  v29

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S50000_S50000x1 : S50000.ShapeCasts S50000x1
  shapeCasts_S10_S1x10 : S10.ShapeCasts S1x10
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x128_d1_w32 : S2000x128.Iotas .tc 32 [1]
  broadcasts_S2000x1_S2000x128 : S2000x1.Broadcasts S2000x128
  natLt_1_32 : 1 < 32
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S2000x128_S128x128_0_0_1_1_n_n_wf : DotDims.WF S2000x128 S2000x128 S128x128 [0] [0] [1] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .i32 = 32 ∨ (Rect.block (s := S50000x1) S2000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x10.size a ≤ S128x10.size a
  hwx3_2 : ∀ i : grid3.Coords, EltTy.bits .f32 = 32 ∨ (Rect.block (s := S128x10) S128x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x10.size a ≤ S1x10.size a
  hwx3_3 : ∀ i : grid3.Coords, EltTy.bits .f32 = 32 ∨ (Rect.block (s := S1x10) S1x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x10.size a ≤ S128x10.size a
  hwx3_4 : ∀ i : grid3.Coords, EltTy.bits .f32 = 32 ∨ (Rect.block (s := S128x10) S128x10.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S2000x128_S128x128_0_0_1_1_n_n : DotDims S2000x128 S2000x128 S128x128 where
  lhsContracting := [0]
  rhsContracting := [0]
  lhsNonContracting := [1]
  rhsNonContracting := [1]
  lhsBatch := []
  rhsBatch := []
  wf := dot_S2000x128_S2000x128_S128x128_0_0_1_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S128x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S1x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S128x10.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S128x1 : Shape := ⟨2, ![128, 1]⟩
abbrev S1x10 : Shape := ⟨2, ![1, 10]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x10, .f32⟩
  | .hbm, ⟨14, _⟩ => ⟨S10, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S50000, .f32⟩
  | .hbm, ⟨99, _⟩ => ⟨S_, .f32⟩
  | .hbm, ⟨100, _⟩ => ⟨S128, .f32⟩
  | .hbm, ⟨101, _⟩ => ⟨S50000x1, .i32⟩
  | .hbm, ⟨102, _⟩ => ⟨S128, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S128x1, .f32⟩
  | .hbm, ⟨107, _⟩ => ⟨S_, .f32⟩
  | .hbm, ⟨108, _⟩ => ⟨S128x128, .f32⟩
  | .hbm, ⟨109, _⟩ => ⟨S50000x1, .i32⟩
  | .hbm, ⟨110, _⟩ => ⟨S128x128, .f32⟩
  | .hbm, ⟨111, _⟩ => ⟨S128x128, .f32⟩
  | .hbm, ⟨112, _⟩ => ⟨S128x128, .f32⟩
  | .hbm, ⟨113, _⟩ => ⟨S128x10, .f32⟩
  | .hbm, ⟨114, _⟩ => ⟨S1x10, .f32⟩
  | .hbm, ⟨115, _⟩ => ⟨S128x10, .f32⟩
  | .hbm, ⟨116, _⟩ => ⟨S128x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call0_cst : Ref sig .tc := ⟨.hbm, 46, rfl⟩
abbrev main_call0_v0 : Ref sig .tc := ⟨.hbm, 47, rfl⟩
abbrev main_v25 : Ref sig .tc := ⟨.hbm, 48, rfl⟩
abbrev main_c_4 : Ref sig .tc := ⟨.hbm, 49, rfl⟩
abbrev main_v26 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call1_cst : Ref sig .tc := ⟨.hbm, 70, rfl⟩
abbrev main_call1_v0 : Ref sig .tc := ⟨.hbm, 71, rfl⟩
abbrev main_v44 : Ref sig .tc := ⟨.hbm, 72, rfl⟩
abbrev main_c_7 : Ref sig .tc := ⟨.hbm, 73, rfl⟩
abbrev main_v45 : Ref sig .tc := ⟨.hbm, 74, rfl⟩
abbrev main_v46 : Ref sig .tc := ⟨.hbm, 75, rfl⟩
abbrev main_c_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_call2_cst : Ref sig .tc := ⟨.hbm, 94, rfl⟩
abbrev main_call2_v0 : Ref sig .tc := ⟨.hbm, 95, rfl⟩
abbrev main_v63 : Ref sig .tc := ⟨.hbm, 96, rfl⟩
abbrev main_cst_10 : Ref sig .tc := ⟨.hbm, 97, rfl⟩
abbrev main_v64 : Ref sig .tc := ⟨.hbm, 98, rfl⟩
abbrev main_cst_11 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_13 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S128_S128x1_0 : S128.BroadcastsInDim S128x1 (![0] : Fin 1 → Fin S128x1.rank)
  bcast_S_S128x128 : S_.BroadcastsInDim S128x128 (![] : Fin 0 → Fin S128x128.rank)
  bcast_S128x1_S128x128_0_1 : S128x1.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  dot_S128x128_S128x10_S128x10_1_0_0_1_n_n_wf : DotDims.WF S128x128 S128x10 S128x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.K.Sage0.lean ====
/- Region 0 (the first SAGE layer's launch) at the contents `V` its arrays hold when the region is entered: each window's
   block at a grid point, what the body leaves in the output window's staging buffer (one whole-block store of
   relu(h·Ws + a·Wn + b) of the point's input blocks), the body's triple, the proof data and the body obligation. -/
import proofs.«411194_j75926431859108_1_alg».proof.Proof.Gen.Kernel.Launch
import proofs.«411194_j75926431859108_1_alg».proof.Proof.Gen.Kernel.Skeleton
import proofs.«411194_j75926431859108_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rX0 : Rect S2000x128 := Rect.unit (s := S2000x128) ![0, 0] S2000x128.size inb_S2000x128_S2000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- The output window's staging buffer after the body: its one store, of the layer's value on the point's blocks. -/
def out0_5 (x0 x1 : Vec F S2000x128 .f32) (x2 x3 : Vec F S128x128 .f32) (x4 : Vec F S1x128 .f32) : Vec F S2000x128 .f32 :=
  View.canon [⟨rX0, k0_pay1 (View.ld x0 rX0) (View.ld x1 rX0) (View.ld x2 rW0) (View.ld x3 rW0) (View.ld x4 rB0)⟩]

/-- The proof data of region 0 on core `c`: the arrays as entered; each input's buffer at its block after the body,
    the output's at `out0_5` of the input blocks; the scoped rest untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-! ## What the body finds in each input window's buffer -/

/-- Input window 0's current staging buffer holds its block at every point, fetched there or not, for any proof data
    whose array is `V`'s and whose body leaves the block in place: unfetched, the block index has not moved, so the
    block kept from the point before is this point's. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place: unfetched, the block index has not moved, so the
    block kept from the point before is this point's. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place: unfetched, the block index has not moved, so the
    block kept from the point before is this point's. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place: unfetched, the block index has not moved, so the
    block kept from the point before is this point's. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is `V`'s and whose body leaves the block in place: unfetched, the block index has not moved, so the
    block kept from the point before is this point's. The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The output window's one store covers its buffer -/

/-- The whole-block rectangle is the buffer's full extent, so every index lies in it. -/
theorem cover0_5 (p0 : Vec F S2000x128 .f32) (y : S2000x128.Idx) :
    ∃ pc ∈ ([⟨rX0, p0⟩] : List (View.Piece (Elt F) S2000x128 .f32)), y ∈ pc.1.set :=
  View.cover_of_tiled [⟨rX0, p0⟩] S2000x128.size (by rfl) y

/-! ## The body's triple -/

set_option maxHeartbeats 1000000 in
/-- The body on whole staging memrefs, the five inputs' reading `x0 … x4` and the output's holding anything, runs to
    the continuation with the inputs' as they were and the output's at `out0_5 x0 x1 x2 x3 x4`: five whole-block
    loads of the inputs, one load of the output whose value is dropped, and one whole-block store of the layer's
    value, which overwrites every cell of the output buffer. -/
theorem sound_kernel0 (c : Dev nD) (E : Set ℕ) (i : grid0.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2000x128 .f32) (harg6 : arg6.IsWhole)
    (x0 x1 : Vec F S2000x128 .f32) (x2 x3 : Vec F S128x128 .f32) (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The body obligation, at a generic point -/

/-- What the body is called with at point `t`: the invariant, what the core owes, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What the body returns at point `t`: the same invariant and debt, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: each input's buffer holds its block there, so the body's triple applies at the five
    blocks; the invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Sage1.lean ====
/- Region 1 (SAGE layer 2's launch) at the contents `V` its arrays hold when the region is entered: each window's
   block at a grid point, what the body leaves in the output window's staging buffer (one whole-block store of
   relu(h·Ws + a·Wn + b) of the point's input blocks), the body's triple, the proof data and the body obligation. -/
import proofs.«411194_j75926431859108_1_alg».proof.Proof.Gen.Kernel.Launch
import proofs.«411194_j75926431859108_1_alg».proof.Proof.Gen.Kernel.Skeleton
import proofs.«411194_j75926431859108_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles the body loads and stores through. -/
abbrev rX1 : Rect S2000x128 := Rect.unit (s := S2000x128) ![0, 0] S2000x128.size inb_S2000x128_S2000x128_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

/-- The output window's staging buffer after the body: its one store, of the layer's value on the point's blocks. -/
def out1_5 (x0 x1 : Vec F S2000x128 .f32) (x2 x3 : Vec F S128x128 .f32) (x4 : Vec F S1x128 .f32) : Vec F S2000x128 .f32 :=
  View.canon [⟨rX1, k1_pay1 (View.ld x0 rX1) (View.ld x1 rX1) (View.ld x2 rW1) (View.ld x3 rW1) (View.ld x4 rB1)⟩]

/-- The proof data of region 1 on core `c`: the arrays as entered; each input's buffer at its block after the body,
    the output's at `out1_5` of the input blocks; the scoped rest untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-! ## What the body finds in each input window's buffer -/

/-- Input window 0's current staging buffer holds its block at every point, fetched there or not, for any proof data
    whose array is `V`'s and whose body leaves the block in place: unfetched, the block index has not moved, so the
    block kept from the point before is this point's. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: unfetched, the block index has not moved, so the
    block kept from the point before is this point's. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: unfetched, the block index has not moved, so the
    block kept from the point before is this point's. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: unfetched, the block index has not moved, so the
    block kept from the point before is this point's. The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place: unfetched, the block index has not moved, so the
    block kept from the point before is this point's. The window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The output window's one store covers its buffer -/

/-- The whole-block rectangle is the buffer's full extent, so every index lies in it. -/
theorem cover1_5 (p0 : Vec F S2000x128 .f32) (y : S2000x128.Idx) :
    ∃ pc ∈ ([⟨rX1, p0⟩] : List (View.Piece (Elt F) S2000x128 .f32)), y ∈ pc.1.set :=
  View.cover_of_tiled [⟨rX1, p0⟩] S2000x128.size (by rfl) y

/-! ## The body's triple -/

set_option maxHeartbeats 1000000 in
/-- The body on whole staging memrefs, the five inputs' reading `x0 … x4` and the output's holding anything, runs to
    the continuation with the inputs' as they were and the output's at `out1_5 x0 x1 x2 x3 x4`: five whole-block
    loads of the inputs, one load of the output whose value is dropped, and one whole-block store of the layer's
    value, which overwrites every cell of the output buffer. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2000x128 .f32) (harg6 : arg6.IsWhole)
    (x0 x1 : Vec F S2000x128 .f32) (x2 x3 : Vec F S128x128 .f32) (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__sage_kernel i arg1 harg1 arg2 harg2 arg3 harg3 arg4 harg4 arg5 harg5 arg6 harg6) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body obligation, at a generic point -/

/-- What the body is called with at point `t`: the invariant, what the core owes, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body returns at point `t`: the same invariant and debt, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: each input's buffer holds its block there, so the body's triple applies at the five
    blocks; the invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Sage2.lean ====
/- Region 2 (SAGE layer 3's launch) at the contents `V` its arrays hold when the region is entered: each window's
   block at a grid point, what the body leaves in the output window's staging buffer (one whole-block store of
   relu(h·Ws + a·Wn + b) of the point's input blocks), the body's triple, the proof data and the body obligation. -/
import proofs.«411194_j75926431859108_1_alg».proof.Proof.Gen.Kernel.Launch
import proofs.«411194_j75926431859108_1_alg».proof.Proof.Gen.Kernel.Skeleton
import proofs.«411194_j75926431859108_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-block rectangles the body loads and stores through. -/
abbrev rX2 : Rect S2000x128 := Rect.unit (s := S2000x128) ![0, 0] S2000x128.size inb_S2000x128_S2000x128_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0

/-- The output window's staging buffer after the body: its one store, of the layer's value on the point's blocks. -/
def out2_5 (x0 x1 : Vec F S2000x128 .f32) (x2 x3 : Vec F S128x128 .f32) (x4 : Vec F S1x128 .f32) : Vec F S2000x128 .f32 :=
  View.canon [⟨rX2, k2_pay1 (View.ld x0 rX2) (View.ld x1 rX2) (View.ld x2 rW2) (View.ld x3 rW2) (View.ld x4 rB2)⟩]

/-- The proof data of region 2 on core `c`: the arrays as entered; each input's buffer at its block after the body,
    the output's at `out2_5` of the input blocks; the scoped rest untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-! ## What the body finds in each input window's buffer -/

/-- Input window 0's current staging buffer holds its block at every point, fetched there or not, for any proof data
    whose array is `V`'s and whose body leaves the block in place: unfetched, the block index has not moved, so the
    block kept from the point before is this point's. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place: unfetched, the block index has not moved, so the
    block kept from the point before is this point's. The window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place: unfetched, the block index has not moved, so the
    block kept from the point before is this point's. The window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s and whose body leaves the block in place: unfetched, the block index has not moved, so the
    block kept from the point before is this point's. The window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s and whose body leaves the block in place: unfetched, the block index has not moved, so the
    block kept from the point before is this point's. The window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The output window's one store covers its buffer -/

/-- The whole-block rectangle is the buffer's full extent, so every index lies in it. -/
theorem cover2_5 (p0 : Vec F S2000x128 .f32) (y : S2000x128.Idx) :
    ∃ pc ∈ ([⟨rX2, p0⟩] : List (View.Piece (Elt F) S2000x128 .f32)), y ∈ pc.1.set :=
  View.cover_of_tiled [⟨rX2, p0⟩] S2000x128.size (by rfl) y

/-! ## The body's triple -/

set_option maxHeartbeats 1000000 in
/-- The body on whole staging memrefs, the five inputs' reading `x0 … x4` and the output's holding anything, runs to
    the continuation with the inputs' as they were and the output's at `out2_5 x0 x1 x2 x3 x4`: five whole-block
    loads of the inputs, one load of the output whose value is dropped, and one whole-block store of the layer's
    value, which overwrites every cell of the output buffer. -/
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2000x128 .f32) (harg6 : arg6.IsWhole)
    (x0 x1 : Vec F S2000x128 .f32) (x2 x3 : Vec F S128x128 .f32) (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__sage_kernel i arg1 harg1 arg2 harg2 arg3 harg3 arg4 harg4 arg5 harg5 arg6 harg6) K := by
  simp only [cc2__sage_kernel_eq_skeleton]; unfold cc2__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The body obligation, at a generic point -/

/-- What the body is called with at point `t`: the invariant, what the core owes, and each window's current staging
    buffer at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What the body returns at point `t`: the same invariant and debt, each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: each input's buffer holds its block there, so the body's triple applies at the five
    blocks; the invariant and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.PoolRuns.lean ====
/- Region 3 (the pooling and classifier launch), the part shared by its three control cases: the body's two
   conditions on the grid coordinate in closed form, where the output window is idle and where it is written back,
   the region's invariant with both accumulators named, and the body's triple in each case with the accumulators'
   contents after it stated through the kernel's own payloads. -/
import proofs.«411194_j75926431859108_1_alg».proof.Proof.Gen.Kernel.Launch
import proofs.«411194_j75926431859108_1_alg».proof.Proof.Gen.Kernel.Skeleton
import proofs.«411194_j75926431859108_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The first conditional's condition (reset the accumulators), from the grid coordinate. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The second conditional's condition (finish: divide, project, add the bias, store the output block). -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-! ## Where the windows are idle, and where the output is written back -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
/-- Away from the last point the output window is idle: the body stores nothing into it there, -/
theorem idleAt3_4 : ∀ t : Fin cfg3.N, ¬cond3_1 (grid3.coords t) → cfg3.idle 4 (grid3.coords t) = true := by decide +kernel
/-- and its block is not written back there. -/
theorem noFlush3_4 : ∀ t : Fin cfg3.N, ¬cond3_1 (grid3.coords t) → (cfg3.win 4).flush t = false := by decide +kernel
/-- At the last point it is live. -/
theorem liveAt3_4 : ∀ t : Fin cfg3.N, cond3_1 (grid3.coords t) → cfg3.idle 4 (grid3.coords t) = false := by decide +kernel

/-! ## The accumulators and the invariant -/

/-- The two accumulators (the weighted row sums and the row counts): whole scoped buffers of the kernel's own. -/
abbrev scM3_0 : Memref sig .tc .vmem S128x128 .f32 := Memref.whole cc3_scratch0
abbrev scM3_1 : Memref sig .tc .vmem S128x128 .f32 := Memref.whole cc3_scratch1

/-- What the launch hands the region and takes back: both accumulators at some contents, every other scoped buffer
    unopened, the generator register at some state. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

/-! ## The body's triple, case by case -/

theorem hz3 : (![0, 0] : Fin 2 → Nat) = fun _ => 0 := funext fun a => by fin_cases a <;> rfl

/-- A whole-block store, last, leaves its payload: whatever was stored before it and whatever the buffer held. -/
theorem read_writes_whole3 {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., by
    subst h; show y ∈ (Rect.whole S).set; rw [Rect.set_whole]; exact Finset.mem_univ y⟩), View.canon_cons_unit_zero h]

set_option maxHeartbeats 1000000 in
/-- The first point (the reset taken, the finish not): on whole memrefs, the two loaded inputs at `x0`, `x1` and the
    accumulators at anything, the body leaves the inputs as they were, the first accumulator at the zero block plus
    this point's weighted row sums, the second at the zero block plus this point's row counts. -/
theorem run3_A (c : Dev nD) (E : Set ℕ) (i : grid3.Coords)
    (arg1 : Memref sig .tc .vmem S2000x128 .f32) (harg1 : arg1.IsWhole) (arg2 : Memref sig .tc .vmem S2000x1 .i32) (harg2 : arg2.IsWhole)
    (arg3 : Memref sig .tc .vmem S128x10 .f32) (harg3 : arg3.IsWhole) (arg4 : Memref sig .tc .vmem S1x10 .f32) (harg4 : arg4.IsWhole)
    (arg5 : Memref sig .tc .vmem S128x10 .f32) (harg5 : arg5.IsWhole) (arg6 : Memref sig .tc .vmem S128x128 .f32) (harg6 : arg6.IsWhole)
    (arg7 : Memref sig .tc .vmem S128x128 .f32) (harg7 : arg7.IsWhole) (hc0 : cond3_0 i) (hc1 : ¬cond3_1 i)
    (x0 : Vec F S2000x128 .f32) (x1 : Vec F S2000x1 .i32) (K : PUnit → sProp 𝕄) :
    iprop(owns (c : Thread nD τ) arg1 fullShare x0 ∗ owns (c : Thread nD τ) arg2 fullShare x1
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg6 fullShare (k3_pay4 x0 x1 k3_pay1) ∗ owns (c : Thread nD τ) arg7 fullShare (k3_pay5 x1 k3_pay2)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%ds0, %fs0, -, HS0⟩, ⟨%ds1, %fs1, -, HS1⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    sl_unfold_words
    refine (read_writes_whole3 _ _ hz3 _ _ _).trans ?_
    simp only [View.readAt_eq_ld, harg1.read_unread, harg2.read_unread, harg3.read_unread, harg4.read_unread, harg6.read_unread, harg7.read_unread,
      View.ld_unit_zero (S := S2000x128) hz3, View.ld_unit_zero (S := S2000x1) hz3, View.ld_unit_zero (S := S128x128) hz3,
      View.ld_unit_zero (S := S128x10) hz3, View.ld_unit_zero (S := S1x10) hz3, View.readCov_unit_zero (S := S128x128) _ hz3]
  iexists _; isplitr
  swap; · iexact HS1
  ipureintro
  sl_unfold_words
  refine (read_writes_whole3 _ _ hz3 _ _ _).trans ?_
  simp only [View.readAt_eq_ld, harg1.read_unread, harg2.read_unread, harg3.read_unread, harg4.read_unread, harg6.read_unread, harg7.read_unread,
    View.ld_unit_zero (S := S2000x128) hz3, View.ld_unit_zero (S := S2000x1) hz3, View.ld_unit_zero (S := S128x128) hz3,
    View.ld_unit_zero (S := S128x10) hz3, View.ld_unit_zero (S := S1x10) hz3, View.readCov_unit_zero (S := S128x128) _ hz3]

set_option maxHeartbeats 1000000 in
/-- A point strictly between the first and the last (neither conditional taken): the accumulators, found at `xs0`,
    `xs1`, are left at `xs0` plus this point's weighted row sums and `xs1` plus this point's row counts. -/
theorem run3_B (c : Dev nD) (E : Set ℕ) (i : grid3.Coords)
    (arg1 : Memref sig .tc .vmem S2000x128 .f32) (harg1 : arg1.IsWhole) (arg2 : Memref sig .tc .vmem S2000x1 .i32) (harg2 : arg2.IsWhole)
    (arg3 : Memref sig .tc .vmem S128x10 .f32) (harg3 : arg3.IsWhole) (arg4 : Memref sig .tc .vmem S1x10 .f32) (harg4 : arg4.IsWhole)
    (arg5 : Memref sig .tc .vmem S128x10 .f32) (harg5 : arg5.IsWhole) (arg6 : Memref sig .tc .vmem S128x128 .f32) (harg6 : arg6.IsWhole)
    (arg7 : Memref sig .tc .vmem S128x128 .f32) (harg7 : arg7.IsWhole) (hc0 : ¬cond3_0 i) (hc1 : ¬cond3_1 i)
    (x0 : Vec F S2000x128 .f32) (x1 : Vec F S2000x1 .i32) (xs0 xs1 : Vec F S128x128 .f32) (K : PUnit → sProp 𝕄) :
    iprop(owns (c : Thread nD τ) arg1 fullShare x0 ∗ owns (c : Thread nD τ) arg2 fullShare x1
        ∗ owns (c : Thread nD τ) arg6 fullShare xs0 ∗ owns (c : Thread nD τ) arg7 fullShare xs1
        ∗ (iprop(owns (c : Thread nD τ) arg1 fullShare x0 ∗ owns (c : Thread nD τ) arg2 fullShare x1
            ∗ owns (c : Thread nD τ) arg6 fullShare (k3_pay4 x0 x1 xs0) ∗ owns (c : Thread nD τ) arg7 fullShare (k3_pay5 x1 xs1)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%fs0, %hfs0, HS0⟩, ⟨%fs1, %hfs1, HS1⟩, Hk⟩
  obtain rfl := harg1.eq_unread hf0; obtain rfl := harg2.eq_unread hf1
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    sl_unfold_words
    refine (read_writes_whole3 _ _ hz3 _ _ _).trans ?_
    simp only [View.readAt_eq_ld, harg1.read_unread, harg2.read_unread, harg3.read_unread, harg4.read_unread, harg6.read_unread, harg7.read_unread,
      View.ld_unit_zero (S := S2000x128) hz3, View.ld_unit_zero (S := S2000x1) hz3, View.ld_unit_zero (S := S128x128) hz3,
      View.ld_unit_zero (S := S128x10) hz3, View.ld_unit_zero (S := S1x10) hz3, View.readCov_unit_zero (S := S128x128) _ hz3]
  iexists _; isplitr
  swap; · iexact HS1
  ipureintro
  sl_unfold_words
  refine (read_writes_whole3 _ _ hz3 _ _ _).trans ?_
  simp only [View.readAt_eq_ld, harg1.read_unread, harg2.read_unread, harg3.read_unread, harg4.read_unread, harg6.read_unread, harg7.read_unread,
    View.ld_unit_zero (S := S2000x128) hz3, View.ld_unit_zero (S := S2000x1) hz3, View.ld_unit_zero (S := S128x128) hz3,
    View.ld_unit_zero (S := S128x10) hz3, View.ld_unit_zero (S := S1x10) hz3, View.readCov_unit_zero (S := S128x128) _ hz3]

set_option maxHeartbeats 1000000 in
/-- The last point (the finish taken, the reset not): the accumulators are updated as at any later point, and the
    output's buffer, found at anything, is left at the finishing step's block of the UPDATED accumulators, the
    projection block `x2` and the bias block `x3`. -/
theorem run3_C (c : Dev nD) (E : Set ℕ) (i : grid3.Coords)
    (arg1 : Memref sig .tc .vmem S2000x128 .f32) (harg1 : arg1.IsWhole) (arg2 : Memref sig .tc .vmem S2000x1 .i32) (harg2 : arg2.IsWhole)
    (arg3 : Memref sig .tc .vmem S128x10 .f32) (harg3 : arg3.IsWhole) (arg4 : Memref sig .tc .vmem S1x10 .f32) (harg4 : arg4.IsWhole)
    (arg5 : Memref sig .tc .vmem S128x10 .f32) (harg5 : arg5.IsWhole) (arg6 : Memref sig .tc .vmem S128x128 .f32) (harg6 : arg6.IsWhole)
    (arg7 : Memref sig .tc .vmem S128x128 .f32) (harg7 : arg7.IsWhole) (hc0 : ¬cond3_0 i) (hc1 : cond3_1 i)
    (x0 : Vec F S2000x128 .f32) (x1 : Vec F S2000x1 .i32) (x2 : Vec F S128x10 .f32) (x3 : Vec F S1x10 .f32)
    (xs0 xs1 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3 ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k3_pay6 (k3_pay4 x0 x1 xs0) (k3_pay5 x1 xs1) x2 x3)
            ∗ owns (c : Thread nD τ) arg6 fullShare (k3_pay4 x0 x1 xs0) ∗ owns (c : Thread nD τ) arg7 fullShare (k3_pay5 x1 xs1)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg1.eq_unread hf0; obtain rfl := harg2.eq_unread hf1
  obtain rfl := harg3.eq_unread hf2; obtain rfl := harg4.eq_unread hf3
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    refine (read_writes_whole3 _ _ hz3 _ _ _).trans ?_
    simp only [View.readAt_eq_ld, harg1.read_unread, harg2.read_unread, harg3.read_unread, harg4.read_unread, harg6.read_unread, harg7.read_unread,
      View.ld_unit_zero (S := S2000x128) hz3, View.ld_unit_zero (S := S2000x1) hz3, View.ld_unit_zero (S := S128x128) hz3,
      View.ld_unit_zero (S := S128x10) hz3, View.ld_unit_zero (S := S1x10) hz3, View.readCov_unit_zero (S := S128x128) _ hz3]
  isplitl [HS0]
  · iexists _; isplitr
    swap; · iexact HS0
    ipureintro
    sl_unfold_words
    refine (read_writes_whole3 _ _ hz3 _ _ _).trans ?_
    simp only [View.readAt_eq_ld, harg1.read_unread, harg2.read_unread, harg3.read_unread, harg4.read_unread, harg6.read_unread, harg7.read_unread,
      View.ld_unit_zero (S := S2000x128) hz3, View.ld_unit_zero (S := S2000x1) hz3, View.ld_unit_zero (S := S128x128) hz3,
      View.ld_unit_zero (S := S128x10) hz3, View.ld_unit_zero (S := S1x10) hz3, View.readCov_unit_zero (S := S128x128) _ hz3]
  iexists _; isplitr
  swap; · iexact HS1
  ipureintro
  sl_unfold_words
  refine (read_writes_whole3 _ _ hz3 _ _ _).trans ?_
  simp only [View.readAt_eq_ld, harg1.read_unread, harg2.read_unread, harg3.read_unread, harg4.read_unread, harg6.read_unread, harg7.read_unread,
    View.ld_unit_zero (S := S2000x128) hz3, View.ld_unit_zero (S := S2000x1) hz3, View.ld_unit_zero (S := S128x128) hz3,
    View.ld_unit_zero (S := S128x10) hz3, View.ld_unit_zero (S := S1x10) hz3, View.readCov_unit_zero (S := S128x128) _ hz3]

end Cert.Kernel.Hand

end
-- ==== Proof.K.Pool.lean ====
/- Region 3 (the pooling and classifier launch) at the contents `V` its arrays hold when the region is entered: each
   window's block at a grid point; the two accumulators after each point (zero at the first point, then each point's
   one-hot-weighted row sums (the rows summed per group id) and row counts added), and the output block the finishing step makes of them; the proof data, whose
   invariant names both accumulators' contents between points; the body obligation, by the three control cases. -/
import proofs.«411194_j75926431859108_1_alg».proof.Proof.Gen.Kernel.Launch
import proofs.«411194_j75926431859108_1_alg».proof.Proof.Gen.Kernel.Skeleton
import proofs.«411194_j75926431859108_1_alg».proof.Proof.Gen.Kernel.Points
import proofs.«411194_j75926431859108_1_alg».proof.Proof.K.PoolRuns
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The accumulation -/

/-- The two accumulators after the body at point `n`: at the first point the zero blocks plus that point's weighted
    row sums and row counts, afterwards what the point before left plus this point's. -/
def acc3 (c : Dev nD) : (n : ℕ) → n < cfg3.N → Vec F S128x128 .f32 × Vec F S128x128 .f32
  | 0, hn => (k3_pay4 (iblk3 V c 0 ⟨0, hn⟩) (iblk3 V c 1 ⟨0, hn⟩) k3_pay1, k3_pay5 (iblk3 V c 1 ⟨0, hn⟩) k3_pay2)
  | n + 1, hn => (k3_pay4 (iblk3 V c 0 ⟨n + 1, hn⟩) (iblk3 V c 1 ⟨n + 1, hn⟩) (acc3 c n (Nat.lt_of_succ_lt hn)).1,
      k3_pay5 (iblk3 V c 1 ⟨n + 1, hn⟩) (acc3 c n (Nat.lt_of_succ_lt hn)).2)

/-- (output buffer, first accumulator, second accumulator) after the body at point `n`. The first component is the
    block the finishing step makes of the point's accumulators, the projection block and the bias block: what the
    output's buffer holds after the last point, where that step runs; at every other point the output window is idle
    and not written back, and the component is not consulted. -/
def outsAt3 (c : Dev nD) : (n : ℕ) → n < cfg3.N → Vec F S128x10 .f32 × Vec F S128x128 .f32 × Vec F S128x128 .f32 :=
  fun n hn => (k3_pay6 (acc3 V c n hn).1 (acc3 V c n hn).2 (iblk3 V c 2 ⟨n, hn⟩) (iblk3 V c 3 ⟨n, hn⟩), acc3 V c n hn)

theorem outsAt3_first (c : Dev nD) (hn : 0 < cfg3.N) :
    (outsAt3 V c 0 hn).2 = (k3_pay4 (iblk3 V c 0 ⟨0, hn⟩) (iblk3 V c 1 ⟨0, hn⟩) k3_pay1, k3_pay5 (iblk3 V c 1 ⟨0, hn⟩) k3_pay2) := rfl
theorem outsAt3_succ (c : Dev nD) (n : ℕ) (hn : n + 1 < cfg3.N) :
    (outsAt3 V c (n + 1) hn).2 = (k3_pay4 (iblk3 V c 0 ⟨n + 1, hn⟩) (iblk3 V c 1 ⟨n + 1, hn⟩) (outsAt3 V c n (Nat.lt_of_succ_lt hn)).2.1,
      k3_pay5 (iblk3 V c 1 ⟨n + 1, hn⟩) (outsAt3 V c n (Nat.lt_of_succ_lt hn)).2.2) := rfl
theorem outsAt3_last (c : Dev nD) (hn : 24 < cfg3.N) :
    (outsAt3 V c 24 hn).1 = k3_pay6 (outsAt3 V c 24 hn).2.1 (outsAt3 V c 24 hn).2.2 (iblk3 V c 2 ⟨24, hn⟩) (iblk3 V c 3 ⟨24, hn⟩) := rfl

/-- The accumulators after the first point. -/
theorem acc3_zero (c : Dev nD) (t : Fin cfg3.N) (h : t.val = 0) :
    acc3 V c t.val t.isLt = (k3_pay4 (iblk3 V c 0 t) (iblk3 V c 1 t) k3_pay1, k3_pay5 (iblk3 V c 1 t) k3_pay2) := by
  obtain ⟨n, hn⟩ := t
  cases n with
  | zero => rfl
  | succ n => exact absurd h (Nat.succ_ne_zero n)

/-- The accumulators after a later point, over what the point before left. -/
theorem acc3_pos (c : Dev nD) (t : Fin cfg3.N) (h : t.val ≠ 0) :
    acc3 V c t.val t.isLt = (k3_pay4 (iblk3 V c 0 t) (iblk3 V c 1 t) (acc3 V c (t.val - 1) (Nat.lt_of_le_of_lt (Nat.sub_le _ _) t.isLt)).1,
      k3_pay5 (iblk3 V c 1 t) (acc3 V c (t.val - 1) (Nat.lt_of_le_of_lt (Nat.sub_le _ _) t.isLt)).2) := by
  obtain ⟨n, hn⟩ := t
  cases n with
  | zero => exact absurd rfl h
  | succ n => rfl

/-! ## The invariant between points -/

/-- Before the first point what the launch hands over (both accumulators at anything); before a later point both
    accumulators at what the point before left, every other scoped buffer unopened, the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare (acc3 V c n hn).1 ∗ owns (c : Thread nD τ) scM3_1 fullShare (acc3 V c n hn).2)
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (acc3 V c n hn).1 ∗ owns (c : Thread nD τ) scM3_1 fullShare (acc3 V c n hn).2)
      ∗ Pipeline.scopedRestBut (Ix := Unit) (Name := ℕ) (U := UR sig nD τ) (Lvl := ℕ) (Val := Elt F) spec3 c [cc3_scratch0, cc3_scratch1]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (acc3 V c (n - 1) (by omega)).1 ∗ owns (c : Thread nD τ) scM3_1 fullShare (acc3 V c (n - 1) (by omega)).2)
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The proof data -/

/-- The proof data of region 3 on core `c`: the arrays as entered; after the body each input's buffer at its block, the
    output's at `outsAt3`'s first component; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

theorem share3 (c : Dev nD) : ∀ w, (dat3 V c).q w = fullShare := fun _ => rfl
theorem owed3 (c : Dev nD) : ∀ t g, (dat3 V c).owed t g = 0 := fun _ _ => rfl
theorem recorded3 (c : Dev nD) : ∀ t, (dat3 V c).recorded t = Set.univ := fun _ => rfl

theorem PhiS3_castSucc (c : Dev nD) (t : Fin cfg3.N) :
    (dat3 V c).Φ t.castSucc = PhiS3 V c t.val (Nat.le_of_lt t.isLt) := by
  dsimp only [dat3]; simp only [Fin.coe_castSucc]

/-- Each input's current staging buffer holds its block at every point, fetched there or not: an input not fetched at a
    point has the block index it had at the point before, and the body leaves every input's buffer as it found it. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point. The inputs' memrefs hold their blocks; the point is the first, the last, or one between, and
    that case's triple applies: the invariant hands the body both accumulators (at anything at the first point, else at
    what the point before left) and takes them back at this point's contents; away from the last point the output's
    buffer is handed back untouched, at the last point it is left at the finishing step's block of the accumulators
    just updated; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  have hN : t.val < 25 := lt_of_lt_of_eq t.isLt (show cfg3.N = 25 from N_3)
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 4 t (idleAt3_4 t hc1) (noFlush3_4 t hc1)]
    rw [acc3_zero V c t h0]
    rw [PhiS3_castSucc V c t, PhiS3_zero V c _ _ h0, PhiA3_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (run3_A c Set.univ (grid3.coords t) _ _ _ _ _ _ _ _ _ _ _ _ _ _ hc0 hc1 (iblk3 V c 0 t) (iblk3 V c 1 t) _)
    isplitl [H0]; · iexact H0
    isplitl [H1]; · iexact H1
    isplitl [HS0]; · iexact HS0
    isplitl [HS1]; · iexact HS1
    iintro ⟨H0, H1, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    iexists _; iexact H4
  · have hc0 : ¬cond3_0 (grid3.coords t) := fun h => h0 ((hcond3_0 t).mp h)
    rw [acc3_pos V c t h0]
    rw [PhiS3_castSucc V c t, PhiS3_pos V c _ _ h0]
    by_cases h1 : t.val = 24
    · have hc1 : cond3_1 (grid3.coords t) := (hcond3_1 t).mpr h1
      rw [show (dat3 V c).leavesExact 4 t = owns (c : Thread nD τ) (st3_4 t) fullShare ((dat3 V c).after 4 t) from by
        unfold Dat.leavesExact; rw [liveAt3_4 t hc1], after3_4]
      unfold outsAt3; rw [acc3_pos V c t h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run3_C c Set.univ (grid3.coords t) _ _ _ _ _ _ _ _ _ _ _ _ _ _ hc0 hc1 (iblk3 V c 0 t) (iblk3 V c 1 t) (iblk3 V c 2 t) (iblk3 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexact H4
    · have hc1 : ¬cond3_1 (grid3.coords t) := fun h => h1 ((hcond3_1 t).mp h)
      rw [Dat.leavesExact_idle (dat3 V c) 4 t (idleAt3_4 t hc1) (noFlush3_4 t hc1)]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run3_B c Set.univ (grid3.coords t) _ _ _ _ _ _ _ _ _ _ _ _ _ _ hc0 hc1 (iblk3 V c 0 t) (iblk3 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexists _; iexact H4

/-- The body obligation of region 3, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives back what the launch handed over: the accumulators' named contents are forgotten. -/
theorem hout3 (c : Dev nD) : (dat3 V c).Φ (Fin.last cfg3.N) ⊢ Pipeline.ΦA spec3 c := by
  have hne : (Fin.last cfg3.N).val ≠ 0 := by rw [Fin.val_last]; have : cfg3.N = 25 := N_3; omega
  rw [show (dat3 V c).Φ (Fin.last cfg3.N) = PhiS3 V c (Fin.last cfg3.N).val (Nat.le_of_lt_succ (Fin.last cfg3.N).isLt) from rfl,
    PhiS3_pos V c _ _ hne, PhiA3_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

end Cert.Kernel.Hand

end
-- ==== Proof.K.Run.lean ====
/- The run of @main: its four host stretches and its four kernel regions in order, from the launch to the return.
   The buffer contents at each of the nine boundaries are a fold from the launch memory (a stretch rewrites the
   buffers its operations write; a region leaves its arrays at what its write-backs fold to and every other buffer
   as entered). Each region is a segment over the thread state "every unscoped buffer at the boundary's contents,
   the generator register at some state, nothing owed"; the run reads every unscoped buffer at the last boundary's
   contents, and no stretch and no region changes an argument array. -/
import proofs.«411194_j75926431859108_1_alg».proof.Proof.Gen.Kernel.Launch
import proofs.«411194_j75926431859108_1_alg».proof.Proof.Gen.Kernel.Skeleton
import proofs.«411194_j75926431859108_1_alg».proof.Proof.Gen.Kernel.Points
import proofs.«411194_j75926431859108_1_alg».proof.Proof.Gen.Kernel.Regions
import proofs.«411194_j75926431859108_1_alg».proof.Proof.K.Sage0
import proofs.«411194_j75926431859108_1_alg».proof.Proof.K.Sage1
import proofs.«411194_j75926431859108_1_alg».proof.Proof.K.Sage2
import proofs.«411194_j75926431859108_1_alg».proof.Proof.K.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)

/-- After host stretch 0: what region 0 (the first aggregation layer) is entered from. -/
abbrev W1 : Dev nD → Valuation τ sig (Elt F) := fun c => StableHlo.after hostOps0 (W0 m ρ c)
/-- The same read at the TensorCore's references: the contents region 0's proof data are stated at. -/
abbrev V1 : (c : Dev nD) → (b : Ref sig .tc) → Buf (Elt F) ((c : Thread nD τ).loc b) := fun c b => W1 m ρ c b
/-- At region 0's exit: each of its arrays at what the pipeline leaves in it (an input as entered, the output at
    its write-backs folded over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The exit contents read at the TensorCore's references. -/
abbrev V2 : (c : Dev nD) → (b : Ref sig .tc) → Buf (Elt F) ((c : Thread nD τ).loc b) := fun c b => W2 m ρ c b
/-- At region 0's exit each of its arrays holds what the pipeline leaves, and every other buffer what it held at
    entry: what putting the arrays back among the unscoped buffers asks. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1: what region 1 (the second aggregation layer) is entered from. -/
abbrev W3 : Dev nD → Valuation τ sig (Elt F) := fun c => StableHlo.after hostOps1 (W2 m ρ c)
/-- The same read at the TensorCore's references: the contents region 1's proof data are stated at. -/
abbrev V3 : (c : Dev nD) → (b : Ref sig .tc) → Buf (Elt F) ((c : Thread nD τ).loc b) := fun c b => W3 m ρ c b
/-- At region 1's exit: each of its arrays at what the pipeline leaves in it (an input as entered, the output at
    its write-backs folded over the grid), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The exit contents read at the TensorCore's references. -/
abbrev V4 : (c : Dev nD) → (b : Ref sig .tc) → Buf (Elt F) ((c : Thread nD τ).loc b) := fun c b => W4 m ρ c b
/-- At region 1's exit each of its arrays holds what the pipeline leaves, and every other buffer what it held at
    entry: what putting the arrays back among the unscoped buffers asks. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2: what region 2 (the third aggregation layer) is entered from. -/
abbrev W5 : Dev nD → Valuation τ sig (Elt F) := fun c => StableHlo.after hostOps2 (W4 m ρ c)
/-- The same read at the TensorCore's references: the contents region 2's proof data are stated at. -/
abbrev V5 : (c : Dev nD) → (b : Ref sig .tc) → Buf (Elt F) ((c : Thread nD τ).loc b) := fun c b => W5 m ρ c b
/-- At region 2's exit: each of its arrays at what the pipeline leaves in it (an input as entered, the output at
    its write-backs folded over the grid), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The exit contents read at the TensorCore's references. -/
abbrev V6 : (c : Dev nD) → (b : Ref sig .tc) → Buf (Elt F) ((c : Thread nD τ).loc b) := fun c b => W6 m ρ c b
/-- At region 2's exit each of its arrays holds what the pipeline leaves, and every other buffer what it held at
    entry: what putting the arrays back among the unscoped buffers asks. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3: what region 3 (the pooling and classifier) is entered from. -/
abbrev W7 : Dev nD → Valuation τ sig (Elt F) := fun c => StableHlo.after hostOps3 (W6 m ρ c)
/-- The same read at the TensorCore's references: the contents region 3's proof data are stated at. -/
abbrev V7 : (c : Dev nD) → (b : Ref sig .tc) → Buf (Elt F) ((c : Thread nD τ).loc b) := fun c b => W7 m ρ c b
/-- At region 3's exit: each of its arrays at what the pipeline leaves in it (an input as entered, the output at
    its write-backs folded over the grid), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The exit contents read at the TensorCore's references. -/
abbrev V8 : (c : Dev nD) → (b : Ref sig .tc) → Buf (Elt F) ((c : Thread nD τ).loc b) := fun c b => W8 m ρ c b
/-- At region 3's exit each of its arrays holds what the pipeline leaves, and every other buffer what it held at
    entry: what putting the arrays back among the unscoped buffers asks. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debt, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at the stretch's result from `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the generator
    register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 (the first aggregation layer) over the thread state: entered from every unscoped buffer at `W1`, left at `W2`.
    Its arrays are split out of the unscoped buffers at entry and put back at the exit contents; the generator register into the class invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (the second aggregation layer) over the thread state: entered from every unscoped buffer at `W3`, left at `W4`.
    Its arrays are split out of the unscoped buffers at entry and put back at the exit contents; the generator register into the class invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (the third aggregation layer) over the thread state: entered from every unscoped buffer at `W5`, left at `W6`.
    Its arrays are split out of the unscoped buffers at entry and put back at the exit contents; the generator register into the class invariant and out;
    nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (the pooling and classifier) over the thread state: entered from every unscoped buffer at `W7`, left at `W8`.
    Its arrays are split out of the unscoped buffers at entry and put back at the exit contents; the generator
    register and the scoped rest first make the class invariant, from which the region's own invariant at the first
    point follows, and its invariant at the last point gives the class invariant back; nothing owed; no semaphore of
    the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun c t => funext fun g => owed3 (V7 m ρ) c t g
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full (share3 (V7 m ρ) c)) (V7 m ρ c) fun w => A_eq3 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 3 c).owed 0 = 0 from funext fun g => owed3 (V7 m ρ) c 0 g]
      icases HO with ⟨%W, HO⟩; iexists W; isplitr
      · ipureintro; exact fun x _ => Or.inl ((recorded3 (V7 m ρ) c 0).symm ▸ Set.mem_univ x)
      iexact HO
    isplitl [Hp]; · iexact Hp
    iexact Hrest
  hin c := by
    refine (?_ : _ ⊢ Pipeline.ΦA spec3 c).trans (hin3 (V7 m ρ) c)
    unfold Pipeline.ΦA
    iintro ⟨Hp, -, Hr⟩
    isplitl [Hr]; · iexact Hr
    iexact Hp
  hout c := by
    rw [Pipeline.ownSems0_none]
    refine (show (pdats m ρ 3 c).Φ (Fin.last _) ⊢ Pipeline.ΦA spec3 c from hout3 (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full (share3 (V7 m ρ) c))
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ 3 c).owed (Fin.last _) = 0 from funext fun g => owed3 (V7 m ρ) c _ g]
    icases HO with ⟨%W, -, HO⟩; iexists W; iexact HO

/-! ## @main as segments, and the launch -/

/-- @main's eight segments in order: a host segment per stretch from its boundary's contents, a region per kernel
    launch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments: it is the chain of its items, and the segments' run is that chain. -/
theorem main_run (c : Dev nD) : main (F := F) c = Pipeline.Seg.run (segs m ρ) := (main_chain c).trans (by chain_rfl)

set_option backward.isDefEq.respectTransparency.types false in
/-- The run: from any memory with zero counters, every weakly fair execution of @main on the TensorCores terminates,
    nothing faulting, and in every final state each core's unscoped buffers hold the last boundary's contents. The
    thread states chain by name; the first is made from what the launch deals; the last is read against the final
    state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-! ## The arguments end as launched

No stretch writes an argument, and a region either has it as an input window's array, which no write-back touches,
or does not have it among its arrays at all. -/

/-- Host stretch 0 leaves every reference outside its written list as it found it. -/
theorem W1_thru (c : Dev nD) (r : Ref sig .tc) (h : r ∉ hostOps0_W) :
    W1 m ρ c (Proc.devRef .tc r) = W0 m ρ c (Proc.devRef .tc r) :=
  StableHlo.after_of_writes_sub hostOps0 _ hostOps0_writes h
/-- Region 0 leaves a reference as entered when every window that has it as its array is an input window: an
    input's array is never written back, and a reference that is no window's array bypasses the region. -/
theorem W2_thru (c : Dev nD) (r : Ref sig .tc) (h : ∀ w, Pipeline.arrRef spec0 w = r → (cfg0.win w).isOut = false) :
    W2 m ρ c (Proc.devRef .tc r) = W1 m ρ c (Proc.devRef .tc r) := by
  by_cases hr : ∃ w, Pipeline.arrRef spec0 w = r
  · obtain ⟨w, rfl⟩ := hr
    exact (W2_arr m ρ c w).trans (((dat0 (V1 m ρ) c).arrAt_in w (h w rfl) _).trans (A_eq0 (V1 m ρ) c w))
  · exact W2_of_ne m ρ c r fun w e => hr ⟨w, e⟩

/-- Host stretch 1 leaves every reference outside its written list as it found it. -/
theorem W3_thru (c : Dev nD) (r : Ref sig .tc) (h : r ∉ hostOps1_W) :
    W3 m ρ c (Proc.devRef .tc r) = W2 m ρ c (Proc.devRef .tc r) :=
  StableHlo.after_of_writes_sub hostOps1 _ hostOps1_writes h
/-- Region 1 leaves a reference as entered when every window that has it as its array is an input window: an
    input's array is never written back, and a reference that is no window's array bypasses the region. -/
theorem W4_thru (c : Dev nD) (r : Ref sig .tc) (h : ∀ w, Pipeline.arrRef spec1 w = r → (cfg1.win w).isOut = false) :
    W4 m ρ c (Proc.devRef .tc r) = W3 m ρ c (Proc.devRef .tc r) := by
  by_cases hr : ∃ w, Pipeline.arrRef spec1 w = r
  · obtain ⟨w, rfl⟩ := hr
    exact (W4_arr m ρ c w).trans (((dat1 (V3 m ρ) c).arrAt_in w (h w rfl) _).trans (A_eq1 (V3 m ρ) c w))
  · exact W4_of_ne m ρ c r fun w e => hr ⟨w, e⟩

/-- Host stretch 2 leaves every reference outside its written list as it found it. -/
theorem W5_thru (c : Dev nD) (r : Ref sig .tc) (h : r ∉ hostOps2_W) :
    W5 m ρ c (Proc.devRef .tc r) = W4 m ρ c (Proc.devRef .tc r) :=
  StableHlo.after_of_writes_sub hostOps2 _ hostOps2_writes h
/-- Region 2 leaves a reference as entered when every window that has it as its array is an input window: an
    input's array is never written back, and a reference that is no window's array bypasses the region. -/
theorem W6_thru (c : Dev nD) (r : Ref sig .tc) (h : ∀ w, Pipeline.arrRef spec2 w = r → (cfg2.win w).isOut = false) :
    W6 m ρ c (Proc.devRef .tc r) = W5 m ρ c (Proc.devRef .tc r) := by
  by_cases hr : ∃ w, Pipeline.arrRef spec2 w = r
  · obtain ⟨w, rfl⟩ := hr
    exact (W6_arr m ρ c w).trans (((dat2 (V5 m ρ) c).arrAt_in w (h w rfl) _).trans (A_eq2 (V5 m ρ) c w))
  · exact W6_of_ne m ρ c r fun w e => hr ⟨w, e⟩

/-- Host stretch 3 leaves every reference outside its written list as it found it. -/
theorem W7_thru (c : Dev nD) (r : Ref sig .tc) (h : r ∉ hostOps3_W) :
    W7 m ρ c (Proc.devRef .tc r) = W6 m ρ c (Proc.devRef .tc r) :=
  StableHlo.after_of_writes_sub hostOps3 _ hostOps3_writes h
/-- Region 3 leaves a reference as entered when every window that has it as its array is an input window: an
    input's array is never written back, and a reference that is no window's array bypasses the region. -/
theorem W8_thru (c : Dev nD) (r : Ref sig .tc) (h : ∀ w, Pipeline.arrRef spec3 w = r → (cfg3.win w).isOut = false) :
    W8 m ρ c (Proc.devRef .tc r) = W7 m ρ c (Proc.devRef .tc r) := by
  by_cases hr : ∃ w, Pipeline.arrRef spec3 w = r
  · obtain ⟨w, rfl⟩ := hr
    exact (W8_arr m ρ c w).trans (((dat3 (V7 m ρ) c).arrAt_in w (h w rfl) _).trans (A_eq3 (V7 m ρ) c w))
  · exact W8_of_ne m ρ c r fun w e => hr ⟨w, e⟩

/-- A reference that no stretch writes and no region has as an output window's array holds at the last boundary
    what it held at launch. -/
theorem W8_keeps (c : Dev nD) (r : Ref sig .tc)
    (h0 : r ∉ hostOps0_W) (g0 : ∀ w, Pipeline.arrRef spec0 w = r → (cfg0.win w).isOut = false)
    (h1 : r ∉ hostOps1_W) (g1 : ∀ w, Pipeline.arrRef spec1 w = r → (cfg1.win w).isOut = false)
    (h2 : r ∉ hostOps2_W) (g2 : ∀ w, Pipeline.arrRef spec2 w = r → (cfg2.win w).isOut = false)
    (h3 : r ∉ hostOps3_W) (g3 : ∀ w, Pipeline.arrRef spec3 w = r → (cfg3.win w).isOut = false) :
    W8 m ρ c (Proc.devRef .tc r) = m ((c : Thread nD τ).loc r) :=
  calc W8 m ρ c (Proc.devRef .tc r)
    _ = W7 m ρ c (Proc.devRef .tc r) := W8_thru m ρ c r g3
    _ = W6 m ρ c (Proc.devRef .tc r) := W7_thru m ρ c r h3
    _ = W5 m ρ c (Proc.devRef .tc r) := W6_thru m ρ c r g2
    _ = W4 m ρ c (Proc.devRef .tc r) := W5_thru m ρ c r h2
    _ = W3 m ρ c (Proc.devRef .tc r) := W4_thru m ρ c r g1
    _ = W2 m ρ c (Proc.devRef .tc r) := W3_thru m ρ c r h1
    _ = W1 m ρ c (Proc.devRef .tc r) := W2_thru m ρ c r g0
    _ = W0 m ρ c (Proc.devRef .tc r) := W1_thru m ρ c r h0
    _ = m ((c : Thread nD τ).loc r) := rfl

theorem W8_main_arg0 (c : Dev nD) : W8 m ρ c (Proc.devRef .tc main_arg0) = m ((c : Thread nD τ).loc main_arg0) :=
  W8_keeps m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_keeps m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_keeps m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_keeps m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_keeps m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_keeps m ρ c main_arg5 (by decide) (by decide) (by decide) (by decide) (by decide) (by decide) (by decide) (by decide)
theorem W8_main_arg6 (c : Dev nD) : W8 m ρ c (Proc.devRef .tc main_arg6) = m ((c : Thread nD τ).loc main_arg6) :=
  W8_keeps m ρ c main_arg6 (by decide) (by decide) (by decide) (by decide) (by decide) (by decide) (by decide) (by decide)
theorem W8_main_arg7 (c : Dev nD) : W8 m ρ c (Proc.devRef .tc main_arg7) = m ((c : Thread nD τ).loc main_arg7) :=
  W8_keeps m ρ c main_arg7 (by decide) (by decide) (by decide) (by decide) (by decide) (by decide) (by decide) (by decide)
theorem W8_main_arg8 (c : Dev nD) : W8 m ρ c (Proc.devRef .tc main_arg8) = m ((c : Thread nD τ).loc main_arg8) :=
  W8_keeps m ρ c main_arg8 (by decide) (by decide) (by decide) (by decide) (by decide) (by decide) (by decide) (by decide)
theorem W8_main_arg9 (c : Dev nD) : W8 m ρ c (Proc.devRef .tc main_arg9) = m ((c : Thread nD τ).loc main_arg9) :=
  W8_keeps m ρ c main_arg9 (by decide) (by decide) (by decide) (by decide) (by decide) (by decide) (by decide) (by decide)
theorem W8_main_arg10 (c : Dev nD) : W8 m ρ c (Proc.devRef .tc main_arg10) = m ((c : Thread nD τ).loc main_arg10) :=
  W8_keeps m ρ c main_arg10 (by decide) (by decide) (by decide) (by decide) (by decide) (by decide) (by decide) (by decide)
theorem W8_main_arg11 (c : Dev nD) : W8 m ρ c (Proc.devRef .tc main_arg11) = m ((c : Thread nD τ).loc main_arg11) :=
  W8_keeps m ρ c main_arg11 (by decide) (by decide) (by decide) (by decide) (by decide) (by decide) (by decide) (by decide)
theorem W8_main_arg12 (c : Dev nD) : W8 m ρ c (Proc.devRef .tc main_arg12) = m ((c : Thread nD τ).loc main_arg12) :=
  W8_keeps m ρ c main_arg12 (by decide) (by decide) (by decide) (by decide) (by decide) (by decide) (by decide) (by decide)
theorem W8_main_arg13 (c : Dev nD) : W8 m ρ c (Proc.devRef .tc main_arg13) = m ((c : Thread nD τ).loc main_arg13) :=
  W8_keeps m ρ c main_arg13 (by decide) (by decide) (by decide) (by decide) (by decide) (by decide) (by decide) (by decide)
theorem W8_main_arg14 (c : Dev nD) : W8 m ρ c (Proc.devRef .tc main_arg14) = m ((c : Thread nD τ).loc main_arg14) :=
  W8_keeps m ρ c main_arg14 (by decide) (by decide) (by decide) (by decide) (by decide) (by decide) (by decide) (by decide)

/-- The frame: @main runs, and every argument array ends holding its launch contents — each read off the run's last
    boundary, where it holds what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c)⟩) (run_all m ρ)

#print axioms frame

end Cert.Kernel.Hand

end
-- ==== Proof.KI.Sage0.lean ====
/- Region 0 (the first SAGE layer's launch) at the contents `V` its arrays hold when the region is entered: each window's
   block at a grid point, what the body leaves in the output window's staging buffer (one whole-block store of
   relu(h·Ws + a·Wn + b) of the point's input blocks), the body's triple, the proof data and the body obligation. -/
import proofs.«411194_j75926431859108_1_alg».proof.Proof.Gen.KernelIdeal.Launch
import proofs.«411194_j75926431859108_1_alg».proof.Proof.Gen.KernelIdeal.Skeleton
import proofs.«411194_j75926431859108_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rX0 : Rect S2000x128 := Rect.unit (s := S2000x128) ![0, 0] S2000x128.size inb_S2000x128_S2000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- The output window's staging buffer after the body: its one store, of the layer's value on the point's blocks. -/
def out0_5 (x0 x1 : Vec F S2000x128 .f32) (x2 x3 : Vec F S128x128 .f32) (x4 : Vec F S1x128 .f32) : Vec F S2000x128 .f32 :=
  View.canon [⟨rX0, k0_pay1 (View.ld x0 rX0) (View.ld x1 rX0) (View.ld x2 rW0) (View.ld x3 rW0) (View.ld x4 rB0)⟩]

/-- The proof data of region 0 on core `c`: the arrays as entered; each input's buffer at its block after the body,
    the output's at `out0_5` of the input blocks; the scoped rest untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-! ## What the body finds in each input window's buffer -/

/-- Input window 0's current staging buffer holds its block at every point, fetched there or not, for any proof data
    whose array is `V`'s and whose body leaves the block in place: unfetched, the block index has not moved, so the
    block kept from the point before is this point's. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place: unfetched, the block index has not moved, so the
    block kept from the point before is this point's. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place: unfetched, the block index has not moved, so the
    block kept from the point before is this point's. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place: unfetched, the block index has not moved, so the
    block kept from the point before is this point's. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is `V`'s and whose body leaves the block in place: unfetched, the block index has not moved, so the
    block kept from the point before is this point's. The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The output window's one store covers its buffer -/

/-- The whole-block rectangle is the buffer's full extent, so every index lies in it. -/
theorem cover0_5 (p0 : Vec F S2000x128 .f32) (y : S2000x128.Idx) :
    ∃ pc ∈ ([⟨rX0, p0⟩] : List (View.Piece (Elt F) S2000x128 .f32)), y ∈ pc.1.set :=
  View.cover_of_tiled [⟨rX0, p0⟩] S2000x128.size (by rfl) y

/-! ## The body's triple -/

set_option maxHeartbeats 1000000 in
/-- The body on whole staging memrefs, the five inputs' reading `x0 … x4` and the output's holding anything, runs to
    the continuation with the inputs' as they were and the output's at `out0_5 x0 x1 x2 x3 x4`: five whole-block
    loads of the inputs, one load of the output whose value is dropped, and one whole-block store of the layer's
    value, which overwrites every cell of the output buffer. -/
theorem sound_kernel0 (c : Dev nD) (E : Set ℕ) (i : grid0.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2000x128 .f32) (harg6 : arg6.IsWhole)
    (x0 x1 : Vec F S2000x128 .f32) (x2 x3 : Vec F S128x128 .f32) (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The body obligation, at a generic point -/

/-- What the body is called with at point `t`: the invariant, what the core owes, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What the body returns at point `t`: the same invariant and debt, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: each input's buffer holds its block there, so the body's triple applies at the five
    blocks; the invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Sage1.lean ====
/- Region 1 (SAGE layer 2's launch) at the contents `V` its arrays hold when the region is entered: each window's
   block at a grid point, what the body leaves in the output window's staging buffer (one whole-block store of
   relu(h·Ws + a·Wn + b) of the point's input blocks), the body's triple, the proof data and the body obligation. -/
import proofs.«411194_j75926431859108_1_alg».proof.Proof.Gen.KernelIdeal.Launch
import proofs.«411194_j75926431859108_1_alg».proof.Proof.Gen.KernelIdeal.Skeleton
import proofs.«411194_j75926431859108_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles the body loads and stores through. -/
abbrev rX1 : Rect S2000x128 := Rect.unit (s := S2000x128) ![0, 0] S2000x128.size inb_S2000x128_S2000x128_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

/-- The output window's staging buffer after the body: its one store, of the layer's value on the point's blocks. -/
def out1_5 (x0 x1 : Vec F S2000x128 .f32) (x2 x3 : Vec F S128x128 .f32) (x4 : Vec F S1x128 .f32) : Vec F S2000x128 .f32 :=
  View.canon [⟨rX1, k1_pay1 (View.ld x0 rX1) (View.ld x1 rX1) (View.ld x2 rW1) (View.ld x3 rW1) (View.ld x4 rB1)⟩]

/-- The proof data of region 1 on core `c`: the arrays as entered; each input's buffer at its block after the body,
    the output's at `out1_5` of the input blocks; the scoped rest untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-! ## What the body finds in each input window's buffer -/

/-- Input window 0's current staging buffer holds its block at every point, fetched there or not, for any proof data
    whose array is `V`'s and whose body leaves the block in place: unfetched, the block index has not moved, so the
    block kept from the point before is this point's. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: unfetched, the block index has not moved, so the
    block kept from the point before is this point's. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: unfetched, the block index has not moved, so the
    block kept from the point before is this point's. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: unfetched, the block index has not moved, so the
    block kept from the point before is this point's. The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place: unfetched, the block index has not moved, so the
    block kept from the point before is this point's. The window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The output window's one store covers its buffer -/

/-- The whole-block rectangle is the buffer's full extent, so every index lies in it. -/
theorem cover1_5 (p0 : Vec F S2000x128 .f32) (y : S2000x128.Idx) :
    ∃ pc ∈ ([⟨rX1, p0⟩] : List (View.Piece (Elt F) S2000x128 .f32)), y ∈ pc.1.set :=
  View.cover_of_tiled [⟨rX1, p0⟩] S2000x128.size (by rfl) y

/-! ## The body's triple -/

set_option maxHeartbeats 1000000 in
/-- The body on whole staging memrefs, the five inputs' reading `x0 … x4` and the output's holding anything, runs to
    the continuation with the inputs' as they were and the output's at `out1_5 x0 x1 x2 x3 x4`: five whole-block
    loads of the inputs, one load of the output whose value is dropped, and one whole-block store of the layer's
    value, which overwrites every cell of the output buffer. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2000x128 .f32) (harg6 : arg6.IsWhole)
    (x0 x1 : Vec F S2000x128 .f32) (x2 x3 : Vec F S128x128 .f32) (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__sage_kernel i arg1 harg1 arg2 harg2 arg3 harg3 arg4 harg4 arg5 harg5 arg6 harg6) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body obligation, at a generic point -/

/-- What the body is called with at point `t`: the invariant, what the core owes, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body returns at point `t`: the same invariant and debt, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: each input's buffer holds its block there, so the body's triple applies at the five
    blocks; the invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Sage2.lean ====
/- Region 2 (SAGE layer 3's launch) at the contents `V` its arrays hold when the region is entered: each window's
   block at a grid point, what the body leaves in the output window's staging buffer (one whole-block store of
   relu(h·Ws + a·Wn + b) of the point's input blocks), the body's triple, the proof data and the body obligation. -/
import proofs.«411194_j75926431859108_1_alg».proof.Proof.Gen.KernelIdeal.Launch
import proofs.«411194_j75926431859108_1_alg».proof.Proof.Gen.KernelIdeal.Skeleton
import proofs.«411194_j75926431859108_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-block rectangles the body loads and stores through. -/
abbrev rX2 : Rect S2000x128 := Rect.unit (s := S2000x128) ![0, 0] S2000x128.size inb_S2000x128_S2000x128_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0

/-- The output window's staging buffer after the body: its one store, of the layer's value on the point's blocks. -/
def out2_5 (x0 x1 : Vec F S2000x128 .f32) (x2 x3 : Vec F S128x128 .f32) (x4 : Vec F S1x128 .f32) : Vec F S2000x128 .f32 :=
  View.canon [⟨rX2, k2_pay1 (View.ld x0 rX2) (View.ld x1 rX2) (View.ld x2 rW2) (View.ld x3 rW2) (View.ld x4 rB2)⟩]

/-- The proof data of region 2 on core `c`: the arrays as entered; each input's buffer at its block after the body,
    the output's at `out2_5` of the input blocks; the scoped rest untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-! ## What the body finds in each input window's buffer -/

/-- Input window 0's current staging buffer holds its block at every point, fetched there or not, for any proof data
    whose array is `V`'s and whose body leaves the block in place: unfetched, the block index has not moved, so the
    block kept from the point before is this point's. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place: unfetched, the block index has not moved, so the
    block kept from the point before is this point's. The window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place: unfetched, the block index has not moved, so the
    block kept from the point before is this point's. The window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s and whose body leaves the block in place: unfetched, the block index has not moved, so the
    block kept from the point before is this point's. The window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s and whose body leaves the block in place: unfetched, the block index has not moved, so the
    block kept from the point before is this point's. The window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The output window's one store covers its buffer -/

/-- The whole-block rectangle is the buffer's full extent, so every index lies in it. -/
theorem cover2_5 (p0 : Vec F S2000x128 .f32) (y : S2000x128.Idx) :
    ∃ pc ∈ ([⟨rX2, p0⟩] : List (View.Piece (Elt F) S2000x128 .f32)), y ∈ pc.1.set :=
  View.cover_of_tiled [⟨rX2, p0⟩] S2000x128.size (by rfl) y

/-! ## The body's triple -/

set_option maxHeartbeats 1000000 in
/-- The body on whole staging memrefs, the five inputs' reading `x0 … x4` and the output's holding anything, runs to
    the continuation with the inputs' as they were and the output's at `out2_5 x0 x1 x2 x3 x4`: five whole-block
    loads of the inputs, one load of the output whose value is dropped, and one whole-block store of the layer's
    value, which overwrites every cell of the output buffer. -/
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2000x128 .f32) (harg6 : arg6.IsWhole)
    (x0 x1 : Vec F S2000x128 .f32) (x2 x3 : Vec F S128x128 .f32) (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__sage_kernel i arg1 harg1 arg2 harg2 arg3 harg3 arg4 harg4 arg5 harg5 arg6 harg6) K := by
  simp only [cc2__sage_kernel_eq_skeleton]; unfold cc2__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The body obligation, at a generic point -/

/-- What the body is called with at point `t`: the invariant, what the core owes, and each window's current staging
    buffer at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What the body returns at point `t`: the same invariant and debt, each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: each input's buffer holds its block there, so the body's triple applies at the five
    blocks; the invariant and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.PoolRuns.lean ====
/- Region 3 (the pooling and classifier launch), the part shared by its three control cases: the body's two
   conditions on the grid coordinate in closed form, where the output window is idle and where it is written back,
   the region's invariant with both accumulators named, and the body's triple in each case with the accumulators'
   contents after it stated through the kernel's own payloads. -/
import proofs.«411194_j75926431859108_1_alg».proof.Proof.Gen.KernelIdeal.Launch
import proofs.«411194_j75926431859108_1_alg».proof.Proof.Gen.KernelIdeal.Skeleton
import proofs.«411194_j75926431859108_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The first conditional's condition (reset the accumulators), from the grid coordinate. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The second conditional's condition (finish: divide, project, add the bias, store the output block). -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-! ## Where the windows are idle, and where the output is written back -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
/-- Away from the last point the output window is idle: the body stores nothing into it there, -/
theorem idleAt3_4 : ∀ t : Fin cfg3.N, ¬cond3_1 (grid3.coords t) → cfg3.idle 4 (grid3.coords t) = true := by decide +kernel
/-- and its block is not written back there. -/
theorem noFlush3_4 : ∀ t : Fin cfg3.N, ¬cond3_1 (grid3.coords t) → (cfg3.win 4).flush t = false := by decide +kernel
/-- At the last point it is live. -/
theorem liveAt3_4 : ∀ t : Fin cfg3.N, cond3_1 (grid3.coords t) → cfg3.idle 4 (grid3.coords t) = false := by decide +kernel

/-! ## The accumulators and the invariant -/

/-- The two accumulators (the weighted row sums and the row counts): whole scoped buffers of the kernel's own. -/
abbrev scM3_0 : Memref sig .tc .vmem S128x128 .f32 := Memref.whole cc3_scratch0
abbrev scM3_1 : Memref sig .tc .vmem S128x128 .f32 := Memref.whole cc3_scratch1

/-- What the launch hands the region and takes back: both accumulators at some contents, every other scoped buffer
    unopened, the generator register at some state. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

/-! ## The body's triple, case by case -/

theorem hz3 : (![0, 0] : Fin 2 → Nat) = fun _ => 0 := funext fun a => by fin_cases a <;> rfl

/-- A whole-block store, last, leaves its payload: whatever was stored before it and whatever the buffer held. -/
theorem read_writes_whole3 {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., by
    subst h; show y ∈ (Rect.whole S).set; rw [Rect.set_whole]; exact Finset.mem_univ y⟩), View.canon_cons_unit_zero h]

set_option maxHeartbeats 1000000 in
/-- The first point (the reset taken, the finish not): on whole memrefs, the two loaded inputs at `x0`, `x1` and the
    accumulators at anything, the body leaves the inputs as they were, the first accumulator at the zero block plus
    this point's weighted row sums, the second at the zero block plus this point's row counts. -/
theorem run3_A (c : Dev nD) (E : Set ℕ) (i : grid3.Coords)
    (arg1 : Memref sig .tc .vmem S2000x128 .f32) (harg1 : arg1.IsWhole) (arg2 : Memref sig .tc .vmem S2000x1 .i32) (harg2 : arg2.IsWhole)
    (arg3 : Memref sig .tc .vmem S128x10 .f32) (harg3 : arg3.IsWhole) (arg4 : Memref sig .tc .vmem S1x10 .f32) (harg4 : arg4.IsWhole)
    (arg5 : Memref sig .tc .vmem S128x10 .f32) (harg5 : arg5.IsWhole) (arg6 : Memref sig .tc .vmem S128x128 .f32) (harg6 : arg6.IsWhole)
    (arg7 : Memref sig .tc .vmem S128x128 .f32) (harg7 : arg7.IsWhole) (hc0 : cond3_0 i) (hc1 : ¬cond3_1 i)
    (x0 : Vec F S2000x128 .f32) (x1 : Vec F S2000x1 .i32) (K : PUnit → sProp 𝕄) :
    iprop(owns (c : Thread nD τ) arg1 fullShare x0 ∗ owns (c : Thread nD τ) arg2 fullShare x1
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg6 fullShare (k3_pay4 x0 x1 k3_pay1) ∗ owns (c : Thread nD τ) arg7 fullShare (k3_pay5 x1 k3_pay2)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%ds0, %fs0, -, HS0⟩, ⟨%ds1, %fs1, -, HS1⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    sl_unfold_words
    refine (read_writes_whole3 _ _ hz3 _ _ _).trans ?_
    simp only [View.readAt_eq_ld, harg1.read_unread, harg2.read_unread, harg3.read_unread, harg4.read_unread, harg6.read_unread, harg7.read_unread,
      View.ld_unit_zero (S := S2000x128) hz3, View.ld_unit_zero (S := S2000x1) hz3, View.ld_unit_zero (S := S128x128) hz3,
      View.ld_unit_zero (S := S128x10) hz3, View.ld_unit_zero (S := S1x10) hz3, View.readCov_unit_zero (S := S128x128) _ hz3]
  iexists _; isplitr
  swap; · iexact HS1
  ipureintro
  sl_unfold_words
  refine (read_writes_whole3 _ _ hz3 _ _ _).trans ?_
  simp only [View.readAt_eq_ld, harg1.read_unread, harg2.read_unread, harg3.read_unread, harg4.read_unread, harg6.read_unread, harg7.read_unread,
    View.ld_unit_zero (S := S2000x128) hz3, View.ld_unit_zero (S := S2000x1) hz3, View.ld_unit_zero (S := S128x128) hz3,
    View.ld_unit_zero (S := S128x10) hz3, View.ld_unit_zero (S := S1x10) hz3, View.readCov_unit_zero (S := S128x128) _ hz3]

set_option maxHeartbeats 1000000 in
/-- A point strictly between the first and the last (neither conditional taken): the accumulators, found at `xs0`,
    `xs1`, are left at `xs0` plus this point's weighted row sums and `xs1` plus this point's row counts. -/
theorem run3_B (c : Dev nD) (E : Set ℕ) (i : grid3.Coords)
    (arg1 : Memref sig .tc .vmem S2000x128 .f32) (harg1 : arg1.IsWhole) (arg2 : Memref sig .tc .vmem S2000x1 .i32) (harg2 : arg2.IsWhole)
    (arg3 : Memref sig .tc .vmem S128x10 .f32) (harg3 : arg3.IsWhole) (arg4 : Memref sig .tc .vmem S1x10 .f32) (harg4 : arg4.IsWhole)
    (arg5 : Memref sig .tc .vmem S128x10 .f32) (harg5 : arg5.IsWhole) (arg6 : Memref sig .tc .vmem S128x128 .f32) (harg6 : arg6.IsWhole)
    (arg7 : Memref sig .tc .vmem S128x128 .f32) (harg7 : arg7.IsWhole) (hc0 : ¬cond3_0 i) (hc1 : ¬cond3_1 i)
    (x0 : Vec F S2000x128 .f32) (x1 : Vec F S2000x1 .i32) (xs0 xs1 : Vec F S128x128 .f32) (K : PUnit → sProp 𝕄) :
    iprop(owns (c : Thread nD τ) arg1 fullShare x0 ∗ owns (c : Thread nD τ) arg2 fullShare x1
        ∗ owns (c : Thread nD τ) arg6 fullShare xs0 ∗ owns (c : Thread nD τ) arg7 fullShare xs1
        ∗ (iprop(owns (c : Thread nD τ) arg1 fullShare x0 ∗ owns (c : Thread nD τ) arg2 fullShare x1
            ∗ owns (c : Thread nD τ) arg6 fullShare (k3_pay4 x0 x1 xs0) ∗ owns (c : Thread nD τ) arg7 fullShare (k3_pay5 x1 xs1)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%fs0, %hfs0, HS0⟩, ⟨%fs1, %hfs1, HS1⟩, Hk⟩
  obtain rfl := harg1.eq_unread hf0; obtain rfl := harg2.eq_unread hf1
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    sl_unfold_words
    refine (read_writes_whole3 _ _ hz3 _ _ _).trans ?_
    simp only [View.readAt_eq_ld, harg1.read_unread, harg2.read_unread, harg3.read_unread, harg4.read_unread, harg6.read_unread, harg7.read_unread,
      View.ld_unit_zero (S := S2000x128) hz3, View.ld_unit_zero (S := S2000x1) hz3, View.ld_unit_zero (S := S128x128) hz3,
      View.ld_unit_zero (S := S128x10) hz3, View.ld_unit_zero (S := S1x10) hz3, View.readCov_unit_zero (S := S128x128) _ hz3]
  iexists _; isplitr
  swap; · iexact HS1
  ipureintro
  sl_unfold_words
  refine (read_writes_whole3 _ _ hz3 _ _ _).trans ?_
  simp only [View.readAt_eq_ld, harg1.read_unread, harg2.read_unread, harg3.read_unread, harg4.read_unread, harg6.read_unread, harg7.read_unread,
    View.ld_unit_zero (S := S2000x128) hz3, View.ld_unit_zero (S := S2000x1) hz3, View.ld_unit_zero (S := S128x128) hz3,
    View.ld_unit_zero (S := S128x10) hz3, View.ld_unit_zero (S := S1x10) hz3, View.readCov_unit_zero (S := S128x128) _ hz3]

set_option maxHeartbeats 1000000 in
/-- The last point (the finish taken, the reset not): the accumulators are updated as at any later point, and the
    output's buffer, found at anything, is left at the finishing step's block of the UPDATED accumulators, the
    projection block `x2` and the bias block `x3`. -/
theorem run3_C (c : Dev nD) (E : Set ℕ) (i : grid3.Coords)
    (arg1 : Memref sig .tc .vmem S2000x128 .f32) (harg1 : arg1.IsWhole) (arg2 : Memref sig .tc .vmem S2000x1 .i32) (harg2 : arg2.IsWhole)
    (arg3 : Memref sig .tc .vmem S128x10 .f32) (harg3 : arg3.IsWhole) (arg4 : Memref sig .tc .vmem S1x10 .f32) (harg4 : arg4.IsWhole)
    (arg5 : Memref sig .tc .vmem S128x10 .f32) (harg5 : arg5.IsWhole) (arg6 : Memref sig .tc .vmem S128x128 .f32) (harg6 : arg6.IsWhole)
    (arg7 : Memref sig .tc .vmem S128x128 .f32) (harg7 : arg7.IsWhole) (hc0 : ¬cond3_0 i) (hc1 : cond3_1 i)
    (x0 : Vec F S2000x128 .f32) (x1 : Vec F S2000x1 .i32) (x2 : Vec F S128x10 .f32) (x3 : Vec F S1x10 .f32)
    (xs0 xs1 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3 ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k3_pay6 (k3_pay4 x0 x1 xs0) (k3_pay5 x1 xs1) x2 x3)
            ∗ owns (c : Thread nD τ) arg6 fullShare (k3_pay4 x0 x1 xs0) ∗ owns (c : Thread nD τ) arg7 fullShare (k3_pay5 x1 xs1)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg1.eq_unread hf0; obtain rfl := harg2.eq_unread hf1
  obtain rfl := harg3.eq_unread hf2; obtain rfl := harg4.eq_unread hf3
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    refine (read_writes_whole3 _ _ hz3 _ _ _).trans ?_
    simp only [View.readAt_eq_ld, harg1.read_unread, harg2.read_unread, harg3.read_unread, harg4.read_unread, harg6.read_unread, harg7.read_unread,
      View.ld_unit_zero (S := S2000x128) hz3, View.ld_unit_zero (S := S2000x1) hz3, View.ld_unit_zero (S := S128x128) hz3,
      View.ld_unit_zero (S := S128x10) hz3, View.ld_unit_zero (S := S1x10) hz3, View.readCov_unit_zero (S := S128x128) _ hz3]
  isplitl [HS0]
  · iexists _; isplitr
    swap; · iexact HS0
    ipureintro
    sl_unfold_words
    refine (read_writes_whole3 _ _ hz3 _ _ _).trans ?_
    simp only [View.readAt_eq_ld, harg1.read_unread, harg2.read_unread, harg3.read_unread, harg4.read_unread, harg6.read_unread, harg7.read_unread,
      View.ld_unit_zero (S := S2000x128) hz3, View.ld_unit_zero (S := S2000x1) hz3, View.ld_unit_zero (S := S128x128) hz3,
      View.ld_unit_zero (S := S128x10) hz3, View.ld_unit_zero (S := S1x10) hz3, View.readCov_unit_zero (S := S128x128) _ hz3]
  iexists _; isplitr
  swap; · iexact HS1
  ipureintro
  sl_unfold_words
  refine (read_writes_whole3 _ _ hz3 _ _ _).trans ?_
  simp only [View.readAt_eq_ld, harg1.read_unread, harg2.read_unread, harg3.read_unread, harg4.read_unread, harg6.read_unread, harg7.read_unread,
    View.ld_unit_zero (S := S2000x128) hz3, View.ld_unit_zero (S := S2000x1) hz3, View.ld_unit_zero (S := S128x128) hz3,
    View.ld_unit_zero (S := S128x10) hz3, View.ld_unit_zero (S := S1x10) hz3, View.readCov_unit_zero (S := S128x128) _ hz3]

end Cert.KernelIdeal.Hand

end
-- ==== Proof.KI.Pool.lean ====
/- Region 3 (the pooling and classifier launch) at the contents `V` its arrays hold when the region is entered: each
   window's block at a grid point; the two accumulators after each point (zero at the first point, then each point's
   one-hot-weighted row sums (the rows summed per group id) and row counts added), and the output block the finishing step makes of them; the proof data, whose
   invariant names both accumulators' contents between points; the body obligation, by the three control cases. -/
import proofs.«411194_j75926431859108_1_alg».proof.Proof.Gen.KernelIdeal.Launch
import proofs.«411194_j75926431859108_1_alg».proof.Proof.Gen.KernelIdeal.Skeleton
import proofs.«411194_j75926431859108_1_alg».proof.Proof.Gen.KernelIdeal.Points
import proofs.«411194_j75926431859108_1_alg».proof.Proof.KI.PoolRuns
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The accumulation -/

/-- The two accumulators after the body at point `n`: at the first point the zero blocks plus that point's weighted
    row sums and row counts, afterwards what the point before left plus this point's. -/
def acc3 (c : Dev nD) : (n : ℕ) → n < cfg3.N → Vec F S128x128 .f32 × Vec F S128x128 .f32
  | 0, hn => (k3_pay4 (iblk3 V c 0 ⟨0, hn⟩) (iblk3 V c 1 ⟨0, hn⟩) k3_pay1, k3_pay5 (iblk3 V c 1 ⟨0, hn⟩) k3_pay2)
  | n + 1, hn => (k3_pay4 (iblk3 V c 0 ⟨n + 1, hn⟩) (iblk3 V c 1 ⟨n + 1, hn⟩) (acc3 c n (Nat.lt_of_succ_lt hn)).1,
      k3_pay5 (iblk3 V c 1 ⟨n + 1, hn⟩) (acc3 c n (Nat.lt_of_succ_lt hn)).2)

/-- (output buffer, first accumulator, second accumulator) after the body at point `n`. The first component is the
    block the finishing step makes of the point's accumulators, the projection block and the bias block: what the
    output's buffer holds after the last point, where that step runs; at every other point the output window is idle
    and not written back, and the component is not consulted. -/
def outsAt3 (c : Dev nD) : (n : ℕ) → n < cfg3.N → Vec F S128x10 .f32 × Vec F S128x128 .f32 × Vec F S128x128 .f32 :=
  fun n hn => (k3_pay6 (acc3 V c n hn).1 (acc3 V c n hn).2 (iblk3 V c 2 ⟨n, hn⟩) (iblk3 V c 3 ⟨n, hn⟩), acc3 V c n hn)

theorem outsAt3_first (c : Dev nD) (hn : 0 < cfg3.N) :
    (outsAt3 V c 0 hn).2 = (k3_pay4 (iblk3 V c 0 ⟨0, hn⟩) (iblk3 V c 1 ⟨0, hn⟩) k3_pay1, k3_pay5 (iblk3 V c 1 ⟨0, hn⟩) k3_pay2) := rfl
theorem outsAt3_succ (c : Dev nD) (n : ℕ) (hn : n + 1 < cfg3.N) :
    (outsAt3 V c (n + 1) hn).2 = (k3_pay4 (iblk3 V c 0 ⟨n + 1, hn⟩) (iblk3 V c 1 ⟨n + 1, hn⟩) (outsAt3 V c n (Nat.lt_of_succ_lt hn)).2.1,
      k3_pay5 (iblk3 V c 1 ⟨n + 1, hn⟩) (outsAt3 V c n (Nat.lt_of_succ_lt hn)).2.2) := rfl
theorem outsAt3_last (c : Dev nD) (hn : 24 < cfg3.N) :
    (outsAt3 V c 24 hn).1 = k3_pay6 (outsAt3 V c 24 hn).2.1 (outsAt3 V c 24 hn).2.2 (iblk3 V c 2 ⟨24, hn⟩) (iblk3 V c 3 ⟨24, hn⟩) := rfl

/-- The accumulators after the first point. -/
theorem acc3_zero (c : Dev nD) (t : Fin cfg3.N) (h : t.val = 0) :
    acc3 V c t.val t.isLt = (k3_pay4 (iblk3 V c 0 t) (iblk3 V c 1 t) k3_pay1, k3_pay5 (iblk3 V c 1 t) k3_pay2) := by
  obtain ⟨n, hn⟩ := t
  cases n with
  | zero => rfl
  | succ n => exact absurd h (Nat.succ_ne_zero n)

/-- The accumulators after a later point, over what the point before left. -/
theorem acc3_pos (c : Dev nD) (t : Fin cfg3.N) (h : t.val ≠ 0) :
    acc3 V c t.val t.isLt = (k3_pay4 (iblk3 V c 0 t) (iblk3 V c 1 t) (acc3 V c (t.val - 1) (Nat.lt_of_le_of_lt (Nat.sub_le _ _) t.isLt)).1,
      k3_pay5 (iblk3 V c 1 t) (acc3 V c (t.val - 1) (Nat.lt_of_le_of_lt (Nat.sub_le _ _) t.isLt)).2) := by
  obtain ⟨n, hn⟩ := t
  cases n with
  | zero => exact absurd rfl h
  | succ n => rfl

/-! ## The invariant between points -/

/-- Before the first point what the launch hands over (both accumulators at anything); before a later point both
    accumulators at what the point before left, every other scoped buffer unopened, the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare (acc3 V c n hn).1 ∗ owns (c : Thread nD τ) scM3_1 fullShare (acc3 V c n hn).2)
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (acc3 V c n hn).1 ∗ owns (c : Thread nD τ) scM3_1 fullShare (acc3 V c n hn).2)
      ∗ Pipeline.scopedRestBut (Ix := Unit) (Name := ℕ) (U := UR sig nD τ) (Lvl := ℕ) (Val := Elt F) spec3 c [cc3_scratch0, cc3_scratch1]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (acc3 V c (n - 1) (by omega)).1 ∗ owns (c : Thread nD τ) scM3_1 fullShare (acc3 V c (n - 1) (by omega)).2)
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The proof data -/

/-- The proof data of region 3 on core `c`: the arrays as entered; after the body each input's buffer at its block, the
    output's at `outsAt3`'s first component; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

theorem share3 (c : Dev nD) : ∀ w, (dat3 V c).q w = fullShare := fun _ => rfl
theorem owed3 (c : Dev nD) : ∀ t g, (dat3 V c).owed t g = 0 := fun _ _ => rfl
theorem recorded3 (c : Dev nD) : ∀ t, (dat3 V c).recorded t = Set.univ := fun _ => rfl

theorem PhiS3_castSucc (c : Dev nD) (t : Fin cfg3.N) :
    (dat3 V c).Φ t.castSucc = PhiS3 V c t.val (Nat.le_of_lt t.isLt) := by
  dsimp only [dat3]; simp only [Fin.coe_castSucc]

/-- Each input's current staging buffer holds its block at every point, fetched there or not: an input not fetched at a
    point has the block index it had at the point before, and the body leaves every input's buffer as it found it. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point. The inputs' memrefs hold their blocks; the point is the first, the last, or one between, and
    that case's triple applies: the invariant hands the body both accumulators (at anything at the first point, else at
    what the point before left) and takes them back at this point's contents; away from the last point the output's
    buffer is handed back untouched, at the last point it is left at the finishing step's block of the accumulators
    just updated; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  have hN : t.val < 25 := lt_of_lt_of_eq t.isLt (show cfg3.N = 25 from N_3)
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 4 t (idleAt3_4 t hc1) (noFlush3_4 t hc1)]
    rw [acc3_zero V c t h0]
    rw [PhiS3_castSucc V c t, PhiS3_zero V c _ _ h0, PhiA3_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (run3_A c Set.univ (grid3.coords t) _ _ _ _ _ _ _ _ _ _ _ _ _ _ hc0 hc1 (iblk3 V c 0 t) (iblk3 V c 1 t) _)
    isplitl [H0]; · iexact H0
    isplitl [H1]; · iexact H1
    isplitl [HS0]; · iexact HS0
    isplitl [HS1]; · iexact HS1
    iintro ⟨H0, H1, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    iexists _; iexact H4
  · have hc0 : ¬cond3_0 (grid3.coords t) := fun h => h0 ((hcond3_0 t).mp h)
    rw [acc3_pos V c t h0]
    rw [PhiS3_castSucc V c t, PhiS3_pos V c _ _ h0]
    by_cases h1 : t.val = 24
    · have hc1 : cond3_1 (grid3.coords t) := (hcond3_1 t).mpr h1
      rw [show (dat3 V c).leavesExact 4 t = owns (c : Thread nD τ) (st3_4 t) fullShare ((dat3 V c).after 4 t) from by
        unfold Dat.leavesExact; rw [liveAt3_4 t hc1], after3_4]
      unfold outsAt3; rw [acc3_pos V c t h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run3_C c Set.univ (grid3.coords t) _ _ _ _ _ _ _ _ _ _ _ _ _ _ hc0 hc1 (iblk3 V c 0 t) (iblk3 V c 1 t) (iblk3 V c 2 t) (iblk3 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexact H4
    · have hc1 : ¬cond3_1 (grid3.coords t) := fun h => h1 ((hcond3_1 t).mp h)
      rw [Dat.leavesExact_idle (dat3 V c) 4 t (idleAt3_4 t hc1) (noFlush3_4 t hc1)]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run3_B c Set.univ (grid3.coords t) _ _ _ _ _ _ _ _ _ _ _ _ _ _ hc0 hc1 (iblk3 V c 0 t) (iblk3 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexists _; iexact H4

/-- The body obligation of region 3, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives back what the launch handed over: the accumulators' named contents are forgotten. -/
theorem hout3 (c : Dev nD) : (dat3 V c).Φ (Fin.last cfg3.N) ⊢ Pipeline.ΦA spec3 c := by
  have hne : (Fin.last cfg3.N).val ≠ 0 := by rw [Fin.val_last]; have : cfg3.N = 25 := N_3; omega
  rw [show (dat3 V c).Φ (Fin.last cfg3.N) = PhiS3 V c (Fin.last cfg3.N).val (Nat.le_of_lt_succ (Fin.last cfg3.N).isLt) from rfl,
    PhiS3_pos V c _ _ hne, PhiA3_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

end Cert.KernelIdeal.Hand

end
-- ==== Proof.KI.Run.lean ====
/- The run of @main: its four host stretches and its four kernel regions in order, from the launch to the return.
   The buffer contents at each of the nine boundaries are a fold from the launch memory (a stretch rewrites the
   buffers its operations write; a region leaves its arrays at what its write-backs fold to and every other buffer
   as entered). Each region is a segment over the thread state "every unscoped buffer at the boundary's contents,
   the generator register at some state, nothing owed"; the run reads every unscoped buffer at the last boundary's
   contents, and no stretch and no region changes an argument array. -/
import proofs.«411194_j75926431859108_1_alg».proof.Proof.Gen.KernelIdeal.Launch
import proofs.«411194_j75926431859108_1_alg».proof.Proof.Gen.KernelIdeal.Skeleton
import proofs.«411194_j75926431859108_1_alg».proof.Proof.Gen.KernelIdeal.Points
import proofs.«411194_j75926431859108_1_alg».proof.Proof.Gen.KernelIdeal.Regions
import proofs.«411194_j75926431859108_1_alg».proof.Proof.KI.Sage0
import proofs.«411194_j75926431859108_1_alg».proof.Proof.KI.Sage1
import proofs.«411194_j75926431859108_1_alg».proof.Proof.KI.Sage2
import proofs.«411194_j75926431859108_1_alg».proof.Proof.KI.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)

/-- After host stretch 0: what region 0 (the first aggregation layer) is entered from. -/
abbrev W1 : Dev nD → Valuation τ sig (Elt F) := fun c => StableHlo.after hostOps0 (W0 m ρ c)
/-- The same read at the TensorCore's references: the contents region 0's proof data are stated at. -/
abbrev V1 : (c : Dev nD) → (b : Ref sig .tc) → Buf (Elt F) ((c : Thread nD τ).loc b) := fun c b => W1 m ρ c b
/-- At region 0's exit: each of its arrays at what the pipeline leaves in it (an input as entered, the output at
    its write-backs folded over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The exit contents read at the TensorCore's references. -/
abbrev V2 : (c : Dev nD) → (b : Ref sig .tc) → Buf (Elt F) ((c : Thread nD τ).loc b) := fun c b => W2 m ρ c b
/-- At region 0's exit each of its arrays holds what the pipeline leaves, and every other buffer what it held at
    entry: what putting the arrays back among the unscoped buffers asks. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1: what region 1 (the second aggregation layer) is entered from. -/
abbrev W3 : Dev nD → Valuation τ sig (Elt F) := fun c => StableHlo.after hostOps1 (W2 m ρ c)
/-- The same read at the TensorCore's references: the contents region 1's proof data are stated at. -/
abbrev V3 : (c : Dev nD) → (b : Ref sig .tc) → Buf (Elt F) ((c : Thread nD τ).loc b) := fun c b => W3 m ρ c b
/-- At region 1's exit: each of its arrays at what the pipeline leaves in it (an input as entered, the output at
    its write-backs folded over the grid), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The exit contents read at the TensorCore's references. -/
abbrev V4 : (c : Dev nD) → (b : Ref sig .tc) → Buf (Elt F) ((c : Thread nD τ).loc b) := fun c b => W4 m ρ c b
/-- At region 1's exit each of its arrays holds what the pipeline leaves, and every other buffer what it held at
    entry: what putting the arrays back among the unscoped buffers asks. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2: what region 2 (the third aggregation layer) is entered from. -/
abbrev W5 : Dev nD → Valuation τ sig (Elt F) := fun c => StableHlo.after hostOps2 (W4 m ρ c)
/-- The same read at the TensorCore's references: the contents region 2's proof data are stated at. -/
abbrev V5 : (c : Dev nD) → (b : Ref sig .tc) → Buf (Elt F) ((c : Thread nD τ).loc b) := fun c b => W5 m ρ c b
/-- At region 2's exit: each of its arrays at what the pipeline leaves in it (an input as entered, the output at
    its write-backs folded over the grid), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The exit contents read at the TensorCore's references. -/
abbrev V6 : (c : Dev nD) → (b : Ref sig .tc) → Buf (Elt F) ((c : Thread nD τ).loc b) := fun c b => W6 m ρ c b
/-- At region 2's exit each of its arrays holds what the pipeline leaves, and every other buffer what it held at
    entry: what putting the arrays back among the unscoped buffers asks. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3: what region 3 (the pooling and classifier) is entered from. -/
abbrev W7 : Dev nD → Valuation τ sig (Elt F) := fun c => StableHlo.after hostOps3 (W6 m ρ c)
/-- The same read at the TensorCore's references: the contents region 3's proof data are stated at. -/
abbrev V7 : (c : Dev nD) → (b : Ref sig .tc) → Buf (Elt F) ((c : Thread nD τ).loc b) := fun c b => W7 m ρ c b
/-- At region 3's exit: each of its arrays at what the pipeline leaves in it (an input as entered, the output at
    its write-backs folded over the grid), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The exit contents read at the TensorCore's references. -/
abbrev V8 : (c : Dev nD) → (b : Ref sig .tc) → Buf (Elt F) ((c : Thread nD τ).loc b) := fun c b => W8 m ρ c b
/-- At region 3's exit each of its arrays holds what the pipeline leaves, and every other buffer what it held at
    entry: what putting the arrays back among the unscoped buffers asks. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debt, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at the stretch's result from `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the generator
    register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 (the first aggregation layer) over the thread state: entered from every unscoped buffer at `W1`, left at `W2`.
    Its arrays are split out of the unscoped buffers at entry and put back at the exit contents; the generator register into the class invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (the second aggregation layer) over the thread state: entered from every unscoped buffer at `W3`, left at `W4`.
    Its arrays are split out of the unscoped buffers at entry and put back at the exit contents; the generator register into the class invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (the third aggregation layer) over the thread state: entered from every unscoped buffer at `W5`, left at `W6`.
    Its arrays are split out of the unscoped buffers at entry and put back at the exit contents; the generator register into the class invariant and out;
    nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (the pooling and classifier) over the thread state: entered from every unscoped buffer at `W7`, left at `W8`.
    Its arrays are split out of the unscoped buffers at entry and put back at the exit contents; the generator
    register and the scoped rest first make the class invariant, from which the region's own invariant at the first
    point follows, and its invariant at the last point gives the class invariant back; nothing owed; no semaphore of
    the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun c t => funext fun g => owed3 (V7 m ρ) c t g
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full (share3 (V7 m ρ) c)) (V7 m ρ c) fun w => A_eq3 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 3 c).owed 0 = 0 from funext fun g => owed3 (V7 m ρ) c 0 g]
      icases HO with ⟨%W, HO⟩; iexists W; isplitr
      · ipureintro; exact fun x _ => Or.inl ((recorded3 (V7 m ρ) c 0).symm ▸ Set.mem_univ x)
      iexact HO
    isplitl [Hp]; · iexact Hp
    iexact Hrest
  hin c := by
    refine (?_ : _ ⊢ Pipeline.ΦA spec3 c).trans (hin3 (V7 m ρ) c)
    unfold Pipeline.ΦA
    iintro ⟨Hp, -, Hr⟩
    isplitl [Hr]; · iexact Hr
    iexact Hp
  hout c := by
    rw [Pipeline.ownSems0_none]
    refine (show (pdats m ρ 3 c).Φ (Fin.last _) ⊢ Pipeline.ΦA spec3 c from hout3 (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full (share3 (V7 m ρ) c))
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ 3 c).owed (Fin.last _) = 0 from funext fun g => owed3 (V7 m ρ) c _ g]
    icases HO with ⟨%W, -, HO⟩; iexists W; iexact HO

/-! ## @main as segments, and the launch -/

/-- @main's eight segments in order: a host segment per stretch from its boundary's contents, a region per kernel
    launch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments: it is the chain of its items, and the segments' run is that chain. -/
theorem main_run (c : Dev nD) : main (F := F) c = Pipeline.Seg.run (segs m ρ) := (main_chain c).trans (by chain_rfl)

set_option backward.isDefEq.respectTransparency.types false in
/-- The run: from any memory with zero counters, every weakly fair execution of @main on the TensorCores terminates,
    nothing faulting, and in every final state each core's unscoped buffers hold the last boundary's contents. The
    thread states chain by name; the first is made from what the launch deals; the last is read against the final
    state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-! ## The arguments end as launched

No stretch writes an argument, and a region either has it as an input window's array, which no write-back touches,
or does not have it among its arrays at all. -/

/-- Host stretch 0 leaves every reference outside its written list as it found it. -/
theorem W1_thru (c : Dev nD) (r : Ref sig .tc) (h : r ∉ hostOps0_W) :
    W1 m ρ c (Proc.devRef .tc r) = W0 m ρ c (Proc.devRef .tc r) :=
  StableHlo.after_of_writes_sub hostOps0 _ hostOps0_writes h
/-- Region 0 leaves a reference as entered when every window that has it as its array is an input window: an
    input's array is never written back, and a reference that is no window's array bypasses the region. -/
theorem W2_thru (c : Dev nD) (r : Ref sig .tc) (h : ∀ w, Pipeline.arrRef spec0 w = r → (cfg0.win w).isOut = false) :
    W2 m ρ c (Proc.devRef .tc r) = W1 m ρ c (Proc.devRef .tc r) := by
  by_cases hr : ∃ w, Pipeline.arrRef spec0 w = r
  · obtain ⟨w, rfl⟩ := hr
    exact (W2_arr m ρ c w).trans (((dat0 (V1 m ρ) c).arrAt_in w (h w rfl) _).trans (A_eq0 (V1 m ρ) c w))
  · exact W2_of_ne m ρ c r fun w e => hr ⟨w, e⟩

/-- Host stretch 1 leaves every reference outside its written list as it found it. -/
theorem W3_thru (c : Dev nD) (r : Ref sig .tc) (h : r ∉ hostOps1_W) :
    W3 m ρ c (Proc.devRef .tc r) = W2 m ρ c (Proc.devRef .tc r) :=
  StableHlo.after_of_writes_sub hostOps1 _ hostOps1_writes h
/-- Region 1 leaves a reference as entered when every window that has it as its array is an input window: an
    input's array is never written back, and a reference that is no window's array bypasses the region. -/
theorem W4_thru (c : Dev nD) (r : Ref sig .tc) (h : ∀ w, Pipeline.arrRef spec1 w = r → (cfg1.win w).isOut = false) :
    W4 m ρ c (Proc.devRef .tc r) = W3 m ρ c (Proc.devRef .tc r) := by
  by_cases hr : ∃ w, Pipeline.arrRef spec1 w = r
  · obtain ⟨w, rfl⟩ := hr
    exact (W4_arr m ρ c w).trans (((dat1 (V3 m ρ) c).arrAt_in w (h w rfl) _).trans (A_eq1 (V3 m ρ) c w))
  · exact W4_of_ne m ρ c r fun w e => hr ⟨w, e⟩

/-- Host stretch 2 leaves every reference outside its written list as it found it. -/
theorem W5_thru (c : Dev nD) (r : Ref sig .tc) (h : r ∉ hostOps2_W) :
    W5 m ρ c (Proc.devRef .tc r) = W4 m ρ c (Proc.devRef .tc r) :=
  StableHlo.after_of_writes_sub hostOps2 _ hostOps2_writes h
/-- Region 2 leaves a reference as entered when every window that has it as its array is an input window: an
    input's array is never written back, and a reference that is no window's array bypasses the region. -/
theorem W6_thru (c : Dev nD) (r : Ref sig .tc) (h : ∀ w, Pipeline.arrRef spec2 w = r → (cfg2.win w).isOut = false) :
    W6 m ρ c (Proc.devRef .tc r) = W5 m ρ c (Proc.devRef .tc r) := by
  by_cases hr : ∃ w, Pipeline.arrRef spec2 w = r
  · obtain ⟨w, rfl⟩ := hr
    exact (W6_arr m ρ c w).trans (((dat2 (V5 m ρ) c).arrAt_in w (h w rfl) _).trans (A_eq2 (V5 m ρ) c w))
  · exact W6_of_ne m ρ c r fun w e => hr ⟨w, e⟩

/-- Host stretch 3 leaves every reference outside its written list as it found it. -/
theorem W7_thru (c : Dev nD) (r : Ref sig .tc) (h : r ∉ hostOps3_W) :
    W7 m ρ c (Proc.devRef .tc r) = W6 m ρ c (Proc.devRef .tc r) :=
  StableHlo.after_of_writes_sub hostOps3 _ hostOps3_writes h
/-- Region 3 leaves a reference as entered when every window that has it as its array is an input window: an
    input's array is never written back, and a reference that is no window's array bypasses the region. -/
theorem W8_thru (c : Dev nD) (r : Ref sig .tc) (h : ∀ w, Pipeline.arrRef spec3 w = r → (cfg3.win w).isOut = false) :
    W8 m ρ c (Proc.devRef .tc r) = W7 m ρ c (Proc.devRef .tc r) := by
  by_cases hr : ∃ w, Pipeline.arrRef spec3 w = r
  · obtain ⟨w, rfl⟩ := hr
    exact (W8_arr m ρ c w).trans (((dat3 (V7 m ρ) c).arrAt_in w (h w rfl) _).trans (A_eq3 (V7 m ρ) c w))
  · exact W8_of_ne m ρ c r fun w e => hr ⟨w, e⟩

/-- A reference that no stretch writes and no region has as an output window's array holds at the last boundary
    what it held at launch. -/
theorem W8_keeps (c : Dev nD) (r : Ref sig .tc)
    (h0 : r ∉ hostOps0_W) (g0 : ∀ w, Pipeline.arrRef spec0 w = r → (cfg0.win w).isOut = false)
    (h1 : r ∉ hostOps1_W) (g1 : ∀ w, Pipeline.arrRef spec1 w = r → (cfg1.win w).isOut = false)
    (h2 : r ∉ hostOps2_W) (g2 : ∀ w, Pipeline.arrRef spec2 w = r → (cfg2.win w).isOut = false)
    (h3 : r ∉ hostOps3_W) (g3 : ∀ w, Pipeline.arrRef spec3 w = r → (cfg3.win w).isOut = false) :
    W8 m ρ c (Proc.devRef .tc r) = m ((c : Thread nD τ).loc r) :=
  calc W8 m ρ c (Proc.devRef .tc r)
    _ = W7 m ρ c (Proc.devRef .tc r) := W8_thru m ρ c r g3
    _ = W6 m ρ c (Proc.devRef .tc r) := W7_thru m ρ c r h3
    _ = W5 m ρ c (Proc.devRef .tc r) := W6_thru m ρ c r g2
    _ = W4 m ρ c (Proc.devRef .tc r) := W5_thru m ρ c r h2
    _ = W3 m ρ c (Proc.devRef .tc r) := W4_thru m ρ c r g1
    _ = W2 m ρ c (Proc.devRef .tc r) := W3_thru m ρ c r h1
    _ = W1 m ρ c (Proc.devRef .tc r) := W2_thru m ρ c r g0
    _ = W0 m ρ c (Proc.devRef .tc r) := W1_thru m ρ c r h0
    _ = m ((c : Thread nD τ).loc r) := rfl

theorem W8_main_arg0 (c : Dev nD) : W8 m ρ c (Proc.devRef .tc main_arg0) = m ((c : Thread nD τ).loc main_arg0) :=
  W8_keeps m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_keeps m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_keeps m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_keeps m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_keeps m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_keeps m ρ c main_arg5 (by decide) (by decide) (by decide) (by decide) (by decide) (by decide) (by decide) (by decide)
theorem W8_main_arg6 (c : Dev nD) : W8 m ρ c (Proc.devRef .tc main_arg6) = m ((c : Thread nD τ).loc main_arg6) :=
  W8_keeps m ρ c main_arg6 (by decide) (by decide) (by decide) (by decide) (by decide) (by decide) (by decide) (by decide)
theorem W8_main_arg7 (c : Dev nD) : W8 m ρ c (Proc.devRef .tc main_arg7) = m ((c : Thread nD τ).loc main_arg7) :=
  W8_keeps m ρ c main_arg7 (by decide) (by decide) (by decide) (by decide) (by decide) (by decide) (by decide) (by decide)
theorem W8_main_arg8 (c : Dev nD) : W8 m ρ c (Proc.devRef .tc main_arg8) = m ((c : Thread nD τ).loc main_arg8) :=
  W8_keeps m ρ c main_arg8 (by decide) (by decide) (by decide) (by decide) (by decide) (by decide) (by decide) (by decide)
theorem W8_main_arg9 (c : Dev nD) : W8 m ρ c (Proc.devRef .tc main_arg9) = m ((c : Thread nD τ).loc main_arg9) :=
  W8_keeps m ρ c main_arg9 (by decide) (by decide) (by decide) (by decide) (by decide) (by decide) (by decide) (by decide)
theorem W8_main_arg10 (c : Dev nD) : W8 m ρ c (Proc.devRef .tc main_arg10) = m ((c : Thread nD τ).loc main_arg10) :=
  W8_keeps m ρ c main_arg10 (by decide) (by decide) (by decide) (by decide) (by decide) (by decide) (by decide) (by decide)
theorem W8_main_arg11 (c : Dev nD) : W8 m ρ c (Proc.devRef .tc main_arg11) = m ((c : Thread nD τ).loc main_arg11) :=
  W8_keeps m ρ c main_arg11 (by decide) (by decide) (by decide) (by decide) (by decide) (by decide) (by decide) (by decide)
theorem W8_main_arg12 (c : Dev nD) : W8 m ρ c (Proc.devRef .tc main_arg12) = m ((c : Thread nD τ).loc main_arg12) :=
  W8_keeps m ρ c main_arg12 (by decide) (by decide) (by decide) (by decide) (by decide) (by decide) (by decide) (by decide)
theorem W8_main_arg13 (c : Dev nD) : W8 m ρ c (Proc.devRef .tc main_arg13) = m ((c : Thread nD τ).loc main_arg13) :=
  W8_keeps m ρ c main_arg13 (by decide) (by decide) (by decide) (by decide) (by decide) (by decide) (by decide) (by decide)
theorem W8_main_arg14 (c : Dev nD) : W8 m ρ c (Proc.devRef .tc main_arg14) = m ((c : Thread nD τ).loc main_arg14) :=
  W8_keeps m ρ c main_arg14 (by decide) (by decide) (by decide) (by decide) (by decide) (by decide) (by decide) (by decide)

/-- The frame: @main runs, and every argument array ends holding its launch contents — each read off the run's last
    boundary, where it holds what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c)⟩) (run_all m ρ)

#print axioms frame

end Cert.KernelIdeal.Hand

end
-- ==== Proof.Val.Spec.lean ====
/- What the program computes, stated entry by entry on whole arrays over the extended reals.
   A SAGE layer: out[r, j] = max (Σ_k h[r,k]·Ws[k,j] + Σ_k a[r,k]·Wn[k,j] + b[j]) 0.
   Pooling and classifier: with S[g,d] = Σ_{r : gid[r] = g} h[r,d] and n[g] = #{r : gid[r] = g},
   out[g, j] = Σ_d (S[g,d] / max n[g] 1)·Wf[d,j] + bf[j]; a row whose graph id is no number below 128 belongs to no graph. -/
import proofs.«411194_j75926431859108_1_alg».proof.KernelIdeal
import proofs.«411194_j75926431859108_1_alg».proof.Proof.Gen.KernelIdeal
import Idealize.ShloMosaic.PureOps.Ideal
import Idealize.ShloMosaic.PureOps.Ideal.Laws
import Idealize.ShloMosaic.Lib.ValueIdx

noncomputable section

namespace Cert.KernelIdeal.Val

open Idealize.ShloMosaic Idealize.ShloMosaic.ValueIdx
open Cert.KernelIdeal.Facts₀ Cert.KernelIdeal.Facts

/-- The float word of zero and the two words of one (f32 and bf16) denote 0 and 1. -/
theorem zero_f32 : Ideal.ofBits .f32 0x00000000#32 = 0 := Ideal.ofBits_zero_f32
theorem one_f32 : Ideal.ofBits .f32 0x3F800000#32 = 1 := by simp [Ideal.ofBits, Ideal.ieee, -EReal.coe_mul]; norm_num
theorem one_bf16 : Ideal.ofBits .bf16 0x3F80#16 = 1 := by simp [Ideal.ofBits, Ideal.ieee, -EReal.coe_mul]; norm_num

/-- One entry of a SAGE layer: row `r` of the node features `h` against column `j` of `ws`, row `r` of the
    neighbourhood means `a` against column `j` of `wn`, the bias, and the clamp at zero. -/
def sageAt (h a : FVec Ideal S50000x128 .f32) (ws wn : FVec Ideal S128x128 .f32) (b : FVec Ideal S1x128 .f32)
    (r : Fin 50000) (j : Fin 128) : EReal :=
  max (((∑ k : Fin 128, h (ix2 r k) * ws (ix2 k j)) + (∑ k : Fin 128, a (ix2 r k) * wn (ix2 k j))) + b (ix2 0 j))
    (Ideal.ofBits .f32 0x00000000#32)

/-- A SAGE layer on whole arrays. -/
def sageK (h a : FVec Ideal S50000x128 .f32) (ws wn : FVec Ideal S128x128 .f32) (b : FVec Ideal S1x128 .f32) :
    FVec Ideal S50000x128 .f32 :=
  fun i => sageAt h a ws wn b (i 0) (i 1)

/-- Row `r` of the `t`-th block of 2000 rows, as a row of the whole 50000-row array. -/
def rowOf (t : Fin 25) (r : Fin 2000) : Fin 50000 := ⟨2000 * t.val + r.val, by have := t.isLt; have := r.isLt; omega⟩

theorem rowOf_val (t : Fin 25) (r : Fin 2000) : (rowOf t r).val = 2000 * t.val + r.val := rfl

/-- Row `r` belongs to graph `g`: its id word is the number `g`. -/
def inGraph (gid : IVec S50000x1 32) (r : Fin 50000) (g : Fin 128) : Prop := gid (ix2 r 0) = BitVec.ofNat 32 g.val

instance (gid : IVec S50000x1 32) (r : Fin 50000) (g : Fin 128) : Decidable (inGraph gid r g) := by
  unfold inGraph; infer_instance

/-- The sum of graph `g`'s rows at feature `d`, and the number of its rows. -/
def segSum (h : FVec Ideal S50000x128 .f32) (gid : IVec S50000x1 32) (g d : Fin 128) : EReal :=
  ∑ r : Fin 50000, if inGraph gid r g then h (ix2 r d) else 0
def segCnt (gid : IVec S50000x1 32) (g : Fin 128) : EReal :=
  ∑ r : Fin 50000, if inGraph gid r g then (1 : EReal) else 0

/-- One entry of the pooled classifier: graph `g`'s mean features against column `j` of `wf`, plus the bias. -/
def poolAt (h : FVec Ideal S50000x128 .f32) (gid : IVec S50000x1 32) (wf : FVec Ideal S128x10 .f32) (bf : FVec Ideal S1x10 .f32)
    (g : Fin 128) (j : Fin 10) : EReal :=
  (∑ d : Fin 128, Ideal.div (segSum h gid g d) (max (segCnt gid g) 1) * wf (ix2 d j)) + bf (ix2 0 j)

/-- The pooled classifier on whole arrays. -/
def poolK (h : FVec Ideal S50000x128 .f32) (gid : IVec S50000x1 32) (wf : FVec Ideal S128x10 .f32) (bf : FVec Ideal S1x10 .f32) :
    FVec Ideal S128x10 .f32 :=
  fun i => poolAt h gid wf bf (i 0) (i 1)

/-! ## The host operations both programs share: in-degrees and neighbourhood means -/

section Shared
variable {F : FTy → Type} [FloatOps F]

/-- The in-degree column: a scatter-add of ones at the edge targets, clamped below by one, as a [50000, 1] array. -/
def degT (dst : (⟨S800000, .i32⟩ : BufTy).Contents (Elt F)) : (⟨S50000x1, .f32⟩ : BufTy).Contents (Elt F) :=
  broadcastInDim S50000x1 ![0] bcast_S50000_S50000x1_0
    (maximumf
      (Host.scatterAdd scatter_S50000_S800000x1_S800000_n_0_0_1 (broadcastInDim S50000 ![] bcast_S_S50000 (constant S_ .f32 0x00000000#32))
        (broadcastInDim S800000x1 ![0] bcast_S800000_S800000x1_0 dst) (broadcastInDim S800000 ![] bcast_S_S800000 (constant S_ .f32 0x3F800000#32)))
      (broadcastInDim S50000 ![] bcast_S_S50000 (constant S_ .f32 0x3F800000#32)))

/-- The neighbourhood mean of the node features `h`: gather the rows at the edge sources (a negative index counted
    from the end), scatter-add them at the edge targets, divide by the in-degree column. -/
def aggT (h : (⟨S50000x128, .f32⟩ : BufTy).Contents (Elt F)) (src dst : (⟨S800000, .i32⟩ : BufTy).Contents (Elt F))
    (deg : (⟨S50000x1, .f32⟩ : BufTy).Contents (Elt F)) : (⟨S50000x128, .f32⟩ : BufTy).Contents (Elt F) :=
  Host.divf
    (Host.scatterAdd scatter_S50000x128_S800000x1_S800000x128_1_0_0_1 (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1 deg)

end Shared

end Cert.KernelIdeal.Val

end
-- ==== Proof.Val.Sage0.lean ====
/- The value of region 0 (the first SAGE layer's launch) over the extended reals: the body's stored value read at an
   entry is the layer's formula on the point's blocks; block t of the row-blocked windows is rows 2000·t … 2000·t + 1999
   of its array and the weight and bias windows are their whole arrays; so each write-back is a block of the layer on
   the whole arrays, the blocks cover the output array, and the array ends holding the layer. -/
import proofs.«411194_j75926431859108_1_alg».proof.Proof.KI.Sage0
import proofs.«411194_j75926431859108_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Hand Cert.KernelIdeal.Gen
open Idealize.ShloMosaic Idealize.ShloMosaic.TcCoe Idealize.ShloMosaic.ValueIdx
open Idealize.SL.Sem
open Idealize.ShloMosaic.Pipeline (Dat)

/-! ## The body's stored value at an entry -/

/-- The product's left operand index at output entry `i` and contraction index `q`: row of `i`, column `q`. -/
theorem lhs_mm0_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm0_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's: row `q`, column of `i`. -/
theorem rhs_mm0_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm0_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] by [128,128] product onto the zero accumulator, at entry (p, q): the sum over the shared axis. -/
theorem mm_at0 {φ₁ φ₂ : FTy} (a : FVec Ideal S2000x128 φ₁) (b : FVec Ideal S128x128 φ₂) (p : Fin 2000) (q : Fin 128) :
    FloatOps.matmul dot_S2000x128_S128x128_S2000x128_1_0_0_1_n_n none a b (constant (F := Ideal) S2000x128 .f32 0x00000000#32) (ix2 p q)
      = ∑ k : Fin 128, a (ix2 p k) * b (ix2 k q) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_mm0_0 _ _
    | ⟨1, _⟩ => exact (lhs_mm0_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_mm0_0 _ _).trans hk
    | ⟨1, _⟩ => exact rhs_mm0_1 _ _)
  rw [el, er]

/-- The bias row spread over the 2000 rows, at entry (p, q): the row's entry q. -/
theorem bias_at0 (x : FVec Ideal S1x128 .f32) (h2 : S1x128.Broadcasts S2000x128) (p : Fin 2000) (q : Fin 128) :
    broadcastTo S2000x128 x h2 (ix2 p q) = x (ix2 0 q) := by
  exact broadcastTo_apply x h2 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The stored value at entry (p, q) of the block: the two products' sums, the bias, clamped below at zero. -/
theorem pay_at0 (x0 x1 : Vec Ideal S2000x128 .f32) (x2 x3 : Vec Ideal S128x128 .f32) (x4 : Vec Ideal S1x128 .f32) (p : Fin 2000) (q : Fin 128) :
    k0_pay1 x0 x1 x2 x3 x4 (ix2 p q)
      = max (((∑ k : Fin 128, x0 (ix2 p k) * x2 (ix2 k q)) + (∑ k : Fin 128, x1 (ix2 p k) * x3 (ix2 k q))) + x4 (ix2 0 q))
          (Ideal.ofBits .f32 0x00000000#32) := by
  unfold k0_pay1
  simp only [maximumf_apply, addf_apply, broadcast_apply, mm_at0, bias_at0, shapeCast_self, truncf_apply]
  rfl

/-- The layer's value on the whole arrays at array entry `i`, from a block whose row-blocked inputs are rows
    2000·n … of their arrays and whose weight and bias inputs are the whole arrays: the stored value at block entry
    `j`, when `i` is row 2000·n + (row of `j`), same column. -/
theorem blk_val0 (A0 A1 : FVec Ideal S50000x128 .f32) (A2 A3 : FVec Ideal S128x128 .f32) (A4 : FVec Ideal S1x128 .f32)
    (x0 x1 : Vec Ideal S2000x128 .f32) (x2 x3 : Vec Ideal S128x128 .f32) (x4 : Vec Ideal S1x128 .f32) (n : Nat)
    (h0 : ∀ (p : Fin 2000) (k : Fin 128) (i : S50000x128.Idx), (i 0).val = 2000 * n + p.val → (i 1).val = k.val → x0 (ix2 p k) = A0 i)
    (h1 : ∀ (p : Fin 2000) (k : Fin 128) (i : S50000x128.Idx), (i 0).val = 2000 * n + p.val → (i 1).val = k.val → x1 (ix2 p k) = A1 i)
    (h2 : x2 = A2) (h3 : x3 = A3) (h4 : x4 = A4)
    (j : S2000x128.Idx) (i : S50000x128.Idx) (hi0 : (i 0).val = 2000 * n + (j 0).val) (hi1 : (i 1).val = (j 1).val) :
    k0_pay1 x0 x1 x2 x3 x4 j = sageK A0 A1 A2 A3 A4 i := by
  obtain ⟨p, q, rfl⟩ : ∃ (p : Fin 2000) (q : Fin 128), j = ix2 p q := ⟨j 0, j 1, eq_ix2 j⟩
  rw [pay_at0, h2, h3, h4]
  have hq : i 1 = q := Fin.ext hi1
  have e0 : ∀ k : Fin 128, x0 (ix2 p k) = A0 (ix2 (i 0) k) := fun k => h0 p k _ hi0 rfl
  have e1 : ∀ k : Fin 128, x1 (ix2 p k) = A1 (ix2 (i 0) k) := fun k => h1 p k _ hi0 rfl
  unfold sageK sageAt
  simp only [e0, e1, hq]

/-! ## The index maps over the grid -/

/-- Block `t` of the row-blocked windows 0, 1, 5 is block row `t`; windows 2, 3, 4 stay at their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The blocks as parts of the arrays -/

variable (V : (c : Dev nD) → (b : Ref sig .tc) → Buf (Elt Ideal) ((c : Thread nD τ).loc b))

theorem zeros0 : (![0, 0] : Fin 2 → Nat) = fun _ => 0 := funext fun a => by fin_cases a <;> rfl

/-- Window 0's block at point `t`, entry (p, k): its array at row 2000·t + p, column k. -/
theorem blk_read0_0 (c : Dev nD) (t : Fin cfg0.N) (p : Fin 2000) (k : Fin 128) (i : S50000x128.Idx)
    (hi0 : (i 0).val = 2000 * t.val + p.val) (hi1 : (i 1).val = k.val) :
    (iblk0 V c 0 t : Vec Ideal S2000x128 .f32) (ix2 p k) = (V c main_arg0 : FVec Ideal S50000x128 .f32) i := by
  obtain ⟨e0, e1, -⟩ := idx_facts0 t
  unfold iblk0
  show V c main_arg0 (((cfg0.win 0).blk t).view.emb (ix2 p k)) = V c main_arg0 i
  refine congrArg _ (funext fun a => Fin.ext ?_)
  match a with
  | ⟨0, _⟩ => show win0_0.index t (0 : Fin 2) * 2000 + 1 * p.val = (i 0).val; rw [e0, hi0]; omega
  | ⟨1, _⟩ => show win0_0.index t (1 : Fin 2) * 128 + 1 * k.val = (i 1).val; rw [e1, hi1]; omega

/-- Window 1's likewise. -/
theorem blk_read0_1 (c : Dev nD) (t : Fin cfg0.N) (p : Fin 2000) (k : Fin 128) (i : S50000x128.Idx)
    (hi0 : (i 0).val = 2000 * t.val + p.val) (hi1 : (i 1).val = k.val) :
    (iblk0 V c 1 t : Vec Ideal S2000x128 .f32) (ix2 p k) = (V c main_v18 : FVec Ideal S50000x128 .f32) i := by
  obtain ⟨-, -, e0, e1, -⟩ := idx_facts0 t
  unfold iblk0
  show V c main_v18 (((cfg0.win 1).blk t).view.emb (ix2 p k)) = V c main_v18 i
  refine congrArg _ (funext fun a => Fin.ext ?_)
  match a with
  | ⟨0, _⟩ => show win0_1.index t (0 : Fin 2) * 2000 + 1 * p.val = (i 0).val; rw [e0, hi0]; omega
  | ⟨1, _⟩ => show win0_1.index t (1 : Fin 2) * 128 + 1 * k.val = (i 1).val; rw [e1, hi1]; omega

/-- Windows 2, 3, 4 hold their whole arrays at every point. -/
theorem blk_whole0_2 (c : Dev nD) (t : Fin cfg0.N) :
    (iblk0 V c 2 t : Vec Ideal S128x128 .f32) = (V c main_arg4 : FVec Ideal S128x128 .f32) := by
  obtain ⟨-, -, -, -, e0, e1, -⟩ := idx_facts0 t
  unfold iblk0
  funext y
  show V c main_arg4 (((cfg0.win 2).blk t).view.emb y) = V c main_arg4 y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega
theorem blk_whole0_3 (c : Dev nD) (t : Fin cfg0.N) :
    (iblk0 V c 3 t : Vec Ideal S128x128 .f32) = (V c main_arg5 : FVec Ideal S128x128 .f32) := by
  obtain ⟨-, -, -, -, -, -, e0, e1, -⟩ := idx_facts0 t
  unfold iblk0
  funext y
  show V c main_arg5 (((cfg0.win 3).blk t).view.emb y) = V c main_arg5 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega
theorem blk_whole0_4 (c : Dev nD) (t : Fin cfg0.N) :
    (iblk0 V c 4 t : Vec Ideal S1x128 .f32) = (V c main_v19 : FVec Ideal S1x128 .f32) := by
  obtain ⟨-, -, -, -, -, -, -, -, e0, e1, -⟩ := idx_facts0 t
  unfold iblk0
  funext y
  show V c main_v19 (((cfg0.win 4).blk t).view.emb y) = V c main_v19 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-! ## What each point writes back -/

/-- Point `t` writes back block `t` of the layer on the whole arrays. -/
theorem flushed0 (c : Dev nD) (t : Fin cfg0.N) :
    (dat0 V c).flushed 5 t = ((cfg0.win 5).blk t).view.read (Elt Ideal)
      (sageK (V c main_arg0) (V c main_v18) (V c main_arg4) (V c main_arg5) (V c main_v19)) := by
  show (cfg0.win 5).cut (grid0.coords t) ((dat0 V c).after 5 t) = _
  rw [after0_5]
  unfold out0_5
  rw [View.canon_unit_zero zeros0]
  simp only [View.ld_unit_zero (S := S2000x128) zeros0, View.ld_unit_zero (S := S128x128) zeros0, View.ld_unit_zero (S := S1x128) zeros0]
  obtain ⟨-, -, -, -, -, -, -, -, -, -, e0, e1⟩ := idx_facts0 t
  funext j
  show k0_pay1 (iblk0 V c 0 t) (iblk0 V c 1 t) (iblk0 V c 2 t) (iblk0 V c 3 t) (iblk0 V c 4 t) j
    = sageK (V c main_arg0) (V c main_v18) (V c main_arg4) (V c main_arg5) (V c main_v19) (((cfg0.win 5).blk t).view.emb j)
  refine blk_val0 _ _ _ _ _ _ _ _ _ _ t.val (fun p k i hi0 hi1 => blk_read0_0 V c t p k i hi0 hi1)
    (fun p k i hi0 hi1 => blk_read0_1 V c t p k i hi0 hi1) (blk_whole0_2 V c t) (blk_whole0_3 V c t) (blk_whole0_4 V c t) j _ ?_ ?_
  · show win0_5.index t (0 : Fin 2) * 2000 + 1 * (j 0).val = 2000 * t.val + (j 0).val; rw [e0]; omega
  · show win0_5.index t (1 : Fin 2) * 128 + 1 * (j 1).val = (j 1).val; rw [e1]; omega

/-! ## The blocks cover the array -/

/-- An array entry is in point `t`'s block iff each coordinate is in the block's range on its axis. -/
theorem mem_blk0_5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v20).slice (win0_5.rect t)).set ↔ _
  rw [View.set_slice_whole, Rect.mem_set_unit]
  exact Iff.rfl

/-- Row `r` lies in the block of point `r / 2000`, which is written back. -/
theorem cover_rows0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, -, -, -, -, -, -, e0, e1⟩ := idx_facts0 t
  refine ⟨t, flush0_5 t, ?_⟩
  rw [mem_blk0_5]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 128 ≤ (i 1).val ∧ (i 1).val < win0_5.index t (1 : Fin 2) * 128 + 128; rw [e1]; omega

/-! ## The array after the region -/

/-- The output array ends holding the layer on the whole arrays as the region found them. -/
theorem arr0_eq (c : Dev nD) : (dat0 V c).arrAt 5 cfg0.N = sageK (V c main_arg0) (V c main_v18) (V c main_arg4) (V c main_arg5) (V c main_v19) :=
  (dat0 V c).arrAt_eq_of_cover 5 (sageK (V c main_arg0) (V c main_v18) (V c main_arg4) (V c main_arg5) (V c main_v19))
    (fun t _ => flushed0 V c t) cover_rows0

end Cert.KernelIdeal.Val

end
-- ==== Proof.Val.Sage1.lean ====
/- The value of region 0 (the first SAGE layer's launch) over the extended reals: the body's stored value read at an
   entry is the layer's formula on the point's blocks; block t of the row-blocked windows is rows 2000·t … 2000·t + 1999
   of its array and the weight and bias windows are their whole arrays; so each write-back is a block of the layer on
   the whole arrays, the blocks cover the output array, and the array ends holding the layer. -/
import proofs.«411194_j75926431859108_1_alg».proof.Proof.KI.Sage1
import proofs.«411194_j75926431859108_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Hand Cert.KernelIdeal.Gen
open Idealize.ShloMosaic Idealize.ShloMosaic.TcCoe Idealize.ShloMosaic.ValueIdx
open Idealize.SL.Sem
open Idealize.ShloMosaic.Pipeline (Dat)

/-! ## The body's stored value at an entry -/

/-- The product's left operand index at output entry `i` and contraction index `q`: row of `i`, column `q`. -/
theorem lhs_mm1_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm1_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's: row `q`, column of `i`. -/
theorem rhs_mm1_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm1_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] by [128,128] product onto the zero accumulator, at entry (p, q): the sum over the shared axis. -/
theorem mm_at1 {φ₁ φ₂ : FTy} (a : FVec Ideal S2000x128 φ₁) (b : FVec Ideal S128x128 φ₂) (p : Fin 2000) (q : Fin 128) :
    FloatOps.matmul dot_S2000x128_S128x128_S2000x128_1_0_0_1_n_n none a b (constant (F := Ideal) S2000x128 .f32 0x00000000#32) (ix2 p q)
      = ∑ k : Fin 128, a (ix2 p k) * b (ix2 k q) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_mm1_0 _ _
    | ⟨1, _⟩ => exact (lhs_mm1_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_mm1_0 _ _).trans hk
    | ⟨1, _⟩ => exact rhs_mm1_1 _ _)
  rw [el, er]

/-- The bias row spread over the 2000 rows, at entry (p, q): the row's entry q. -/
theorem bias_at1 (x : FVec Ideal S1x128 .f32) (h2 : S1x128.Broadcasts S2000x128) (p : Fin 2000) (q : Fin 128) :
    broadcastTo S2000x128 x h2 (ix2 p q) = x (ix2 0 q) := by
  exact broadcastTo_apply x h2 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The stored value at entry (p, q) of the block: the two products' sums, the bias, clamped below at zero. -/
theorem pay_at1 (x0 x1 : Vec Ideal S2000x128 .f32) (x2 x3 : Vec Ideal S128x128 .f32) (x4 : Vec Ideal S1x128 .f32) (p : Fin 2000) (q : Fin 128) :
    k1_pay1 x0 x1 x2 x3 x4 (ix2 p q)
      = max (((∑ k : Fin 128, x0 (ix2 p k) * x2 (ix2 k q)) + (∑ k : Fin 128, x1 (ix2 p k) * x3 (ix2 k q))) + x4 (ix2 0 q))
          (Ideal.ofBits .f32 0x00000000#32) := by
  unfold k1_pay1
  simp only [maximumf_apply, addf_apply, broadcast_apply, mm_at1, bias_at1, shapeCast_self, truncf_apply]
  rfl

/-- The layer's value on the whole arrays at array entry `i`, from a block whose row-blocked inputs are rows
    2000·n … of their arrays and whose weight and bias inputs are the whole arrays: the stored value at block entry
    `j`, when `i` is row 2000·n + (row of `j`), same column. -/
theorem blk_val1 (A0 A1 : FVec Ideal S50000x128 .f32) (A2 A3 : FVec Ideal S128x128 .f32) (A4 : FVec Ideal S1x128 .f32)
    (x0 x1 : Vec Ideal S2000x128 .f32) (x2 x3 : Vec Ideal S128x128 .f32) (x4 : Vec Ideal S1x128 .f32) (n : Nat)
    (h0 : ∀ (p : Fin 2000) (k : Fin 128) (i : S50000x128.Idx), (i 0).val = 2000 * n + p.val → (i 1).val = k.val → x0 (ix2 p k) = A0 i)
    (h1 : ∀ (p : Fin 2000) (k : Fin 128) (i : S50000x128.Idx), (i 0).val = 2000 * n + p.val → (i 1).val = k.val → x1 (ix2 p k) = A1 i)
    (h2 : x2 = A2) (h3 : x3 = A3) (h4 : x4 = A4)
    (j : S2000x128.Idx) (i : S50000x128.Idx) (hi0 : (i 0).val = 2000 * n + (j 0).val) (hi1 : (i 1).val = (j 1).val) :
    k1_pay1 x0 x1 x2 x3 x4 j = sageK A0 A1 A2 A3 A4 i := by
  obtain ⟨p, q, rfl⟩ : ∃ (p : Fin 2000) (q : Fin 128), j = ix2 p q := ⟨j 0, j 1, eq_ix2 j⟩
  rw [pay_at1, h2, h3, h4]
  have hq : i 1 = q := Fin.ext hi1
  have e0 : ∀ k : Fin 128, x0 (ix2 p k) = A0 (ix2 (i 0) k) := fun k => h0 p k _ hi0 rfl
  have e1 : ∀ k : Fin 128, x1 (ix2 p k) = A1 (ix2 (i 0) k) := fun k => h1 p k _ hi0 rfl
  unfold sageK sageAt
  simp only [e0, e1, hq]

/-! ## The index maps over the grid -/

/-- Block `t` of the row-blocked windows 0, 1, 5 is block row `t`; windows 2, 3, 4 stay at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The blocks as parts of the arrays -/

variable (V : (c : Dev nD) → (b : Ref sig .tc) → Buf (Elt Ideal) ((c : Thread nD τ).loc b))

theorem zeros1 : (![0, 0] : Fin 2 → Nat) = fun _ => 0 := funext fun a => by fin_cases a <;> rfl

/-- Window 0's block at point `t`, entry (p, k): its array at row 2000·t + p, column k. -/
theorem blk_read1_0 (c : Dev nD) (t : Fin cfg1.N) (p : Fin 2000) (k : Fin 128) (i : S50000x128.Idx)
    (hi0 : (i 0).val = 2000 * t.val + p.val) (hi1 : (i 1).val = k.val) :
    (iblk1 V c 0 t : Vec Ideal S2000x128 .f32) (ix2 p k) = (V c main_v20 : FVec Ideal S50000x128 .f32) i := by
  obtain ⟨e0, e1, -⟩ := idx_facts1 t
  unfold iblk1
  show V c main_v20 (((cfg1.win 0).blk t).view.emb (ix2 p k)) = V c main_v20 i
  refine congrArg _ (funext fun a => Fin.ext ?_)
  match a with
  | ⟨0, _⟩ => show win1_0.index t (0 : Fin 2) * 2000 + 1 * p.val = (i 0).val; rw [e0, hi0]; omega
  | ⟨1, _⟩ => show win1_0.index t (1 : Fin 2) * 128 + 1 * k.val = (i 1).val; rw [e1, hi1]; omega

/-- Window 1's likewise. -/
theorem blk_read1_1 (c : Dev nD) (t : Fin cfg1.N) (p : Fin 2000) (k : Fin 128) (i : S50000x128.Idx)
    (hi0 : (i 0).val = 2000 * t.val + p.val) (hi1 : (i 1).val = k.val) :
    (iblk1 V c 1 t : Vec Ideal S2000x128 .f32) (ix2 p k) = (V c main_v32 : FVec Ideal S50000x128 .f32) i := by
  obtain ⟨-, -, e0, e1, -⟩ := idx_facts1 t
  unfold iblk1
  show V c main_v32 (((cfg1.win 1).blk t).view.emb (ix2 p k)) = V c main_v32 i
  refine congrArg _ (funext fun a => Fin.ext ?_)
  match a with
  | ⟨0, _⟩ => show win1_1.index t (0 : Fin 2) * 2000 + 1 * p.val = (i 0).val; rw [e0, hi0]; omega
  | ⟨1, _⟩ => show win1_1.index t (1 : Fin 2) * 128 + 1 * k.val = (i 1).val; rw [e1, hi1]; omega

/-- Windows 2, 3, 4 hold their whole arrays at every point. -/
theorem blk_whole1_2 (c : Dev nD) (t : Fin cfg1.N) :
    (iblk1 V c 2 t : Vec Ideal S128x128 .f32) = (V c main_arg7 : FVec Ideal S128x128 .f32) := by
  obtain ⟨-, -, -, -, e0, e1, -⟩ := idx_facts1 t
  unfold iblk1
  funext y
  show V c main_arg7 (((cfg1.win 2).blk t).view.emb y) = V c main_arg7 y
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega
theorem blk_whole1_3 (c : Dev nD) (t : Fin cfg1.N) :
    (iblk1 V c 3 t : Vec Ideal S128x128 .f32) = (V c main_arg8 : FVec Ideal S128x128 .f32) := by
  obtain ⟨-, -, -, -, -, -, e0, e1, -⟩ := idx_facts1 t
  unfold iblk1
  funext y
  show V c main_arg8 (((cfg1.win 3).blk t).view.emb y) = V c main_arg8 y
  refine congrArg _ (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega
theorem blk_whole1_4 (c : Dev nD) (t : Fin cfg1.N) :
    (iblk1 V c 4 t : Vec Ideal S1x128 .f32) = (V c main_v33 : FVec Ideal S1x128 .f32) := by
  obtain ⟨-, -, -, -, -, -, -, -, e0, e1, -⟩ := idx_facts1 t
  unfold iblk1
  funext y
  show V c main_v33 (((cfg1.win 4).blk t).view.emb y) = V c main_v33 y
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-! ## What each point writes back -/

/-- Point `t` writes back block `t` of the layer on the whole arrays. -/
theorem flushed1 (c : Dev nD) (t : Fin cfg1.N) :
    (dat1 V c).flushed 5 t = ((cfg1.win 5).blk t).view.read (Elt Ideal)
      (sageK (V c main_v20) (V c main_v32) (V c main_arg7) (V c main_arg8) (V c main_v33)) := by
  show (cfg1.win 5).cut (grid1.coords t) ((dat1 V c).after 5 t) = _
  rw [after1_5]
  unfold out1_5
  rw [View.canon_unit_zero zeros1]
  simp only [View.ld_unit_zero (S := S2000x128) zeros1, View.ld_unit_zero (S := S128x128) zeros1, View.ld_unit_zero (S := S1x128) zeros1]
  obtain ⟨-, -, -, -, -, -, -, -, -, -, e0, e1⟩ := idx_facts1 t
  funext j
  show k1_pay1 (iblk1 V c 0 t) (iblk1 V c 1 t) (iblk1 V c 2 t) (iblk1 V c 3 t) (iblk1 V c 4 t) j
    = sageK (V c main_v20) (V c main_v32) (V c main_arg7) (V c main_arg8) (V c main_v33) (((cfg1.win 5).blk t).view.emb j)
  refine blk_val1 _ _ _ _ _ _ _ _ _ _ t.val (fun p k i hi0 hi1 => blk_read1_0 V c t p k i hi0 hi1)
    (fun p k i hi0 hi1 => blk_read1_1 V c t p k i hi0 hi1) (blk_whole1_2 V c t) (blk_whole1_3 V c t) (blk_whole1_4 V c t) j _ ?_ ?_
  · show win1_5.index t (0 : Fin 2) * 2000 + 1 * (j 0).val = 2000 * t.val + (j 0).val; rw [e0]; omega
  · show win1_5.index t (1 : Fin 2) * 128 + 1 * (j 1).val = (j 1).val; rw [e1]; omega

/-! ## The blocks cover the array -/

/-- An array entry is in point `t`'s block iff each coordinate is in the block's range on its axis. -/
theorem mem_blk1_5 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v34).slice (win1_5.rect t)).set ↔ _
  rw [View.set_slice_whole, Rect.mem_set_unit]
  exact Iff.rfl

/-- Row `r` lies in the block of point `r / 2000`, which is written back. -/
theorem cover_rows1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by rw [show cfg1.N = 25 from N_1]; omega⟩, rfl⟩
  obtain ⟨-, -, -, -, -, -, -, -, -, -, e0, e1⟩ := idx_facts1 t
  refine ⟨t, flush1_5 t, ?_⟩
  rw [mem_blk1_5]
  intro a
  match a with
  | ⟨0, _⟩ => show win1_5.index t (0 : Fin 2) * 2000 ≤ (i 0).val ∧ (i 0).val < win1_5.index t (0 : Fin 2) * 2000 + 2000; rw [e0, ht]; omega
  | ⟨1, _⟩ => show win1_5.index t (1 : Fin 2) * 128 ≤ (i 1).val ∧ (i 1).val < win1_5.index t (1 : Fin 2) * 128 + 128; rw [e1]; omega

/-! ## The array after the region -/

/-- The output array ends holding the layer on the whole arrays as the region found them. -/
theorem arr1_eq (c : Dev nD) : (dat1 V c).arrAt 5 cfg1.N = sageK (V c main_v20) (V c main_v32) (V c main_arg7) (V c main_arg8) (V c main_v33) :=
  (dat1 V c).arrAt_eq_of_cover 5 (sageK (V c main_v20) (V c main_v32) (V c main_arg7) (V c main_arg8) (V c main_v33))
    (fun t _ => flushed1 V c t) cover_rows1

end Cert.KernelIdeal.Val

end
-- ==== Proof.Val.Sage2.lean ====
/- The value of region 0 (the first SAGE layer's launch) over the extended reals: the body's stored value read at an
   entry is the layer's formula on the point's blocks; block t of the row-blocked windows is rows 2000·t … 2000·t + 1999
   of its array and the weight and bias windows are their whole arrays; so each write-back is a block of the layer on
   the whole arrays, the blocks cover the output array, and the array ends holding the layer. -/
import proofs.«411194_j75926431859108_1_alg».proof.Proof.KI.Sage2
import proofs.«411194_j75926431859108_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Hand Cert.KernelIdeal.Gen
open Idealize.ShloMosaic Idealize.ShloMosaic.TcCoe Idealize.ShloMosaic.ValueIdx
open Idealize.SL.Sem
open Idealize.ShloMosaic.Pipeline (Dat)

/-! ## The body's stored value at an entry -/

/-- The product's left operand index at output entry `i` and contraction index `q`: row of `i`, column `q`. -/
theorem lhs_mm2_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm2_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's: row `q`, column of `i`. -/
theorem rhs_mm2_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm2_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] by [128,128] product onto the zero accumulator, at entry (p, q): the sum over the shared axis. -/
theorem mm_at2 {φ₁ φ₂ : FTy} (a : FVec Ideal S2000x128 φ₁) (b : FVec Ideal S128x128 φ₂) (p : Fin 2000) (q : Fin 128) :
    FloatOps.matmul dot_S2000x128_S128x128_S2000x128_1_0_0_1_n_n none a b (constant (F := Ideal) S2000x128 .f32 0x00000000#32) (ix2 p q)
      = ∑ k : Fin 128, a (ix2 p k) * b (ix2 k q) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_mm2_0 _ _
    | ⟨1, _⟩ => exact (lhs_mm2_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_mm2_0 _ _).trans hk
    | ⟨1, _⟩ => exact rhs_mm2_1 _ _)
  rw [el, er]

/-- The bias row spread over the 2000 rows, at entry (p, q): the row's entry q. -/
theorem bias_at2 (x : FVec Ideal S1x128 .f32) (h2 : S1x128.Broadcasts S2000x128) (p : Fin 2000) (q : Fin 128) :
    broadcastTo S2000x128 x h2 (ix2 p q) = x (ix2 0 q) := by
  exact broadcastTo_apply x h2 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The stored value at entry (p, q) of the block: the two products' sums, the bias, clamped below at zero. -/
theorem pay_at2 (x0 x1 : Vec Ideal S2000x128 .f32) (x2 x3 : Vec Ideal S128x128 .f32) (x4 : Vec Ideal S1x128 .f32) (p : Fin 2000) (q : Fin 128) :
    k2_pay1 x0 x1 x2 x3 x4 (ix2 p q)
      = max (((∑ k : Fin 128, x0 (ix2 p k) * x2 (ix2 k q)) + (∑ k : Fin 128, x1 (ix2 p k) * x3 (ix2 k q))) + x4 (ix2 0 q))
          (Ideal.ofBits .f32 0x00000000#32) := by
  unfold k2_pay1
  simp only [maximumf_apply, addf_apply, broadcast_apply, mm_at2, bias_at2, shapeCast_self, truncf_apply]
  rfl

/-- The layer's value on the whole arrays at array entry `i`, from a block whose row-blocked inputs are rows
    2000·n … of their arrays and whose weight and bias inputs are the whole arrays: the stored value at block entry
    `j`, when `i` is row 2000·n + (row of `j`), same column. -/
theorem blk_val2 (A0 A1 : FVec Ideal S50000x128 .f32) (A2 A3 : FVec Ideal S128x128 .f32) (A4 : FVec Ideal S1x128 .f32)
    (x0 x1 : Vec Ideal S2000x128 .f32) (x2 x3 : Vec Ideal S128x128 .f32) (x4 : Vec Ideal S1x128 .f32) (n : Nat)
    (h0 : ∀ (p : Fin 2000) (k : Fin 128) (i : S50000x128.Idx), (i 0).val = 2000 * n + p.val → (i 1).val = k.val → x0 (ix2 p k) = A0 i)
    (h1 : ∀ (p : Fin 2000) (k : Fin 128) (i : S50000x128.Idx), (i 0).val = 2000 * n + p.val → (i 1).val = k.val → x1 (ix2 p k) = A1 i)
    (h2 : x2 = A2) (h3 : x3 = A3) (h4 : x4 = A4)
    (j : S2000x128.Idx) (i : S50000x128.Idx) (hi0 : (i 0).val = 2000 * n + (j 0).val) (hi1 : (i 1).val = (j 1).val) :
    k2_pay1 x0 x1 x2 x3 x4 j = sageK A0 A1 A2 A3 A4 i := by
  obtain ⟨p, q, rfl⟩ : ∃ (p : Fin 2000) (q : Fin 128), j = ix2 p q := ⟨j 0, j 1, eq_ix2 j⟩
  rw [pay_at2, h2, h3, h4]
  have hq : i 1 = q := Fin.ext hi1
  have e0 : ∀ k : Fin 128, x0 (ix2 p k) = A0 (ix2 (i 0) k) := fun k => h0 p k _ hi0 rfl
  have e1 : ∀ k : Fin 128, x1 (ix2 p k) = A1 (ix2 (i 0) k) := fun k => h1 p k _ hi0 rfl
  unfold sageK sageAt
  simp only [e0, e1, hq]

/-! ## The index maps over the grid -/

/-- Block `t` of the row-blocked windows 0, 1, 5 is block row `t`; windows 2, 3, 4 stay at their one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! ## The blocks as parts of the arrays -/

variable (V : (c : Dev nD) → (b : Ref sig .tc) → Buf (Elt Ideal) ((c : Thread nD τ).loc b))

theorem zeros2 : (![0, 0] : Fin 2 → Nat) = fun _ => 0 := funext fun a => by fin_cases a <;> rfl

/-- Window 0's block at point `t`, entry (p, k): its array at row 2000·t + p, column k. -/
theorem blk_read2_0 (c : Dev nD) (t : Fin cfg2.N) (p : Fin 2000) (k : Fin 128) (i : S50000x128.Idx)
    (hi0 : (i 0).val = 2000 * t.val + p.val) (hi1 : (i 1).val = k.val) :
    (iblk2 V c 0 t : Vec Ideal S2000x128 .f32) (ix2 p k) = (V c main_v34 : FVec Ideal S50000x128 .f32) i := by
  obtain ⟨e0, e1, -⟩ := idx_facts2 t
  unfold iblk2
  show V c main_v34 (((cfg2.win 0).blk t).view.emb (ix2 p k)) = V c main_v34 i
  refine congrArg _ (funext fun a => Fin.ext ?_)
  match a with
  | ⟨0, _⟩ => show win2_0.index t (0 : Fin 2) * 2000 + 1 * p.val = (i 0).val; rw [e0, hi0]; omega
  | ⟨1, _⟩ => show win2_0.index t (1 : Fin 2) * 128 + 1 * k.val = (i 1).val; rw [e1, hi1]; omega

/-- Window 1's likewise. -/
theorem blk_read2_1 (c : Dev nD) (t : Fin cfg2.N) (p : Fin 2000) (k : Fin 128) (i : S50000x128.Idx)
    (hi0 : (i 0).val = 2000 * t.val + p.val) (hi1 : (i 1).val = k.val) :
    (iblk2 V c 1 t : Vec Ideal S2000x128 .f32) (ix2 p k) = (V c main_v46 : FVec Ideal S50000x128 .f32) i := by
  obtain ⟨-, -, e0, e1, -⟩ := idx_facts2 t
  unfold iblk2
  show V c main_v46 (((cfg2.win 1).blk t).view.emb (ix2 p k)) = V c main_v46 i
  refine congrArg _ (funext fun a => Fin.ext ?_)
  match a with
  | ⟨0, _⟩ => show win2_1.index t (0 : Fin 2) * 2000 + 1 * p.val = (i 0).val; rw [e0, hi0]; omega
  | ⟨1, _⟩ => show win2_1.index t (1 : Fin 2) * 128 + 1 * k.val = (i 1).val; rw [e1, hi1]; omega

/-- Windows 2, 3, 4 hold their whole arrays at every point. -/
theorem blk_whole2_2 (c : Dev nD) (t : Fin cfg2.N) :
    (iblk2 V c 2 t : Vec Ideal S128x128 .f32) = (V c main_arg10 : FVec Ideal S128x128 .f32) := by
  obtain ⟨-, -, -, -, e0, e1, -⟩ := idx_facts2 t
  unfold iblk2
  funext y
  show V c main_arg10 (((cfg2.win 2).blk t).view.emb y) = V c main_arg10 y
  refine congrArg _ (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega
theorem blk_whole2_3 (c : Dev nD) (t : Fin cfg2.N) :
    (iblk2 V c 3 t : Vec Ideal S128x128 .f32) = (V c main_arg11 : FVec Ideal S128x128 .f32) := by
  obtain ⟨-, -, -, -, -, -, e0, e1, -⟩ := idx_facts2 t
  unfold iblk2
  funext y
  show V c main_arg11 (((cfg2.win 3).blk t).view.emb y) = V c main_arg11 y
  refine congrArg _ (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega
theorem blk_whole2_4 (c : Dev nD) (t : Fin cfg2.N) :
    (iblk2 V c 4 t : Vec Ideal S1x128 .f32) = (V c main_v47 : FVec Ideal S1x128 .f32) := by
  obtain ⟨-, -, -, -, -, -, -, -, e0, e1, -⟩ := idx_facts2 t
  unfold iblk2
  funext y
  show V c main_v47 (((cfg2.win 4).blk t).view.emb y) = V c main_v47 y
  refine congrArg _ (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-! ## What each point writes back -/

/-- Point `t` writes back block `t` of the layer on the whole arrays. -/
theorem flushed2 (c : Dev nD) (t : Fin cfg2.N) :
    (dat2 V c).flushed 5 t = ((cfg2.win 5).blk t).view.read (Elt Ideal)
      (sageK (V c main_v34) (V c main_v46) (V c main_arg10) (V c main_arg11) (V c main_v47)) := by
  show (cfg2.win 5).cut (grid2.coords t) ((dat2 V c).after 5 t) = _
  rw [after2_5]
  unfold out2_5
  rw [View.canon_unit_zero zeros2]
  simp only [View.ld_unit_zero (S := S2000x128) zeros2, View.ld_unit_zero (S := S128x128) zeros2, View.ld_unit_zero (S := S1x128) zeros2]
  obtain ⟨-, -, -, -, -, -, -, -, -, -, e0, e1⟩ := idx_facts2 t
  funext j
  show k2_pay1 (iblk2 V c 0 t) (iblk2 V c 1 t) (iblk2 V c 2 t) (iblk2 V c 3 t) (iblk2 V c 4 t) j
    = sageK (V c main_v34) (V c main_v46) (V c main_arg10) (V c main_arg11) (V c main_v47) (((cfg2.win 5).blk t).view.emb j)
  refine blk_val2 _ _ _ _ _ _ _ _ _ _ t.val (fun p k i hi0 hi1 => blk_read2_0 V c t p k i hi0 hi1)
    (fun p k i hi0 hi1 => blk_read2_1 V c t p k i hi0 hi1) (blk_whole2_2 V c t) (blk_whole2_3 V c t) (blk_whole2_4 V c t) j _ ?_ ?_
  · show win2_5.index t (0 : Fin 2) * 2000 + 1 * (j 0).val = 2000 * t.val + (j 0).val; rw [e0]; omega
  · show win2_5.index t (1 : Fin 2) * 128 + 1 * (j 1).val = (j 1).val; rw [e1]; omega

/-! ## The blocks cover the array -/

/-- An array entry is in point `t`'s block iff each coordinate is in the block's range on its axis. -/
theorem mem_blk2_5 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v48).slice (win2_5.rect t)).set ↔ _
  rw [View.set_slice_whole, Rect.mem_set_unit]
  exact Iff.rfl

/-- Row `r` lies in the block of point `r / 2000`, which is written back. -/
theorem cover_rows2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, by rw [show cfg2.N = 25 from N_2]; omega⟩, rfl⟩
  obtain ⟨-, -, -, -, -, -, -, -, -, -, e0, e1⟩ := idx_facts2 t
  refine ⟨t, flush2_5 t, ?_⟩
  rw [mem_blk2_5]
  intro a
  match a with
  | ⟨0, _⟩ => show win2_5.index t (0 : Fin 2) * 2000 ≤ (i 0).val ∧ (i 0).val < win2_5.index t (0 : Fin 2) * 2000 + 2000; rw [e0, ht]; omega
  | ⟨1, _⟩ => show win2_5.index t (1 : Fin 2) * 128 ≤ (i 1).val ∧ (i 1).val < win2_5.index t (1 : Fin 2) * 128 + 128; rw [e1]; omega

/-! ## The array after the region -/

/-- The output array ends holding the layer on the whole arrays as the region found them. -/
theorem arr2_eq (c : Dev nD) : (dat2 V c).arrAt 5 cfg2.N = sageK (V c main_v34) (V c main_v46) (V c main_arg10) (V c main_arg11) (V c main_v47) :=
  (dat2 V c).arrAt_eq_of_cover 5 (sageK (V c main_v34) (V c main_v46) (V c main_arg10) (V c main_arg11) (V c main_v47))
    (fun t _ => flushed2 V c t) cover_rows2

end Cert.KernelIdeal.Val

end
-- ==== Proof.LibPackedSums.lean ====
/-
  Regrouping of finite sums over consecutive naturals, in any commutative monoid, and one fact on 32-bit words.

  A block of m·n consecutive naturals x is read as x = n·a + b with a < m and b < n; a block of m + n consecutive
  naturals as the first m followed by the next n. Because addition is commutative and associative, a sum over the
  block equals the iterated sum over the coordinates, and iterated sums over different coordinates may be exchanged.
  The instances stated here: 2 000 000 rows n = 2·k + h, with k = (100·c + i)·5000 + r a packed row (c < 2, i < 100,
  r < 5000) and h < 2 the half; and 128 lanes l = j + 64·h with j < 64.

  The word fact: a natural j < 64 written as a 32-bit word is the only word whose signed value is j.
-/
import Mathlib.Algebra.BigOperators.Fin
import Mathlib.Algebra.BigOperators.Group.Finset.Basic
import Mathlib.Logic.Equiv.Fin.Basic
import Mathlib.Data.Fintype.BigOperators

namespace Cert.PackedSums

open Finset

section General

variable {M : Type*} [AddCommMonoid M]

/-- A sum over `N = m·n` consecutive naturals is the double sum over `a < m`, `b < n` of the term at `n·a + b`:
    every `x < m·n` is `n·a + b` for exactly one such pair. -/
theorem sum_fin_of_eq_mul {N m n : ℕ} (hN : N = m * n) (g : ℕ → M) :
    (∑ x : Fin N, g x.val) = ∑ a : Fin m, ∑ b : Fin n, g (n * a.val + b.val) := by
  subst hN
  have h1 : (∑ x : Fin (m * n), g x.val) = ∑ p : Fin m × Fin n, g (finProdFinEquiv p).val :=
    (Equiv.sum_comp finProdFinEquiv (fun x : Fin (m * n) => g x.val)).symm
  rw [h1, Fintype.sum_prod_type]
  refine Finset.sum_congr rfl fun a _ => Finset.sum_congr rfl fun b _ => ?_
  rw [finProdFinEquiv_apply_val, Nat.add_comm]

/-- A sum over `N = m + n` consecutive naturals is the sum over the first `m` plus the sum over the next `n`. -/
theorem sum_fin_of_eq_add {N m n : ℕ} (hN : N = m + n) (f : ℕ → M) :
    (∑ x : Fin N, f x.val) = (∑ a : Fin m, f a.val) + ∑ b : Fin n, f (b.val + m) := by
  subst hN
  rw [Fin.sum_univ_add]
  refine congrArg₂ (· + ·) rfl (Finset.sum_congr rfl fun b _ => ?_)
  rw [Fin.val_natAdd, Nat.add_comm]

/-- A sum over `N = K·2` consecutive naturals is the sum of the even terms plus the sum of the odd terms. -/
theorem sum_fin_even_odd {N K : ℕ} (hN : N = K * 2) (g : ℕ → M) :
    (∑ x : Fin N, g x.val) = (∑ k : Fin K, g (2 * k.val)) + ∑ k : Fin K, g (2 * k.val + 1) := by
  rw [sum_fin_of_eq_mul hN g, ← Finset.sum_add_distrib]
  refine Finset.sum_congr rfl fun k _ => ?_
  rw [Fin.sum_univ_two]
  rfl

/-- A sum over `K = (A·B)·R` consecutive naturals is the triple sum over `c < A`, `i < B`, `r < R` of the term at
    `(B·c + i)·R + r`. -/
theorem sum_fin_three {K A B R : ℕ} (hK : K = (A * B) * R) (f : ℕ → M) :
    (∑ k : Fin K, f k.val) = ∑ c : Fin A, ∑ i : Fin B, ∑ r : Fin R, f ((B * c.val + i.val) * R + r.val) := by
  rw [sum_fin_of_eq_mul hK f]
  rw [sum_fin_of_eq_mul (rfl : A * B = A * B) (fun a => ∑ r : Fin R, f (R * a + r.val))]
  refine Finset.sum_congr rfl fun c _ => Finset.sum_congr rfl fun i _ => Finset.sum_congr rfl fun r _ => ?_
  rw [Nat.mul_comm R]

/-- In a fourfold iterated sum the outermost coordinate may be moved innermost. -/
theorem sum_rotate4 {α β γ δ : Type*} [Fintype α] [Fintype β] [Fintype γ] [Fintype δ]
    (F : α → β → γ → δ → M) :
    (∑ j : δ, ∑ c : α, ∑ i : β, ∑ r : γ, F c i r j) = ∑ c : α, ∑ i : β, ∑ r : γ, ∑ j : δ, F c i r j := by
  refine Finset.sum_comm.trans (Finset.sum_congr rfl fun c _ => ?_)
  refine Finset.sum_comm.trans (Finset.sum_congr rfl fun i _ => ?_)
  exact Finset.sum_comm

end General

/-- The 2 000 000 rows, grouped: row `n = 2·k` or `n = 2·k + 1` with `k = (100·c + i)·5000 + r`, so the sum over
    all rows is the sum over the first halves of all packed rows plus the sum over the second halves. -/
theorem sum_rows_eq_packed {M : Type*} [AddCommMonoid M] (g : ℕ → M) :
    (∑ n : Fin 2000000, g n.val)
      = (∑ c : Fin 2, ∑ i : Fin 100, ∑ r : Fin 5000, g (2 * ((100 * c.val + i.val) * 5000 + r.val)))
      + (∑ c : Fin 2, ∑ i : Fin 100, ∑ r : Fin 5000, g (2 * ((100 * c.val + i.val) * 5000 + r.val) + 1)) := by
  have hN : (2000000 : ℕ) = 1000000 * 2 := rfl
  have hK : (1000000 : ℕ) = (2 * 100) * 5000 := rfl
  rw [sum_fin_even_odd hN g, sum_fin_three hK (fun k => g (2 * k)), sum_fin_three hK (fun k => g (2 * k + 1))]

/-- The 128 lanes are the 64 lanes `j` followed by the 64 lanes `j + 64`. -/
theorem sum_lanes_split {M : Type*} [AddCommMonoid M] (f : ℕ → M) :
    (∑ l : Fin 128, f l.val) = (∑ j : Fin 64, f j.val) + (∑ j : Fin 64, f (j.val + 64)) :=
  sum_fin_of_eq_add (rfl : (128 : ℕ) = 64 + 64) f

/-- Rows times classes equal lanes times packed rows: the entry of row `n = 2·k + h` and class `j` is the entry of
    packed row `k` in lane `l = j + 64·h`, where `h = l / 64` and `j = l % 64`. -/
theorem sum_rows_classes_eq_lanes {M : Type*} [AddCommMonoid M] (h : ℕ → ℕ → M) :
    (∑ n : Fin 2000000, ∑ j : Fin 64, h n.val j.val)
      = ∑ l : Fin 128, ∑ c : Fin 2, ∑ i : Fin 100, ∑ r : Fin 5000,
          h (2 * ((100 * c.val + i.val) * 5000 + r.val) + l.val / 64) (l.val % 64) := by
  rw [sum_rows_eq_packed (fun n => ∑ j : Fin 64, h n j.val)]
  rw [sum_lanes_split (fun l => ∑ c : Fin 2, ∑ i : Fin 100, ∑ r : Fin 5000,
          h (2 * ((100 * c.val + i.val) * 5000 + r.val) + l / 64) (l % 64))]
  refine congrArg₂ (· + ·) ?_ ?_
  · rw [← sum_rotate4 (fun (c : Fin 2) (i : Fin 100) (r : Fin 5000) (j : Fin 64) =>
        h (2 * ((100 * c.val + i.val) * 5000 + r.val)) j.val)]
    refine Finset.sum_congr rfl fun j _ => Finset.sum_congr rfl fun c _ => Finset.sum_congr rfl fun i _ =>
      Finset.sum_congr rfl fun r _ => ?_
    rw [Nat.div_eq_of_lt j.isLt, Nat.mod_eq_of_lt j.isLt, Nat.add_zero]
  · rw [← sum_rotate4 (fun (c : Fin 2) (i : Fin 100) (r : Fin 5000) (j : Fin 64) =>
        h (2 * ((100 * c.val + i.val) * 5000 + r.val) + 1) j.val)]
    refine Finset.sum_congr rfl fun j _ => Finset.sum_congr rfl fun c _ => Finset.sum_congr rfl fun i _ =>
      Finset.sum_congr rfl fun r _ => ?_
    have h1 : (j.val + 64) / 64 = 1 := by have := j.isLt; omega
    have h2 : (j.val + 64) % 64 = j.val := by have := j.isLt; omega
    rw [h1, h2]

/-- The signed value of the 32-bit word of a natural `j < 64` is `j`. -/
theorem toInt_ofNat_small (j : ℕ) (hj : j < 64) : (BitVec.ofNat 32 j).toInt = (j : ℤ) := by
  rw [BitVec.toInt_eq_toNat_cond, BitVec.toNat_ofNat]
  have hm : j % 2 ^ 32 = j := Nat.mod_eq_of_lt (by omega)
  rw [hm, if_pos (by omega)]

/-- A 32-bit word is the word of `j < 64` exactly when its signed value is `j`: the signed value determines the
    word, and the word of `j` has signed value `j`. -/
theorem ofNat_eq_iff_toInt (j : ℕ) (hj : j < 64) (t : BitVec 32) : BitVec.ofNat 32 j = t ↔ t.toInt = (j : ℤ) := by
  rw [eq_comm, ← BitVec.toInt_inj, toInt_ofNat_small j hj]

end Cert.PackedSums
-- ==== Proof.Val.PoolMath.lean ====
/- The pooling kernel's arithmetic over the extended reals: the one-hot product of a block of rows adds, to each
   graph's running sum and running count, that block's rows of the graph; after the 25 blocks the running sum and count
   are the sums over all 50000 rows, and the classifier applied to their quotient is the stated entry. -/
import proofs.«411194_j75926431859108_1_alg».proof.Proof.Gen.KernelIdeal.Skeleton
import proofs.«411194_j75926431859108_1_alg».proof.Proof.Val.Spec
import proofs.«411194_j75926431859108_1_alg».proof.Proof.LibPackedSums
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Idealize.ShloMosaic Idealize.ShloMosaic.ValueIdx
open Cert.KernelIdeal.Facts₀ Cert.KernelIdeal.Facts
open scoped BigOperators

/-! ## The one-hot block -/

namespace Pool

/-- A one-bit word widened to 32 bits and read as a signed integer is 1 when the bit is set, 0 otherwise. -/
theorem word_of_bool (p : Bool) : ((((BitVec.ofBool p).setWidth 32).toInt : ℝ) : EReal) = if p = true then 1 else 0 := by
  cases p <;> simp

/-- Entry (r, c) of the one-hot block is 1 when row r's graph id is the number c, and 0 otherwise. -/
theorem onehot_apply (g : Vec Ideal S2000x1 .i32) (r : Fin 2000) (c : Fin 128) :
    k3_pay3 (F := Ideal) g (ix2 r c) = if g (ix2 r 0) = BitVec.ofNat 32 c.val then (1 : EReal) else 0 := by
  unfold k3_pay3
  rw [shapeCast_self]
  show ((((IntOp.cmpi .eq (broadcastTo S2000x128 g Gen.broadcasts_S2000x1_S2000x128 (ix2 r c))
      (iota .tc S2000x128 32 [1] Gen.iota_S2000x128_d1_w32 (ix2 r c))).setWidth 32).toInt : ℝ) : EReal) = _
  rw [iota_single_apply, broadcastTo_apply g _ (ix2 r c) (ix2 r 0) (fun a => by
    match a with
    | ⟨0, _⟩ => rfl
    | ⟨1, _⟩ => rfl)]
  unfold IntOp.cmpi
  rw [word_of_bool]
  simp only [beq_iff_eq]

/-! ## The two products over a block's rows -/

/-- The product's left operand (the one-hot block) is read at (contraction row, output row). -/
theorem pool_lhs_0 (i : S128x128.Idx) (q : dot_S2000x128_S2000x128_S128x128_0_0_1_1_n_n.contr.Idx) :
    (dot_S2000x128_S2000x128_S128x128_0_0_1_1_n_n.lhsIdx i q 0).val = (q ⟨0, by decide⟩).val :=
  dot_S2000x128_S2000x128_S128x128_0_0_1_1_n_n.lhsIdx_val_of_single rfl i q
theorem pool_lhs_1 (i : S128x128.Idx) (q : dot_S2000x128_S2000x128_S128x128_0_0_1_1_n_n.contr.Idx) :
    (dot_S2000x128_S2000x128_S128x128_0_0_1_1_n_n.lhsIdx i q 1).val = (i 0).val := by
  unfold DotDims.lhsIdx
  rw [dif_neg (show ¬(1 : Fin S2000x128.rank) ∈ dot_S2000x128_S2000x128_S128x128_0_0_1_1_n_n.lhsBatch by decide),
    dif_pos (show (1 : Fin S2000x128.rank) ∈ dot_S2000x128_S2000x128_S128x128_0_0_1_1_n_n.lhsNonContracting by decide)]
  rfl
/-- The right operand (the block of rows) is read at (contraction row, output column). -/
theorem pool_rhs_0 (i : S128x128.Idx) (q : dot_S2000x128_S2000x128_S128x128_0_0_1_1_n_n.contr.Idx) :
    (dot_S2000x128_S2000x128_S128x128_0_0_1_1_n_n.rhsIdx i q 0).val = (q ⟨0, by decide⟩).val :=
  dot_S2000x128_S2000x128_S128x128_0_0_1_1_n_n.rhsIdx_val_of_single rfl i q
theorem pool_rhs_1 (i : S128x128.Idx) (q : dot_S2000x128_S2000x128_S128x128_0_0_1_1_n_n.contr.Idx) :
    (dot_S2000x128_S2000x128_S128x128_0_0_1_1_n_n.rhsIdx i q 1).val = (i 1).val := by
  unfold DotDims.rhsIdx
  rw [dif_neg (show ¬(1 : Fin S2000x128.rank) ∈ dot_S2000x128_S2000x128_S128x128_0_0_1_1_n_n.rhsBatch by decide),
    dif_pos (show (1 : Fin S2000x128.rank) ∈ dot_S2000x128_S2000x128_S128x128_0_0_1_1_n_n.rhsNonContracting by decide)]
  rfl

/-- The product of the transposed one-hot block with any block `y` of 2000 rows, onto the zero array: entry (c, d) is
    the sum over the rows of the one-hot entry (r, c) times y (r, d). -/
theorem onehot_dot_apply (g : Vec Ideal S2000x1 .i32) (y : FVec Ideal S2000x128 .bf16) (c d : Fin 128) :
    FloatOps.matmul dot_S2000x128_S2000x128_S128x128_0_0_1_1_n_n none (k3_pay3 (F := Ideal) g) y
        (constant S128x128 .f32 0x00000000#32) (ix2 c d)
      = ∑ r : Fin 2000, (if g (ix2 r 0) = BitVec.ofNat 32 c.val then (1 : EReal) else 0) * y (ix2 r d) := by
  rw [Ideal.matmul_constant_zero_apply,
    ← Equiv.sum_comp (contrEquiv1 dot_S2000x128_S2000x128_S128x128_0_0_1_1_n_n 2000 rfl rfl).symm]
  refine Finset.sum_congr rfl fun r _ => ?_
  have hk := contrEquiv1_symm_val dot_S2000x128_S2000x128_S128x128_0_0_1_1_n_n 2000 rfl rfl r
  have el : dot_S2000x128_S2000x128_S128x128_0_0_1_1_n_n.lhsIdx (ix2 c d)
      ((contrEquiv1 dot_S2000x128_S2000x128_S128x128_0_0_1_1_n_n 2000 rfl rfl).symm r) = ix2 r c :=
    funext fun a => Fin.ext (by
      match a with
      | ⟨0, _⟩ => exact (pool_lhs_0 _ _).trans hk
      | ⟨1, _⟩ => exact pool_lhs_1 _ _)
  have er : dot_S2000x128_S2000x128_S128x128_0_0_1_1_n_n.rhsIdx (ix2 c d)
      ((contrEquiv1 dot_S2000x128_S2000x128_S128x128_0_0_1_1_n_n 2000 rfl rfl).symm r) = ix2 r d :=
    funext fun a => Fin.ext (by
      match a with
      | ⟨0, _⟩ => exact (pool_rhs_0 _ _).trans hk
      | ⟨1, _⟩ => exact pool_rhs_1 _ _)
  rw [el, er, onehot_apply]

/-- One block's step of the running sums: to entry (c, d) it adds the block's rows of graph c at feature d. -/
theorem pay4_apply (x : Vec Ideal S2000x128 .f32) (g : Vec Ideal S2000x1 .i32) (acc : Vec Ideal S128x128 .f32) (c d : Fin 128) :
    k3_pay4 (F := Ideal) x g acc (ix2 c d)
      = acc (ix2 c d) + ∑ r : Fin 2000, if g (ix2 r 0) = BitVec.ofNat 32 c.val then x (ix2 r d) else 0 := by
  unfold k3_pay4
  rw [shapeCast_self, shapeCast_self]
  show acc (ix2 c d) + FloatOps.matmul dot_S2000x128_S2000x128_S128x128_0_0_1_1_n_n none (k3_pay3 (F := Ideal) g)
      (truncf .bf16 x Gen.bitsLt_bf16_f32) (constant S128x128 .f32 0x00000000#32) (ix2 c d) = _
  rw [onehot_dot_apply]
  refine congrArg (acc (ix2 c d) + ·) (Finset.sum_congr rfl fun r _ => ?_)
  show (if g (ix2 r 0) = BitVec.ofNat 32 c.val then (1 : EReal) else 0) * x (ix2 r d) = _
  split_ifs
  · exact one_mul _
  · exact zero_mul _

/-- One block's step of the running counts: to entry (c, d) it adds the number of the block's rows of graph c. -/
theorem pay5_apply (g : Vec Ideal S2000x1 .i32) (acc : Vec Ideal S128x128 .f32) (c d : Fin 128) :
    k3_pay5 (F := Ideal) g acc (ix2 c d)
      = acc (ix2 c d) + ∑ r : Fin 2000, if g (ix2 r 0) = BitVec.ofNat 32 c.val then (1 : EReal) else 0 := by
  unfold k3_pay5
  rw [shapeCast_self]
  show acc (ix2 c d) + FloatOps.matmul dot_S2000x128_S2000x128_S128x128_0_0_1_1_n_n none (k3_pay3 (F := Ideal) g)
      (broadcast S2000x128 (Scalar.ofBits (F := Ideal) .bf16 0x3F80#16)) (constant S128x128 .f32 0x00000000#32) (ix2 c d) = _
  rw [onehot_dot_apply]
  refine congrArg (acc (ix2 c d) + ·) (Finset.sum_congr rfl fun r _ => ?_)
  show (if g (ix2 r 0) = BitVec.ofNat 32 c.val then (1 : EReal) else 0) * Ideal.ofBits .bf16 0x3F80#16 = _
  rw [one_bf16, mul_one]

/-! ## The 25 blocks make the 50000 rows -/

/-- A sum over the 50000 rows is the sum over the 25 blocks of the sums over each block's 2000 rows. -/
theorem sum_rows_blocks (f : Fin 50000 → EReal) :
    (∑ R : Fin 50000, f R) = ∑ t : Fin 25, ∑ r : Fin 2000, f (rowOf t r) := by
  have key := Cert.PackedSums.sum_fin_of_eq_mul (N := 50000) (m := 25) (n := 2000) (by norm_num)
    (fun k : ℕ => if hk : k < 50000 then f ⟨k, hk⟩ else 0)
  have hl : (∑ R : Fin 50000, f R) = ∑ R : Fin 50000, (fun k : ℕ => if hk : k < 50000 then f ⟨k, hk⟩ else 0) R.val :=
    Finset.sum_congr rfl fun R _ => by
      show f R = if hk : R.val < 50000 then f ⟨R.val, hk⟩ else 0
      rw [dif_pos R.isLt]
  rw [hl, key]
  refine Finset.sum_congr rfl fun t _ => Finset.sum_congr rfl fun r _ => ?_
  show (if hk : 2000 * t.val + r.val < 50000 then f ⟨2000 * t.val + r.val, hk⟩ else 0) = f (rowOf t r)
  rw [dif_pos (show 2000 * t.val + r.val < 50000 from (rowOf t r).isLt)]
  rfl

/-- The zero arrays the two scratch buffers start from. -/
theorem pay1_apply (i : S128x128.Idx) : k3_pay1 (F := Ideal) i = 0 := by
  unfold k3_pay1
  rw [shapeCast_self]
  exact zero_f32
theorem pay2_apply (i : S128x128.Idx) : k3_pay2 (F := Ideal) i = 0 := by
  unfold k3_pay2
  rw [shapeCast_self]
  exact zero_f32

/-- What block `t` adds to the running sum of graph `c` at feature `d`, and to its running count
    (nothing for a number `t` that is no block). -/
def blockSum (x : Fin 25 → Vec Ideal S2000x128 .f32) (g : Fin 25 → Vec Ideal S2000x1 .i32) (c d : Fin 128) (t : ℕ) : EReal :=
  if ht : t < 25 then ∑ r : Fin 2000, (if g ⟨t, ht⟩ (ix2 r 0) = BitVec.ofNat 32 c.val then x ⟨t, ht⟩ (ix2 r d) else 0) else 0
def blockCnt (g : Fin 25 → Vec Ideal S2000x1 .i32) (c : Fin 128) (t : ℕ) : EReal :=
  if ht : t < 25 then ∑ r : Fin 2000, (if g ⟨t, ht⟩ (ix2 r 0) = BitVec.ofNat 32 c.val then (1 : EReal) else 0) else 0

/-- After block `n` the running sums hold the blocks 0 … n. -/
theorem running_sum (x : Fin 25 → Vec Ideal S2000x128 .f32) (g : Fin 25 → Vec Ideal S2000x1 .i32)
    (P : ℕ → Vec Ideal S128x128 .f32)
    (hP0 : P 0 = k3_pay4 (x 0) (g 0) (k3_pay1 (F := Ideal)))
    (hPs : ∀ (n : ℕ) (hn : n + 1 < 25), P (n + 1) = k3_pay4 (x ⟨n + 1, hn⟩) (g ⟨n + 1, hn⟩) (P n))
    (c d : Fin 128) (n : ℕ) (hn : n < 25) :
    P n (ix2 c d) = ∑ t ∈ Finset.range (n + 1), blockSum x g c d t := by
  induction n with
  | zero =>
    rw [hP0, pay4_apply, pay1_apply, zero_add, Finset.sum_range_one]
    unfold blockSum
    rw [dif_pos (by norm_num : 0 < 25)]
    rfl
  | succ n ih =>
    rw [hPs n hn, pay4_apply, ih (by omega), Finset.sum_range_succ _ (n + 1)]
    congr 1
    unfold blockSum
    rw [dif_pos hn]

/-- After block `n` the running counts hold the blocks 0 … n. -/
theorem running_cnt (g : Fin 25 → Vec Ideal S2000x1 .i32)
    (C : ℕ → Vec Ideal S128x128 .f32)
    (hC0 : C 0 = k3_pay5 (g 0) (k3_pay2 (F := Ideal)))
    (hCs : ∀ (n : ℕ) (hn : n + 1 < 25), C (n + 1) = k3_pay5 (g ⟨n + 1, hn⟩) (C n))
    (c d : Fin 128) (n : ℕ) (hn : n < 25) :
    C n (ix2 c d) = ∑ t ∈ Finset.range (n + 1), blockCnt g c t := by
  induction n with
  | zero =>
    rw [hC0, pay5_apply, pay2_apply, zero_add, Finset.sum_range_one]
    unfold blockCnt
    rw [dif_pos (by norm_num : 0 < 25)]
    rfl
  | succ n ih =>
    rw [hCs n hn, pay5_apply, ih (by omega), Finset.sum_range_succ _ (n + 1)]
    congr 1
    unfold blockCnt
    rw [dif_pos hn]

/-- After the last block the running sums are the sums over all rows of each graph. -/
theorem final_sum (h : FVec Ideal S50000x128 .f32) (gid : IVec S50000x1 32)
    (x : Fin 25 → Vec Ideal S2000x128 .f32) (g : Fin 25 → Vec Ideal S2000x1 .i32)
    (hx : ∀ (t : Fin 25) (r : Fin 2000) (d : Fin 128), x t (ix2 r d) = h (ix2 (rowOf t r) d))
    (hg : ∀ (t : Fin 25) (r : Fin 2000), g t (ix2 r 0) = gid (ix2 (rowOf t r) 0))
    (P : ℕ → Vec Ideal S128x128 .f32)
    (hP0 : P 0 = k3_pay4 (x 0) (g 0) (k3_pay1 (F := Ideal)))
    (hPs : ∀ (n : ℕ) (hn : n + 1 < 25), P (n + 1) = k3_pay4 (x ⟨n + 1, hn⟩) (g ⟨n + 1, hn⟩) (P n))
    (c d : Fin 128) : P 24 (ix2 c d) = segSum h gid c d := by
  rw [running_sum x g P hP0 hPs c d 24 (by norm_num), ← Fin.sum_univ_eq_sum_range (fun t => blockSum x g c d t) 25]
  unfold segSum
  rw [sum_rows_blocks]
  refine Finset.sum_congr rfl fun t _ => ?_
  unfold blockSum
  rw [dif_pos t.isLt]
  refine Finset.sum_congr rfl fun r _ => ?_
  show (if g t (ix2 r 0) = BitVec.ofNat 32 c.val then x t (ix2 r d) else 0) = _
  rw [hg, hx]
  rfl

/-- After the last block the running counts are the numbers of rows of each graph. -/
theorem final_cnt (gid : IVec S50000x1 32) (g : Fin 25 → Vec Ideal S2000x1 .i32)
    (hg : ∀ (t : Fin 25) (r : Fin 2000), g t (ix2 r 0) = gid (ix2 (rowOf t r) 0))
    (C : ℕ → Vec Ideal S128x128 .f32)
    (hC0 : C 0 = k3_pay5 (g 0) (k3_pay2 (F := Ideal)))
    (hCs : ∀ (n : ℕ) (hn : n + 1 < 25), C (n + 1) = k3_pay5 (g ⟨n + 1, hn⟩) (C n))
    (c d : Fin 128) : C 24 (ix2 c d) = segCnt gid c := by
  rw [running_cnt g C hC0 hCs c d 24 (by norm_num), ← Fin.sum_univ_eq_sum_range (fun t => blockCnt g c t) 25]
  unfold segCnt
  rw [sum_rows_blocks]
  refine Finset.sum_congr rfl fun t _ => ?_
  unfold blockCnt
  rw [dif_pos t.isLt]
  refine Finset.sum_congr rfl fun r _ => ?_
  show (if g t (ix2 r 0) = BitVec.ofNat 32 c.val then (1 : EReal) else 0) = _
  rw [hg]
  rfl

/-! ## The classifier on the quotient -/

/-- The classifier's product reads the quotient at (output row, contraction index) and the weights at
    (contraction index, output column). -/
theorem cls_lhs_0 (i : S128x10.Idx) (q : dot_S128x128_S128x10_S128x10_1_0_0_1_n_n.contr.Idx) :
    (dot_S128x128_S128x10_S128x10_1_0_0_1_n_n.lhsIdx i q 0).val = (i 0).val := by
  unfold DotDims.lhsIdx
  rw [dif_neg (show ¬(0 : Fin S128x128.rank) ∈ dot_S128x128_S128x10_S128x10_1_0_0_1_n_n.lhsBatch by decide),
    dif_pos (show (0 : Fin S128x128.rank) ∈ dot_S128x128_S128x10_S128x10_1_0_0_1_n_n.lhsNonContracting by decide)]
  rfl
theorem cls_lhs_1 (i : S128x10.Idx) (q : dot_S128x128_S128x10_S128x10_1_0_0_1_n_n.contr.Idx) :
    (dot_S128x128_S128x10_S128x10_1_0_0_1_n_n.lhsIdx i q 1).val = (q ⟨0, by decide⟩).val :=
  dot_S128x128_S128x10_S128x10_1_0_0_1_n_n.lhsIdx_val_of_single rfl i q
theorem cls_rhs_0 (i : S128x10.Idx) (q : dot_S128x128_S128x10_S128x10_1_0_0_1_n_n.contr.Idx) :
    (dot_S128x128_S128x10_S128x10_1_0_0_1_n_n.rhsIdx i q 0).val = (q ⟨0, by decide⟩).val :=
  dot_S128x128_S128x10_S128x10_1_0_0_1_n_n.rhsIdx_val_of_single rfl i q
theorem cls_rhs_1 (i : S128x10.Idx) (q : dot_S128x128_S128x10_S128x10_1_0_0_1_n_n.contr.Idx) :
    (dot_S128x128_S128x10_S128x10_1_0_0_1_n_n.rhsIdx i q 1).val = (i 1).val := by
  unfold DotDims.rhsIdx
  rw [dif_neg (show ¬(1 : Fin S128x10.rank) ∈ dot_S128x128_S128x10_S128x10_1_0_0_1_n_n.rhsBatch by decide),
    dif_pos (show (1 : Fin S128x10.rank) ∈ dot_S128x128_S128x10_S128x10_1_0_0_1_n_n.rhsNonContracting by decide)]
  rfl

/-- The product of a [128, 128] array with a [128, 10] one onto the zero array, at entry (a, j). -/
theorem cls_dot_apply (u : FVec Ideal S128x128 .bf16) (w : FVec Ideal S128x10 .bf16) (a : Fin 128) (j : Fin 10) :
    FloatOps.matmul dot_S128x128_S128x10_S128x10_1_0_0_1_n_n none u w (constant S128x10 .f32 0x00000000#32) (ix2 a j)
      = ∑ k : Fin 128, u (ix2 a k) * w (ix2 k j) := by
  rw [Ideal.matmul_constant_zero_apply,
    ← Equiv.sum_comp (contrEquiv1 dot_S128x128_S128x10_S128x10_1_0_0_1_n_n 128 rfl rfl).symm]
  refine Finset.sum_congr rfl fun k _ => ?_
  have hk := contrEquiv1_symm_val dot_S128x128_S128x10_S128x10_1_0_0_1_n_n 128 rfl rfl k
  have el : dot_S128x128_S128x10_S128x10_1_0_0_1_n_n.lhsIdx (ix2 a j)
      ((contrEquiv1 dot_S128x128_S128x10_S128x10_1_0_0_1_n_n 128 rfl rfl).symm k) = ix2 a k :=
    funext fun b => Fin.ext (by
      match b with
      | ⟨0, _⟩ => exact cls_lhs_0 _ _
      | ⟨1, _⟩ => exact (cls_lhs_1 _ _).trans hk)
  have er : dot_S128x128_S128x10_S128x10_1_0_0_1_n_n.rhsIdx (ix2 a j)
      ((contrEquiv1 dot_S128x128_S128x10_S128x10_1_0_0_1_n_n 128 rfl rfl).symm k) = ix2 k j :=
    funext fun b => Fin.ext (by
      match b with
      | ⟨0, _⟩ => exact (cls_rhs_0 _ _).trans hk
      | ⟨1, _⟩ => exact cls_rhs_1 _ _)
  rw [el, er]

/-- The last step: entry (a, j) is the sum over the features of the running sum over the count clamped below by one,
    times the weight, plus the bias of column j. -/
theorem pay6_apply (p cn : Vec Ideal S128x128 .f32) (wf : Vec Ideal S128x10 .f32) (bf : Vec Ideal S1x10 .f32)
    (a : Fin 128) (j : Fin 10) :
    k3_pay6 (F := Ideal) p cn wf bf (ix2 a j)
      = (∑ k : Fin 128, Ideal.div (p (ix2 a k)) (max (cn (ix2 a k)) 1) * wf (ix2 k j)) + bf (ix2 0 j) := by
  unfold k3_pay6
  rw [shapeCast_self]
  show FloatOps.matmul dot_S128x128_S128x10_S128x10_1_0_0_1_n_n none
        (truncf .bf16 (divf p (maximumf cn (broadcast S128x128 (Scalar.ofBits (F := Ideal) .f32 0x3F800000#32)))) Gen.bitsLt_bf16_f32)
        (truncf .bf16 wf Gen.bitsLt_bf16_f32) (constant S128x10 .f32 0x00000000#32) (ix2 a j)
      + broadcastTo S128x10 bf Gen.broadcasts_S1x10_S128x10 (ix2 a j) = _
  rw [cls_dot_apply, broadcastTo_apply bf _ (ix2 a j) (ix2 0 j) (fun b => by
    match b with
    | ⟨0, _⟩ => rfl
    | ⟨1, _⟩ => rfl)]
  refine congrArg (· + bf (ix2 0 j)) (Finset.sum_congr rfl fun k _ => ?_)
  show Ideal.div (p (ix2 a k)) (max (cn (ix2 a k)) (Ideal.ofBits .f32 0x3F800000#32)) * wf (ix2 k j) = _
  rw [one_f32]

end Pool

open Pool

/-! ## The whole fold -/

/-- The running sums and counts started from zero and stepped through the 25 blocks, then the classifier: the pooled
    classifier of the whole arrays. -/
theorem pool_fold (h : FVec Ideal S50000x128 .f32) (gid : IVec S50000x1 32) (wf : FVec Ideal S128x10 .f32) (bf : FVec Ideal S1x10 .f32)
    (x : Fin 25 → Vec Ideal S2000x128 .f32) (g : Fin 25 → Vec Ideal S2000x1 .i32)
    (hx : ∀ (t : Fin 25) (r : Fin 2000) (d : Fin 128), x t (ix2 r d) = h (ix2 (rowOf t r) d))
    (hg : ∀ (t : Fin 25) (r : Fin 2000), g t (ix2 r 0) = gid (ix2 (rowOf t r) 0))
    (P C : ℕ → Vec Ideal S128x128 .f32)
    (hP0 : P 0 = k3_pay4 (x 0) (g 0) (k3_pay1 (F := Ideal)))
    (hPs : ∀ (n : ℕ) (hn : n + 1 < 25), P (n + 1) = k3_pay4 (x ⟨n + 1, hn⟩) (g ⟨n + 1, hn⟩) (P n))
    (hC0 : C 0 = k3_pay5 (g 0) (k3_pay2 (F := Ideal)))
    (hCs : ∀ (n : ℕ) (hn : n + 1 < 25), C (n + 1) = k3_pay5 (g ⟨n + 1, hn⟩) (C n)) :
    k3_pay6 (P 24) (C 24) wf bf = poolK h gid wf bf := by
  funext i
  obtain ⟨a, j, rfl⟩ : ∃ (a : Fin 128) (j : Fin 10), i = ix2 a j := ⟨i 0, i 1, eq_ix2 i⟩
  show k3_pay6 (F := Ideal) (P 24) (C 24) wf bf (ix2 a j) = poolAt h gid wf bf a j
  rw [pay6_apply]
  unfold poolAt
  refine congrArg (· + bf (ix2 0 j)) (Finset.sum_congr rfl fun d _ => ?_)
  rw [final_sum h gid x g hx hg P hP0 hPs a d, final_cnt gid g hg C hC0 hCs a d]

end Cert.KernelIdeal.Val

end
-- ==== Proof.Val.Pool.lean ====
/- The value of the pooling and classifier launch: the output array after the last grid point is the pooled
   classifier of the four arrays the launch reads. -/
import proofs.«411194_j75926431859108_1_alg».proof.Proof.KI.Pool
import proofs.«411194_j75926431859108_1_alg».proof.Proof.Val.Spec
import proofs.«411194_j75926431859108_1_alg».proof.Proof.Val.PoolMath
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Hand Cert.KernelIdeal.Gen Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

namespace PoolArr

/-- The two row-blocked windows (the node features and the graph ids) sit, at point `t`, at block `t` of the rows
    and block zero of the columns. -/
theorem idx_rows : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- Row `r` of the block of node features at point `t` is row `2000·t + r` of the array. -/
theorem blk0_apply (c : Dev nD) (t : Fin cfg3.N) (r : Fin 2000) (d : Fin 128) :
    iblk3 V c 0 t (ix2 r d) = V c main_v48 (ix2 ⟨2000 * t.val + r.val, by have := t.isLt; have : cfg3.N = 25 := N_3; have := r.isLt; omega⟩ d) := by
  obtain ⟨e0, e1, e2, e3⟩ := idx_rows t
  show V c main_v48 (((cfg3.win 0).blk t).view.emb (ix2 r d)) = _
  refine congrArg _ ?_
  funext a; apply Fin.ext
  match a with
  | ⟨0, _⟩ => show win3_0.index t (0 : Fin 2) * 2000 + 1 * r.val = 2000 * t.val + r.val; omega
  | ⟨1, _⟩ => show win3_0.index t (1 : Fin 2) * 128 + 1 * d.val = d.val; omega

/-- Row `r` of the block of graph ids at point `t` is row `2000·t + r` of the array. -/
theorem blk1_apply (c : Dev nD) (t : Fin cfg3.N) (r : Fin 2000) :
    iblk3 V c 1 t (ix2 r 0) = V c main_v49 (ix2 ⟨2000 * t.val + r.val, by have := t.isLt; have : cfg3.N = 25 := N_3; have := r.isLt; omega⟩ 0) := by
  obtain ⟨e0, e1, e2, e3⟩ := idx_rows t
  show V c main_v49 (((cfg3.win 1).blk t).view.emb (ix2 r 0)) = _
  refine congrArg _ ?_
  funext a; apply Fin.ext
  match a with
  | ⟨0, _⟩ => show win3_1.index t (0 : Fin 2) * 2000 + 1 * r.val = 2000 * t.val + r.val; omega
  | ⟨1, _⟩ => show win3_1.index t (1 : Fin 2) * 1 + 1 * 0 = 0; omega

/-- The windows over a whole array (the classifier's weights and bias, and the output) sit at block index zero on
    both axes at every grid point. -/
theorem idx_whole : ∀ t : Fin cfg3.N, win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- An entry of the one block of a whole-array window is the same entry of the array. -/
theorem emb2_eq (t : Fin cfg3.N) (j : S128x10.Idx) : ((cfg3.win 2).blk t).view.emb j = j := by
  obtain ⟨e0, e1, e2, e3, e4, e5⟩ := idx_whole t
  funext a; apply Fin.ext
  match a with
  | ⟨0, _⟩ => show win3_2.index t (0 : Fin 2) * 128 + 1 * (j 0).val = (j 0).val; omega
  | ⟨1, _⟩ => show win3_2.index t (1 : Fin 2) * 10 + 1 * (j 1).val = (j 1).val; omega
theorem emb3_eq (t : Fin cfg3.N) (j : S1x10.Idx) : ((cfg3.win 3).blk t).view.emb j = j := by
  obtain ⟨e0, e1, e2, e3, e4, e5⟩ := idx_whole t
  funext a; apply Fin.ext
  match a with
  | ⟨0, _⟩ => show win3_3.index t (0 : Fin 2) * 1 + 1 * (j 0).val = (j 0).val; omega
  | ⟨1, _⟩ => show win3_3.index t (1 : Fin 2) * 10 + 1 * (j 1).val = (j 1).val; omega
theorem emb4_eq (t : Fin cfg3.N) (j : S128x10.Idx) : ((cfg3.win 4).blk t).view.emb j = j := by
  obtain ⟨e0, e1, e2, e3, e4, e5⟩ := idx_whole t
  funext a; apply Fin.ext
  match a with
  | ⟨0, _⟩ => show win3_4.index t (0 : Fin 2) * 128 + 1 * (j 0).val = (j 0).val; omega
  | ⟨1, _⟩ => show win3_4.index t (1 : Fin 2) * 10 + 1 * (j 1).val = (j 1).val; omega

/-- So the blocks of the weights and of the bias are the arrays themselves, at every point. -/
theorem blk2_eq (c : Dev nD) (t : Fin cfg3.N) : iblk3 V c 2 t = V c main_arg13 := by
  funext j
  show V c main_arg13 (((cfg3.win 2).blk t).view.emb j) = V c main_arg13 j
  rw [emb2_eq]
theorem blk3_eq (c : Dev nD) (t : Fin cfg3.N) : iblk3 V c 3 t = V c main_v50 := by
  funext j
  show V c main_v50 (((cfg3.win 3).blk t).view.emb j) = V c main_v50 j
  rw [emb3_eq]

/-- The grid has 25 points. -/
theorem N3 : cfg3.N = 25 := N_3
theorem pos3 : 0 < cfg3.N := by rw [N3]; decide
theorem last3 : 24 < cfg3.N := by rw [N3]; decide

/-- The running sum and the running count after point `n` (past the grid, where nothing reads them, those of the first point). -/
def runP (c : Dev nD) (n : ℕ) : Vec Ideal S128x128 .f32 :=
  if h : n < cfg3.N then (outsAt3 V c n h).2.1 else (outsAt3 V c 0 pos3).2.1
def runC (c : Dev nD) (n : ℕ) : Vec Ideal S128x128 .f32 :=
  if h : n < cfg3.N then (outsAt3 V c n h).2.2 else (outsAt3 V c 0 pos3).2.2

/-- The output buffer at the last point: the 25 blocks of rows are the 50000 rows in order, so the running sum and
    count there are those of the whole arrays, and the classifier of their quotient is the pooled classifier. -/
theorem out_last (c : Dev nD) :
    (outsAt3 V c 24 last3).1 = poolK (V c main_v48) (V c main_v49) (V c main_arg13) (V c main_v50) := by
  rw [outsAt3_last, blk2_eq, blk3_eq]
  have hP : (outsAt3 V c 24 last3).2.1 = runP V c 24 := by unfold runP; rw [dif_pos last3]
  have hC : (outsAt3 V c 24 last3).2.2 = runC V c 24 := by unfold runC; rw [dif_pos last3]
  rw [hP, hC]
  refine pool_fold (V c main_v48) (V c main_v49) (V c main_arg13) (V c main_v50)
    (fun t => iblk3 V c 0 (Fin.cast N3.symm t)) (fun t => iblk3 V c 1 (Fin.cast N3.symm t))
    (fun t r d => blk0_apply V c (Fin.cast N3.symm t) r d) (fun t r => blk1_apply V c (Fin.cast N3.symm t) r)
    (runP V c) (runC V c) ?_ ?_ ?_ ?_
  · unfold runP; rw [dif_pos pos3]
    exact congrArg (fun p => p.1) (outsAt3_first V c pos3)
  · intro n hn
    have hn' : n + 1 < cfg3.N := by rw [N3]; exact hn
    unfold runP; rw [dif_pos hn', dif_pos (Nat.lt_of_succ_lt hn')]
    exact congrArg (fun p => p.1) (outsAt3_succ V c n hn')
  · unfold runC; rw [dif_pos pos3]
    exact congrArg (fun p => p.2) (outsAt3_first V c pos3)
  · intro n hn
    have hn' : n + 1 < cfg3.N := by rw [N3]; exact hn
    unfold runC; rw [dif_pos hn', dif_pos (Nat.lt_of_succ_lt hn')]
    exact congrArg (fun p => p.2) (outsAt3_succ V c n hn')

end PoolArr

open PoolArr in
/-- The output array after the launch. Its window has one block, the whole array, written back at the last point
    only, where the buffer holds the pooled classifier. -/
theorem arr3_eq (c : Dev nD) : (dat3 V c).arrAt 4 cfg3.N = poolK (V c main_v48) (V c main_v49) (V c main_arg13) (V c main_v50) := by
  refine (dat3 V c).arrAt_eq_of_cover 4 _ ?_ ?_
  · intro t hf
    have ht : t.val = 24 := by
      have h1 := (flush3_4 t).mp hf
      have h2 : t.val < 25 := N3 ▸ t.isLt
      omega
    have et : t = ⟨24, last3⟩ := Fin.ext ht
    subst et
    show (cfg3.win 4).cut (cfg3.grid.coords ⟨24, last3⟩) ((dat3 V c).after 4 ⟨24, last3⟩) = _
    rw [after3_4]
    funext j
    show (outsAt3 V c 24 last3).1 j
      = poolK (V c main_v48) (V c main_v49) (V c main_arg13) (V c main_v50) (((cfg3.win 4).blk ⟨24, last3⟩).view.emb j)
    rw [emb4_eq, out_last]
  · intro i
    refine ⟨⟨24, last3⟩, (flush3_4 _).mpr rfl, ?_⟩
    have h := ((cfg3.win 4).blk ⟨24, last3⟩).view.emb_mem_set i
    rwa [emb4_eq] at h

end Cert.KernelIdeal.Val

end
-- ==== Proof.Val.Host.lean ====
/- What @main's host stretches compute, read off the valuation `W` each stretch starts from: the in-degree column and the
   neighbourhood means (the operations both programs share, kept folded as `degT` / `aggT`), and the changes of shape
   of the bias vectors and the graph ids. A buffer a stretch does not write keeps its contents. -/
import proofs.«411194_j75926431859108_1_alg».proof.Proof.Gen.KernelIdeal.Launch
import proofs.«411194_j75926431859108_1_alg».proof.Proof.Gen.KernelIdeal.Regions
import proofs.«411194_j75926431859108_1_alg».proof.Proof.Val.Spec
import Idealize.ShloMosaic.Lib.StableHlo.Run

noncomputable section

namespace Cert.KernelIdeal.Val

open Cert.KernelIdeal.Gen
open Idealize.ShloMosaic Idealize.ShloMosaic.TcCoe
open Idealize.SL Idealize.SL.Sem

variable {F : FTy → Type} [FloatOps F]
variable (W : Valuation τ sig (Elt F))

/-! ## The first stretch -/

set_option maxHeartbeats 4000000 in
theorem s0_v6 : StableHlo.after hostOps0 W (Proc.devRef .tc main_v6) = degT (F := F) (W (Proc.devRef .tc main_arg2)) := by
  unfold degT; after_results_simp <;> rfl

set_option maxHeartbeats 4000000 in
theorem s0_v18 : StableHlo.after hostOps0 W (Proc.devRef .tc main_v18)
    = aggT (F := F) (W (Proc.devRef .tc main_arg0)) (W (Proc.devRef .tc main_arg1)) (W (Proc.devRef .tc main_arg2))
        (degT (F := F) (W (Proc.devRef .tc main_arg2))) := by
  unfold aggT degT; after_results_simp <;> rfl

set_option maxHeartbeats 4000000 in
theorem s0_v19 : StableHlo.after hostOps0 W (Proc.devRef .tc main_v19)
    = shapeCast S1x128 (W (Proc.devRef .tc main_arg6)) Facts₀.shapeCasts_S128_S1x128 := by
  after_results_simp <;> rfl

theorem s0_keep (r : Ref sig .tc) (h : r ∉ hostOps0_W) :
    StableHlo.after hostOps0 W (Proc.devRef .tc r) = W (Proc.devRef .tc r) :=
  StableHlo.after_of_writes_sub hostOps0 _ hostOps0_writes h

/-! ## The second stretch (it reads the in-degree column the first stretch left in `main_v6`) -/

set_option maxHeartbeats 4000000 in
theorem s1_v32 : StableHlo.after hostOps1 W (Proc.devRef .tc main_v32)
    = aggT (F := F) (W (Proc.devRef .tc main_v20)) (W (Proc.devRef .tc main_arg1)) (W (Proc.devRef .tc main_arg2))
        (W (Proc.devRef .tc main_v6)) := by
  unfold aggT; after_results_simp <;> rfl

set_option maxHeartbeats 4000000 in
theorem s1_v33 : StableHlo.after hostOps1 W (Proc.devRef .tc main_v33)
    = shapeCast S1x128 (W (Proc.devRef .tc main_arg9)) Facts₀.shapeCasts_S128_S1x128 := by
  after_results_simp <;> rfl

theorem s1_keep (r : Ref sig .tc) (h : r ∉ hostOps1_W) :
    StableHlo.after hostOps1 W (Proc.devRef .tc r) = W (Proc.devRef .tc r) :=
  StableHlo.after_of_writes_sub hostOps1 _ hostOps1_writes h

/-! ## The third stretch -/

set_option maxHeartbeats 4000000 in
theorem s2_v46 : StableHlo.after hostOps2 W (Proc.devRef .tc main_v46)
    = aggT (F := F) (W (Proc.devRef .tc main_v34)) (W (Proc.devRef .tc main_arg1)) (W (Proc.devRef .tc main_arg2))
        (W (Proc.devRef .tc main_v6)) := by
  unfold aggT; after_results_simp <;> rfl

set_option maxHeartbeats 4000000 in
theorem s2_v47 : StableHlo.after hostOps2 W (Proc.devRef .tc main_v47)
    = shapeCast S1x128 (W (Proc.devRef .tc main_arg12)) Facts₀.shapeCasts_S128_S1x128 := by
  after_results_simp <;> rfl

theorem s2_keep (r : Ref sig .tc) (h : r ∉ hostOps2_W) :
    StableHlo.after hostOps2 W (Proc.devRef .tc r) = W (Proc.devRef .tc r) :=
  StableHlo.after_of_writes_sub hostOps2 _ hostOps2_writes h

/-! ## The fourth stretch -/

set_option maxHeartbeats 4000000 in
theorem s3_v49 : StableHlo.after hostOps3 W (Proc.devRef .tc main_v49)
    = shapeCast S50000x1 (W (Proc.devRef .tc main_arg3)) Facts₀.shapeCasts_S50000_S50000x1 := by
  after_results_simp <;> rfl

set_option maxHeartbeats 4000000 in
theorem s3_v50 : StableHlo.after hostOps3 W (Proc.devRef .tc main_v50)
    = shapeCast S1x10 (W (Proc.devRef .tc main_arg14)) Facts₀.shapeCasts_S10_S1x10 := by
  after_results_simp <;> rfl

theorem s3_keep (r : Ref sig .tc) (h : r ∉ hostOps3_W) :
    StableHlo.after hostOps3 W (Proc.devRef .tc r) = W (Proc.devRef .tc r) :=
  StableHlo.after_of_writes_sub hostOps3 _ hostOps3_writes h

end Cert.KernelIdeal.Val

end
-- ==== Proof.Val.Net.lean ====
/- The whole network as one function of the argument arrays, over the extended reals: three SAGE layers, each on
   the node features and their neighbourhood means, then the pooled classifier. -/
import proofs.«411194_j75926431859108_1_alg».proof.Proof.Val.Spec

noncomputable section

namespace Cert.KernelIdeal.Val

open Idealize.ShloMosaic Idealize.ShloMosaic.ValueIdx
open Cert.KernelIdeal.Facts₀ Cert.KernelIdeal.Facts

/-- The result array as a function of the fifteen argument arrays. The bias vectors and the graph ids enter as
    one-row / one-column arrays (a change of shape only). -/
def netK (x : FVec Ideal S50000x128 .f32) (src dst : IVec S800000 32) (gid : IVec S50000 32)
    (ws0 wn0 : FVec Ideal S128x128 .f32) (b0 : FVec Ideal S128 .f32)
    (ws1 wn1 : FVec Ideal S128x128 .f32) (b1 : FVec Ideal S128 .f32)
    (ws2 wn2 : FVec Ideal S128x128 .f32) (b2 : FVec Ideal S128 .f32)
    (wf : FVec Ideal S128x10 .f32) (bf : FVec Ideal S10 .f32) : FVec Ideal S128x10 .f32 :=
  let deg := degT (F := Ideal) dst
  let h1 := sageK x (aggT (F := Ideal) x src dst deg) ws0 wn0 (shapeCast S1x128 b0 shapeCasts_S128_S1x128)
  let h2 := sageK h1 (aggT (F := Ideal) h1 src dst deg) ws1 wn1 (shapeCast S1x128 b1 shapeCasts_S128_S1x128)
  let h3 := sageK h2 (aggT (F := Ideal) h2 src dst deg) ws2 wn2 (shapeCast S1x128 b2 shapeCasts_S128_S1x128)
  poolK h3 (shapeCast S50000x1 gid shapeCasts_S50000_S50000x1) wf (shapeCast S1x10 bf shapeCasts_S10_S1x10)

end Cert.KernelIdeal.Val

end
-- ==== Proof.Val.Kernel.lean ====
/- The kernel program's result array after its four host stretches and four launches, over the extended reals, as one
   function of the fifteen argument arrays: the in-degree column and each layer's neighbourhood means are what the host
   stretches leave, each of the three layer launches leaves the layer of what it was entered with, the last launch the
   pooled classifier; an array no later stage writes is read where it was last written. -/
import proofs.«411194_j75926431859108_1_alg».proof.Proof.KI.Run
import proofs.«411194_j75926431859108_1_alg».proof.Proof.Val.Sage0
import proofs.«411194_j75926431859108_1_alg».proof.Proof.Val.Sage1
import proofs.«411194_j75926431859108_1_alg».proof.Proof.Val.Sage2
import proofs.«411194_j75926431859108_1_alg».proof.Proof.Val.Pool
import proofs.«411194_j75926431859108_1_alg».proof.Proof.Val.Host
import proofs.«411194_j75926431859108_1_alg».proof.Proof.Val.Net

set_option maxRecDepth 16384

noncomputable section

namespace Cert.KernelIdeal.Val

open Cert.KernelIdeal Cert.KernelIdeal.Hand Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## The intermediate arrays as functions of the arguments -/

/-- The in-degree column of the edge targets. -/
abbrev degV (c : Dev nD) : FVec Ideal S50000x1 .f32 := degT (F := Ideal) (m ((c.tc : Thread nD τ).loc main_arg2))
/-- The first layer's output: the layer of the node features and their neighbourhood means. -/
abbrev lay1 (c : Dev nD) : FVec Ideal S50000x128 .f32 :=
  sageK (m ((c.tc : Thread nD τ).loc main_arg0)) (aggT (F := Ideal) (m ((c.tc : Thread nD τ).loc main_arg0)) (m ((c.tc : Thread nD τ).loc main_arg1)) (m ((c.tc : Thread nD τ).loc main_arg2)) (degV m c))
    (m ((c.tc : Thread nD τ).loc main_arg4)) (m ((c.tc : Thread nD τ).loc main_arg5)) (shapeCast S1x128 (m ((c.tc : Thread nD τ).loc main_arg6)) Facts₀.shapeCasts_S128_S1x128)
/-- The second layer's output, of the first's. -/
abbrev lay2 (c : Dev nD) : FVec Ideal S50000x128 .f32 :=
  sageK (lay1 m c) (aggT (F := Ideal) (lay1 m c) (m ((c.tc : Thread nD τ).loc main_arg1)) (m ((c.tc : Thread nD τ).loc main_arg2)) (degV m c))
    (m ((c.tc : Thread nD τ).loc main_arg7)) (m ((c.tc : Thread nD τ).loc main_arg8)) (shapeCast S1x128 (m ((c.tc : Thread nD τ).loc main_arg9)) Facts₀.shapeCasts_S128_S1x128)
/-- The third layer's output, of the second's. -/
abbrev lay3 (c : Dev nD) : FVec Ideal S50000x128 .f32 :=
  sageK (lay2 m c) (aggT (F := Ideal) (lay2 m c) (m ((c.tc : Thread nD τ).loc main_arg1)) (m ((c.tc : Thread nD τ).loc main_arg2)) (degV m c))
    (m ((c.tc : Thread nD τ).loc main_arg10)) (m ((c.tc : Thread nD τ).loc main_arg11)) (shapeCast S1x128 (m ((c.tc : Thread nD τ).loc main_arg12)) Facts₀.shapeCasts_S128_S1x128)

/-! ## A reference no stage so far has written holds its launch contents -/

theorem keep1 (c : Dev nD) (r : Ref sig .tc) (h0 : r ∉ hostOps0_W) : W1 m ρ c (Proc.devRef .tc r) = m ((c.tc : Thread nD τ).loc r) :=
  (W1_thru m ρ c r h0).trans rfl
theorem keep2 (c : Dev nD) (r : Ref sig .tc) (h0 : r ∉ hostOps0_W) (g0 : ∀ w, Pipeline.arrRef spec0 w = r → (cfg0.win w).isOut = false) :
    W2 m ρ c (Proc.devRef .tc r) = m ((c.tc : Thread nD τ).loc r) :=
  (W2_thru m ρ c r g0).trans (keep1 m ρ c r h0)
theorem keep3 (c : Dev nD) (r : Ref sig .tc) (h0 : r ∉ hostOps0_W) (g0 : ∀ w, Pipeline.arrRef spec0 w = r → (cfg0.win w).isOut = false)
    (h1 : r ∉ hostOps1_W) : W3 m ρ c (Proc.devRef .tc r) = m ((c.tc : Thread nD τ).loc r) :=
  (W3_thru m ρ c r h1).trans (keep2 m ρ c r h0 g0)
theorem keep4 (c : Dev nD) (r : Ref sig .tc) (h0 : r ∉ hostOps0_W) (g0 : ∀ w, Pipeline.arrRef spec0 w = r → (cfg0.win w).isOut = false)
    (h1 : r ∉ hostOps1_W) (g1 : ∀ w, Pipeline.arrRef spec1 w = r → (cfg1.win w).isOut = false) : W4 m ρ c (Proc.devRef .tc r) = m ((c.tc : Thread nD τ).loc r) :=
  (W4_thru m ρ c r g1).trans (keep3 m ρ c r h0 g0 h1)
theorem keep5 (c : Dev nD) (r : Ref sig .tc) (h0 : r ∉ hostOps0_W) (g0 : ∀ w, Pipeline.arrRef spec0 w = r → (cfg0.win w).isOut = false)
    (h1 : r ∉ hostOps1_W) (g1 : ∀ w, Pipeline.arrRef spec1 w = r → (cfg1.win w).isOut = false)
    (h2 : r ∉ hostOps2_W) : W5 m ρ c (Proc.devRef .tc r) = m ((c.tc : Thread nD τ).loc r) :=
  (W5_thru m ρ c r h2).trans (keep4 m ρ c r h0 g0 h1 g1)
theorem keep6 (c : Dev nD) (r : Ref sig .tc) (h0 : r ∉ hostOps0_W) (g0 : ∀ w, Pipeline.arrRef spec0 w = r → (cfg0.win w).isOut = false)
    (h1 : r ∉ hostOps1_W) (g1 : ∀ w, Pipeline.arrRef spec1 w = r → (cfg1.win w).isOut = false)
    (h2 : r ∉ hostOps2_W) (g2 : ∀ w, Pipeline.arrRef spec2 w = r → (cfg2.win w).isOut = false) : W6 m ρ c (Proc.devRef .tc r) = m ((c.tc : Thread nD τ).loc r) :=
  (W6_thru m ρ c r g2).trans (keep5 m ρ c r h0 g0 h1 g1 h2)
theorem keep7 (c : Dev nD) (r : Ref sig .tc) (h0 : r ∉ hostOps0_W) (g0 : ∀ w, Pipeline.arrRef spec0 w = r → (cfg0.win w).isOut = false)
    (h1 : r ∉ hostOps1_W) (g1 : ∀ w, Pipeline.arrRef spec1 w = r → (cfg1.win w).isOut = false)
    (h2 : r ∉ hostOps2_W) (g2 : ∀ w, Pipeline.arrRef spec2 w = r → (cfg2.win w).isOut = false)
    (h3 : r ∉ hostOps3_W) : W7 m ρ c (Proc.devRef .tc r) = m ((c.tc : Thread nD τ).loc r) :=
  (W7_thru m ρ c r h3).trans (keep6 m ρ c r h0 g0 h1 g1 h2 g2)

/-! ## The in-degree column, written by the first stretch and read by the next two -/

theorem deg1 (c : Dev nD) : W1 m ρ c (Proc.devRef .tc main_v6) = degV m c := s0_v6 (W0 m ρ c)
theorem deg2 (c : Dev nD) : W2 m ρ c (Proc.devRef .tc main_v6) = degV m c :=
  (W2_thru m ρ c main_v6 (by decide)).trans (deg1 m ρ c)
theorem deg4 (c : Dev nD) : W4 m ρ c (Proc.devRef .tc main_v6) = degV m c :=
  (W4_thru m ρ c main_v6 (by decide)).trans ((W3_thru m ρ c main_v6 (by decide)).trans (deg2 m ρ c))

/-! ## The first layer -/

theorem in1_x (c : Dev nD) : V1 m ρ c main_arg0 = m ((c.tc : Thread nD τ).loc main_arg0) := keep1 m ρ c main_arg0 (by decide)
theorem in1_ws (c : Dev nD) : V1 m ρ c main_arg4 = m ((c.tc : Thread nD τ).loc main_arg4) := keep1 m ρ c main_arg4 (by decide)
theorem in1_wn (c : Dev nD) : V1 m ρ c main_arg5 = m ((c.tc : Thread nD τ).loc main_arg5) := keep1 m ρ c main_arg5 (by decide)
theorem in1_agg (c : Dev nD) : V1 m ρ c main_v18
    = aggT (F := Ideal) (m ((c.tc : Thread nD τ).loc main_arg0)) (m ((c.tc : Thread nD τ).loc main_arg1)) (m ((c.tc : Thread nD τ).loc main_arg2)) (degV m c) := s0_v18 (W0 m ρ c)
theorem in1_b (c : Dev nD) : V1 m ρ c main_v19 = shapeCast S1x128 (m ((c.tc : Thread nD τ).loc main_arg6)) Facts₀.shapeCasts_S128_S1x128 := s0_v19 (W0 m ρ c)

/-- The first launch leaves the first layer in its output array. -/
theorem out1 (c : Dev nD) : W2 m ρ c (Proc.devRef .tc main_v20) = lay1 m c := by
  refine (W2_arr m ρ c 5).trans ((arr0_eq (V1 m ρ) c).trans ?_)
  rw [in1_x, in1_agg, in1_ws, in1_wn, in1_b]

/-! ## The second layer -/

theorem in2_x (c : Dev nD) : V3 m ρ c main_v20 = lay1 m c := (s1_keep (W2 m ρ c) main_v20 (by decide)).trans (out1 m ρ c)
theorem in2_ws (c : Dev nD) : V3 m ρ c main_arg7 = m ((c.tc : Thread nD τ).loc main_arg7) := keep3 m ρ c main_arg7 (by decide) (by decide) (by decide)
theorem in2_wn (c : Dev nD) : V3 m ρ c main_arg8 = m ((c.tc : Thread nD τ).loc main_arg8) := keep3 m ρ c main_arg8 (by decide) (by decide) (by decide)
theorem in2_agg (c : Dev nD) : V3 m ρ c main_v32
    = aggT (F := Ideal) (lay1 m c) (m ((c.tc : Thread nD τ).loc main_arg1)) (m ((c.tc : Thread nD τ).loc main_arg2)) (degV m c) := by
  refine (s1_v32 (W2 m ρ c)).trans ?_
  rw [out1, keep2 m ρ c main_arg1 (by decide) (by decide), keep2 m ρ c main_arg2 (by decide) (by decide), deg2]
theorem in2_b (c : Dev nD) : V3 m ρ c main_v33 = shapeCast S1x128 (m ((c.tc : Thread nD τ).loc main_arg9)) Facts₀.shapeCasts_S128_S1x128 := by
  refine (s1_v33 (W2 m ρ c)).trans ?_
  rw [keep2 m ρ c main_arg9 (by decide) (by decide)]

/-- The second launch leaves the second layer in its output array. -/
theorem out2 (c : Dev nD) : W4 m ρ c (Proc.devRef .tc main_v34) = lay2 m c := by
  refine (W4_arr m ρ c 5).trans ((arr1_eq (V3 m ρ) c).trans ?_)
  rw [in2_x, in2_agg, in2_ws, in2_wn, in2_b]

/-! ## The third layer -/

theorem in3_x (c : Dev nD) : V5 m ρ c main_v34 = lay2 m c := (s2_keep (W4 m ρ c) main_v34 (by decide)).trans (out2 m ρ c)
theorem in3_ws (c : Dev nD) : V5 m ρ c main_arg10 = m ((c.tc : Thread nD τ).loc main_arg10) := keep5 m ρ c main_arg10 (by decide) (by decide) (by decide) (by decide) (by decide)
theorem in3_wn (c : Dev nD) : V5 m ρ c main_arg11 = m ((c.tc : Thread nD τ).loc main_arg11) := keep5 m ρ c main_arg11 (by decide) (by decide) (by decide) (by decide) (by decide)
theorem in3_agg (c : Dev nD) : V5 m ρ c main_v46
    = aggT (F := Ideal) (lay2 m c) (m ((c.tc : Thread nD τ).loc main_arg1)) (m ((c.tc : Thread nD τ).loc main_arg2)) (degV m c) := by
  refine (s2_v46 (W4 m ρ c)).trans ?_
  rw [out2, keep4 m ρ c main_arg1 (by decide) (by decide) (by decide) (by decide), keep4 m ρ c main_arg2 (by decide) (by decide) (by decide) (by decide), deg4]
theorem in3_b (c : Dev nD) : V5 m ρ c main_v47 = shapeCast S1x128 (m ((c.tc : Thread nD τ).loc main_arg12)) Facts₀.shapeCasts_S128_S1x128 := by
  refine (s2_v47 (W4 m ρ c)).trans ?_
  rw [keep4 m ρ c main_arg12 (by decide) (by decide) (by decide) (by decide)]

/-- The third launch leaves the third layer in its output array. -/
theorem out3 (c : Dev nD) : W6 m ρ c (Proc.devRef .tc main_v48) = lay3 m c := by
  refine (W6_arr m ρ c 5).trans ((arr2_eq (V5 m ρ) c).trans ?_)
  rw [in3_x, in3_agg, in3_ws, in3_wn, in3_b]

/-! ## The pooled classifier -/

theorem in4_x (c : Dev nD) : V7 m ρ c main_v48 = lay3 m c := (s3_keep (W6 m ρ c) main_v48 (by decide)).trans (out3 m ρ c)
theorem in4_wf (c : Dev nD) : V7 m ρ c main_arg13 = m ((c.tc : Thread nD τ).loc main_arg13) := keep7 m ρ c main_arg13 (by decide) (by decide) (by decide) (by decide) (by decide) (by decide) (by decide)
theorem in4_gid (c : Dev nD) : V7 m ρ c main_v49 = shapeCast S50000x1 (m ((c.tc : Thread nD τ).loc main_arg3)) Facts₀.shapeCasts_S50000_S50000x1 := by
  refine (s3_v49 (W6 m ρ c)).trans ?_
  rw [keep6 m ρ c main_arg3 (by decide) (by decide) (by decide) (by decide) (by decide) (by decide)]
theorem in4_bf (c : Dev nD) : V7 m ρ c main_v50 = shapeCast S1x10 (m ((c.tc : Thread nD τ).loc main_arg14)) Facts₀.shapeCasts_S10_S1x10 := by
  refine (s3_v50 (W6 m ρ c)).trans ?_
  rw [keep6 m ρ c main_arg14 (by decide) (by decide) (by decide) (by decide) (by decide) (by decide)]

/-- The result array after the run: the network of the fifteen argument arrays. -/
theorem kernel_value (c : Dev nD) : W8 m ρ c (Proc.devRef .tc main_v51)
    = netK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine (W8_arr m ρ c 4).trans ((arr3_eq (V7 m ρ) c).trans ?_)
  rw [in4_x, in4_gid, in4_wf, in4_bf]
  rfl

end Cert.KernelIdeal.Val

end
-- ==== Proof.Val.RefDefs.lean ====
/- The reference program's result, read back in named layers: the in-degree column, the neighbourhood mean,
   one SAGE layer, and the pooled classifier, each the sub-term of the composed result it names. -/
import proofs.«411194_j75926431859108_1_alg».proof.Proof.Gen.ReferenceIdeal.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The in-degree column: a scatter-add of ones at the edge targets, clamped below by one, as a [50000, 1] array. -/
def rdegT (dst : (⟨S800000, .i32⟩ : BufTy).Contents (Elt F)) : (⟨S50000x1, .f32⟩ : BufTy).Contents (Elt F) :=
  broadcastInDim S50000x1 ![0] bcast_S50000_S50000x1_0
    (maximumf
      (Host.scatterAdd scatter_S50000_S800000x1_S800000_n_0_0_1 (broadcastInDim S50000 ![] bcast_S_S50000 (constant S_ .f32 0x00000000#32))
        (broadcastInDim S800000x1 ![0] bcast_S800000_S800000x1_0 dst) (broadcastInDim S800000 ![] bcast_S_S800000 (constant S_ .f32 0x3F800000#32)))
      (broadcastInDim S50000 ![] bcast_S_S50000 (constant S_ .f32 0x3F800000#32)))

/-- The neighbourhood mean of the node features `h`: the rows at the edge sources (a negative index counted from
    the end) gathered, scatter-added at the edge targets, divided by the in-degree column. -/
def raggT (h : (⟨S50000x128, .f32⟩ : BufTy).Contents (Elt F)) (src dst : (⟨S800000, .i32⟩ : BufTy).Contents (Elt F))
    (deg : (⟨S50000x1, .f32⟩ : BufTy).Contents (Elt F)) : (⟨S50000x128, .f32⟩ : BufTy).Contents (Elt F) :=
  Host.divf
    (Host.scatterAdd scatter_S50000x128_S800000x1_S800000x128_1_0_0_1 (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1 deg)

/-- One SAGE layer: the node features against `ws`, the neighbourhood means against `wn`, the bias spread over the
    rows, and the clamp at zero. -/
def rlayerT (h a : (⟨S50000x128, .f32⟩ : BufTy).Contents (Elt F)) (ws wn : (⟨S128x128, .f32⟩ : BufTy).Contents (Elt F))
    (b : (⟨S128, .f32⟩ : BufTy).Contents (Elt F)) : (⟨S50000x128, .f32⟩ : BufTy).Contents (Elt F) :=
  maximumf
    (addf
      (addf (Host.dotGeneral dot_S50000x128_S128x128_S50000x128_1_0_0_1_n_n none h ws)
        (Host.dotGeneral dot_S50000x128_S128x128_S50000x128_1_0_0_1_n_n none a wn))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The pooled classifier: the rows scatter-added by graph id, divided by the graph sizes (clamped below by one),
    against `wf`, plus the bias spread over the graphs. -/
def rpoolT (h : (⟨S50000x128, .f32⟩ : BufTy).Contents (Elt F)) (gid : (⟨S50000, .i32⟩ : BufTy).Contents (Elt F))
    (wf : (⟨S128x10, .f32⟩ : BufTy).Contents (Elt F)) (bf : (⟨S10, .f32⟩ : BufTy).Contents (Elt F)) :
    (⟨S128x10, .f32⟩ : BufTy).Contents (Elt F) :=
  addf
    (Host.dotGeneral dot_S128x128_S128x10_S128x10_1_0_0_1_n_n none
      (Host.divf
        (Host.scatterAdd scatter_S128x128_S50000x1_S50000x128_1_0_0_1 (broadcastInDim S128x128 ![] bcast_S_S128x128 (constant S_ .f32 0x00000000#32))
          (broadcastInDim S50000x1 ![0] bcast_S50000_S50000x1_0 gid) h)
        (broadcastInDim S128x128 ![0, 1] bcast_S128x1_S128x128_0_1
          (broadcastInDim S128x1 ![0] bcast_S128_S128x1_0
            (maximumf
              (Host.scatterAdd scatter_S128_S50000x1_S50000_n_0_0_1 (broadcastInDim S128 ![] bcast_S_S128 (constant S_ .f32 0x00000000#32))
                (broadcastInDim S50000x1 ![0] bcast_S50000_S50000x1_0 gid) (broadcastInDim S50000 ![] bcast_S_S50000 (constant S_ .f32 0x3F800000#32)))
              (broadcastInDim S128 ![] bcast_S_S128 (constant S_ .f32 0x3F800000#32))))))
      wf)
    (broadcastInDim S128x10 ![0, 1] bcast_S1x10_S128x10_0_1 (broadcastInDim S1x10 ![1] bcast_S10_S1x10_1 bf))

set_option maxRecDepth 8192 in
/-- The reference's result is three SAGE layers over the shared in-degree column, then the pooled classifier. -/
theorem res_eq (m : (ℓ : Loc nD τ sig) → Buf (Elt F) ℓ) (c : Dev nD) :
    Value.res_main_v79 m c =
      (let X : (⟨S50000x128, .f32⟩ : BufTy).Contents (Elt F) := (m ((c.tc : Thread nD τ).loc main_arg0))
       let src : (⟨S800000, .i32⟩ : BufTy).Contents (Elt F) := (m ((c.tc : Thread nD τ).loc main_arg1))
       let dst : (⟨S800000, .i32⟩ : BufTy).Contents (Elt F) := (m ((c.tc : Thread nD τ).loc main_arg2))
       let deg := rdegT dst
       let h1 := rlayerT X (raggT X src dst deg) (m ((c.tc : Thread nD τ).loc main_arg4)) (m ((c.tc : Thread nD τ).loc main_arg5)) (m ((c.tc : Thread nD τ).loc main_arg6))
       let h2 := rlayerT h1 (raggT h1 src dst deg) (m ((c.tc : Thread nD τ).loc main_arg7)) (m ((c.tc : Thread nD τ).loc main_arg8)) (m ((c.tc : Thread nD τ).loc main_arg9))
       let h3 := rlayerT h2 (raggT h2 src dst deg) (m ((c.tc : Thread nD τ).loc main_arg10)) (m ((c.tc : Thread nD τ).loc main_arg11)) (m ((c.tc : Thread nD τ).loc main_arg12))
       rpoolT h3 (m ((c.tc : Thread nD τ).loc main_arg3)) (m ((c.tc : Thread nD τ).loc main_arg13)) (m ((c.tc : Thread nD τ).loc main_arg14))) := by
  unfold Value.res_main_v79 rpoolT rlayerT raggT rdegT
  rfl

end Cert.ReferenceIdeal.RefValue

end
-- ==== Proof.Val.RefLayer.lean ====
/- The reference's layers against the kernel-side statements, at the ideal instance: the in-degree column and the
   neighbourhood mean are the same host terms over records with equal fields; a SAGE layer, read entry by entry,
   is max (Σ_k h[r,k]·Ws[k,j] + Σ_k a[r,k]·Wn[k,j] + b[j]) 0. -/
import proofs.«411194_j75926431859108_1_alg».proof.Proof.Val.RefDefs
import proofs.«411194_j75926431859108_1_alg».proof.Proof.Val.Spec
import proofs.«411194_j75926431859108_1_alg».proof.Proof.Gen.ReferenceIdeal.Read
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The in-degree column of the reference is the kernel side's: the scatter records have equal fields. -/
theorem rdegT_eq (dst : (⟨S800000, .i32⟩ : BufTy).Contents (Elt Ideal)) :
    rdegT (F := Ideal) dst = Cert.KernelIdeal.Val.degT (F := Ideal) dst := by
  unfold rdegT Cert.KernelIdeal.Val.degT
  rfl

/-- The neighbourhood mean of the reference is the kernel side's: the gather and scatter records have equal fields. -/
theorem raggT_eq (h : (⟨S50000x128, .f32⟩ : BufTy).Contents (Elt Ideal)) (src dst : (⟨S800000, .i32⟩ : BufTy).Contents (Elt Ideal))
    (deg : (⟨S50000x1, .f32⟩ : BufTy).Contents (Elt Ideal)) :
    raggT (F := Ideal) h src dst deg = Cert.KernelIdeal.Val.aggT (F := Ideal) h src dst deg := by
  unfold raggT Cert.KernelIdeal.Val.aggT
  rfl

/-! ## A SAGE layer, entry by entry -/

/-- The host product of a [50000,128] array and a [128,128] array at (r, j) is the sum over k of row r against column j. -/
theorem dot_ix2 (x : (⟨S50000x128, .f32⟩ : BufTy).Contents (Elt Ideal)) (w : (⟨S128x128, .f32⟩ : BufTy).Contents (Elt Ideal))
    (r : Fin 50000) (j : Fin 128) :
    Host.dotGeneral (F := Ideal) (φ₁ := .f32) (φ₂ := .f32) dot_S50000x128_S128x128_S50000x128_1_0_0_1_n_n none x w (ix2 r j)
      = ∑ k : Fin 128, x (ix2 r k) * w (ix2 k j) := by
  refine (Read.val_main_v19_apply x w (ix2 r j)).trans ?_
  refine Finset.sum_congr rfl fun k _ => ?_
  have el : Read.lidx_main_v19 (ix2 r j) k = ix2 r k := funext fun a => by
    match a with
    | ⟨0, _⟩ => rfl
    | ⟨1, _⟩ => rfl
  have er : Read.ridx_main_v19 (ix2 r j) k = ix2 k j := funext fun a => by
    match a with
    | ⟨0, _⟩ => rfl
    | ⟨1, _⟩ => rfl
  rw [el, er]

/-- The bias spread first to one row and then over all rows reads `b` at the column. -/
theorem bias_ix2 (b : (⟨S128, .f32⟩ : BufTy).Contents (Elt Ideal)) (r : Fin 50000) (j : Fin 128) :
    broadcastInDim S50000x128 ![0, 1] bcast_S1x128_S50000x128_0_1 (broadcastInDim S1x128 ![1] bcast_S128_S1x128_1 b) (ix2 r j)
      = b (ix1 j) := by
  refine (broadcastInDim_apply _ _ _ (ix2 r j) (ix2 0 j) (fun a => ?_)).trans ?_
  · match a with
    | ⟨0, _⟩ => rfl
    | ⟨1, _⟩ => rfl
  · refine broadcastInDim_apply _ _ _ (ix2 0 j) (ix1 j) (fun a => ?_)
    match a with
    | ⟨0, _⟩ => rfl

/-- The bias reshaped to one row reads `b` at the column: both positions are `j` in row-major order. -/
theorem biasCast_ix2 (b : (⟨S128, .f32⟩ : BufTy).Contents (Elt Ideal)) (j : Fin 128) :
    shapeCast Cert.KernelIdeal.S1x128 b Cert.KernelIdeal.Facts₀.shapeCasts_S128_S1x128 (ix2 0 j) = b (ix1 j) := by
  refine shapeCast_apply _ _ (ix2 0 j) (ix1 j) ?_
  rw [Shape.rowMajor_val_one, Shape.rowMajor_val_two]
  show j.val = 0 * 128 + j.val
  omega

/-- The reference's SAGE layer is the entrywise statement: max (Σ_k h[r,k]·Ws[k,j] + Σ_k a[r,k]·Wn[k,j] + b[j]) 0. -/
theorem rlayerT_eq (h a : (⟨S50000x128, .f32⟩ : BufTy).Contents (Elt Ideal)) (ws wn : (⟨S128x128, .f32⟩ : BufTy).Contents (Elt Ideal))
    (b : (⟨S128, .f32⟩ : BufTy).Contents (Elt Ideal)) :
    rlayerT (F := Ideal) h a ws wn b
      = Cert.KernelIdeal.Val.sageK h a ws wn (shapeCast Cert.KernelIdeal.S1x128 b Cert.KernelIdeal.Facts₀.shapeCasts_S128_S1x128) := by
  funext i
  obtain ⟨r, j, rfl⟩ : ∃ (r : Fin 50000) (j : Fin 128), i = ix2 r j := ⟨i 0, i 1, eq_ix2 i⟩
  unfold rlayerT
  show max _ _ = Cert.KernelIdeal.Val.sageAt h a ws wn _ r j
  unfold Cert.KernelIdeal.Val.sageAt
  refine congrArg₂ max (congrArg₂ (· + ·) (congrArg₂ (· + ·) (dot_ix2 h ws r j) (dot_ix2 a wn r j))
    ((bias_ix2 b r j).trans (biasCast_ix2 b j).symm)) ?_
  exact (broadcastInDim_scalar_apply _ _ _).trans (constant_apply _ _)

end Cert.ReferenceIdeal.RefValue

end
-- ==== Proof.Val.RefPool.lean ====
/- The reference's pooling over the extended reals, entry by entry. Its two segment sums add, to a zero array, every
   row (or a one per row) at the place its graph id names: an id read as a signed number that is no number below 128
   lands outside the array and adds nothing. So entry (g, d) of the first is the sum of h[r, d] over the rows r whose
   id is the word of g, and entry g of the second is the number of those rows. The pooled classifier then divides the
   first by the second clamped below by one, multiplies by the weights, and adds the bias. -/
import proofs.«411194_j75926431859108_1_alg».proof.ReferenceIdeal
import proofs.«411194_j75926431859108_1_alg».proof.Proof.Gen.ReferenceIdeal
import proofs.«411194_j75926431859108_1_alg».proof.Proof.Val.Spec
import proofs.«411194_j75926431859108_1_alg».proof.Proof.Val.RefDefs
import Idealize.ShloMosaic.PureOps.Ideal
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.IdealHost
import Idealize.ShloMosaic.Lib.Pipeline.Value

noncomputable section

namespace Cert.ReferenceIdeal.RefValue

open Idealize.ShloMosaic Idealize.ShloMosaic.ValueIdx
open Cert.ReferenceIdeal Cert.ReferenceIdeal.Facts₀ Cert.ReferenceIdeal.Facts
open scoped BigOperators

/-! ## A graph number as a 32-bit word -/

/-- The signed value of the 32-bit word of a number below 128 is that number. -/
theorem toInt_ofNat_lt128 (g : Fin 128) : (BitVec.ofNat 32 g.val).toInt = ((g.val : ℕ) : ℤ) := by
  have hg := g.isLt
  rw [BitVec.toInt_eq_toNat_cond, BitVec.toNat_ofNat, Nat.mod_eq_of_lt (by omega), if_pos (by omega)]

/-- A 32-bit word has signed value g < 128 exactly when it is the word of g: the signed value determines the word. -/
theorem toInt_eq_iff (g : Fin 128) (t : BitVec 32) : t.toInt = ((g.val : ℕ) : ℤ) ↔ t = BitVec.ofNat 32 g.val := by
  rw [← toInt_ofNat_lt128 g, BitVec.toInt_inj]

/-! ## Where a row of the [50000, 128] updates lands in the [128, 128] array -/

/-- The dimension numbers of the scatter of whole rows: update (r, b) goes to (id of r, b). -/
abbrev D2 := scatter_S128x128_S50000x1_S50000x128_1_0_0_1

/-- Update (r, b) reads its start index at entry (r, 0) of the index column. -/
theorem D2_siIdx (j : S50000x128.Idx) (c : Fin D2.scatterDimsToOperandDims.length) :
    D2.siIdx j c = ix2 (j 0) 0 := by
  funext b
  match b with
  | ⟨0, _⟩ => rfl
  | ⟨1, _⟩ => exact Fin.ext (by have := c.isLt; show c.val = 0; simp only [D2, scatter_S128x128_S50000x1_S50000x128_1_0_0_1, List.length] at this; omega)

/-- On the array's first axis the window starts at the signed value of row r's id; on the second at 0. -/
theorem D2_start0 {w : Nat} (j : S50000x128.Idx) (idx : IVec S50000x1 w) : D2.start j idx 0 = (idx (ix2 (j 0) 0)).toInt := by
  unfold ScatterDims.start
  rw [dif_pos (show (0 : Fin S128x128.rank) ∈ D2.scatterDimsToOperandDims by decide), D2_siIdx]
  rfl

theorem D2_start1 {w : Nat} (j : S50000x128.Idx) (idx : IVec S50000x1 w) : D2.start j idx 1 = 0 := by
  unfold ScatterDims.start
  rw [dif_neg (show ¬ (1 : Fin S128x128.rank) ∈ D2.scatterDimsToOperandDims by decide)]

/-- The window coordinate is 0 on the first axis and the update's column b on the second. -/
theorem D2_window0 (j : S50000x128.Idx) : D2.window j 0 = 0 := by
  unfold ScatterDims.window
  rw [dif_neg (show ¬ (0 : Fin S128x128.rank) ∈ D2.sKept by decide)]

theorem D2_window1 (j : S50000x128.Idx) : D2.window j 1 = (j 1).val := by
  unfold ScatterDims.window
  rw [dif_pos (show (1 : Fin S128x128.rank) ∈ D2.sKept by decide)]
  rfl

/-- Update (r, b) lands at (g, d) exactly when row r's id has signed value g and b = d; when the id's signed value is
    negative or 128 or more the update lands nowhere. -/
theorem D2_resultIdx_iff {w : Nat} (j : S50000x128.Idx) (idx : IVec S50000x1 w) (i : S128x128.Idx) :
    D2.resultIdx? j idx = some i ↔ (idx (ix2 (j 0) 0)).toInt = (((i 0).val : ℕ) : ℤ) ∧ j 1 = i 1 := by
  have s0 : D2.start j idx 0 + ((D2.window j 0 : ℕ) : ℤ) = (idx (ix2 (j 0) 0)).toInt := by
    rw [D2_start0, D2_window0, Nat.cast_zero, add_zero]
  have s1 : D2.start j idx 1 + ((D2.window j 1 : ℕ) : ℤ) = (((j 1).val : ℕ) : ℤ) := by
    rw [D2_start1, D2_window1, zero_add]
  have hi0 : (i 0).val < 128 := idx2_lt0 i
  have hj1 : (j 1).val < 128 := idx2_lt1 j
  unfold ScatterDims.resultIdx?
  split
  · rename_i H
    rw [Option.some.injEq]
    constructor
    · intro e
      have e0 := congrArg Fin.val (congrFun e 0)
      have e1 := congrArg Fin.val (congrFun e 1)
      have H0 := (H 0).1
      simp only [s0] at e0 H0
      simp only [s1] at e1
      refine ⟨by omega, Fin.ext (by omega)⟩
    · rintro ⟨e0, e1⟩
      funext a
      match a with
      | ⟨0, _⟩ => exact Fin.ext (by show (D2.start j idx 0 + ((D2.window j 0 : ℕ) : ℤ)).toNat = (i 0).val; rw [s0, e0]; rfl)
      | ⟨1, _⟩ => exact Fin.ext (by show (D2.start j idx 1 + ((D2.window j 1 : ℕ) : ℤ)).toNat = (i 1).val; rw [s1, e1]; rfl)
  · rename_i H
    refine ⟨fun e => (by cases e), ?_⟩
    rintro ⟨e0, e1⟩
    exfalso
    apply H
    intro a
    match a with
    | ⟨0, _⟩ =>
      show 0 ≤ D2.start j idx 0 + ((D2.window j 0 : ℕ) : ℤ) ∧ D2.start j idx 0 + ((D2.window j 0 : ℕ) : ℤ) < ((128 : ℕ) : ℤ)
      rw [s0, e0]; omega
    | ⟨1, _⟩ =>
      show 0 ≤ D2.start j idx 1 + ((D2.window j 1 : ℕ) : ℤ) ∧ D2.start j idx 1 + ((D2.window j 1 : ℕ) : ℤ) < ((128 : ℕ) : ℤ)
      rw [s1]; omega

/-- The graph ids as an index column: entry (r, 0) is id r. -/
theorem gidcol_apply (gid : IVec S50000 32) (r : Fin 50000) :
    broadcastInDim S50000x1 ![0] bcast_S50000_S50000x1_0 gid (ix2 r 0) = gid (ix1 r) :=
  broadcastInDim_apply _ _ gid (ix2 r 0) (ix1 r) (fun a => by
    match a with
    | ⟨0, _⟩ => rfl)

/-- The graph ids recast as a [50000, 1] column: entry (r, 0) is id r as well. -/
theorem gidcast_apply (gid : IVec S50000 32) (r : Fin 50000) :
    shapeCast Cert.KernelIdeal.S50000x1 gid Cert.KernelIdeal.Facts₀.shapeCasts_S50000_S50000x1 (ix2 r 0) = gid (ix1 r) :=
  shapeCast_apply gid _ (ix2 r 0) (ix1 r) (by
    rw [Shape.rowMajor_val_one, Shape.rowMajor_val_two]
    show r.val = r.val * 1 + 0
    omega)

/-! ## The segment sums -/

/-- Entry (g, d) of the scatter-added rows is the sum of h[r, d] over the rows r of graph g: the sum over all updates
    (r, b) landing at (g, d) is, for each r, the one term b = d when r belongs to g and nothing otherwise. -/
theorem segsum_apply (h : FVec Ideal S50000x128 .f32) (gid : IVec S50000 32) (g d : Fin 128) :
    Host.scatterAdd (F := Ideal) scatter_S128x128_S50000x1_S50000x128_1_0_0_1 (broadcastInDim S128x128 ![] bcast_S_S128x128 (constant S_ .f32 0x00000000#32)) (broadcastInDim S50000x1 ![0] bcast_S50000_S50000x1_0 gid) h (ValueIdx.ix2 g d)
      = Cert.KernelIdeal.Val.segSum h (shapeCast Cert.KernelIdeal.S50000x1 gid Cert.KernelIdeal.Facts₀.shapeCasts_S50000_S50000x1) g d := by
  show Ideal.ofBits .f32 0x00000000#32
      + ∑ j ∈ Finset.univ.filter (fun j : S50000x128.Idx => D2.resultIdx? j (broadcastInDim S50000x1 ![0] bcast_S50000_S50000x1_0 gid) = some (ix2 g d)), h j = _
  rw [Cert.KernelIdeal.Val.zero_f32, zero_add, Finset.sum_filter, sum_idx2]
  unfold Cert.KernelIdeal.Val.segSum
  refine Finset.sum_congr rfl fun r _ => ?_
  have hc : ∀ b : Fin 128, (D2.resultIdx? (ix2 r b) (broadcastInDim S50000x1 ![0] bcast_S50000_S50000x1_0 gid) = some (ix2 g d))
      ↔ (Cert.KernelIdeal.Val.inGraph (shapeCast Cert.KernelIdeal.S50000x1 gid Cert.KernelIdeal.Facts₀.shapeCasts_S50000_S50000x1) r g ∧ b = d) := by
    intro b
    rw [D2_resultIdx_iff]
    unfold Cert.KernelIdeal.Val.inGraph
    rw [gidcast_apply]
    show (broadcastInDim S50000x1 ![0] bcast_S50000_S50000x1_0 gid (ix2 r 0)).toInt = ((g.val : ℕ) : ℤ) ∧ b = d ↔ _
    rw [gidcol_apply, toInt_eq_iff]
  simp only [hc]
  by_cases hr : Cert.KernelIdeal.Val.inGraph (shapeCast Cert.KernelIdeal.S50000x1 gid Cert.KernelIdeal.Facts₀.shapeCasts_S50000_S50000x1) r g
  · simp only [hr, true_and, if_true]
    rw [Finset.sum_ite_eq' Finset.univ d (fun b => h (ix2 r b)), if_pos (Finset.mem_univ d)]
  · simp only [hr, false_and, if_false]
    exact Finset.sum_const_zero

/-! ## Where a row's one lands in the [128] array -/

/-- The dimension numbers of the scatter of ones: update r goes to the id of r. -/
abbrev D1 := scatter_S128_S50000x1_S50000_n_0_0_1

/-- Update r reads its start index at entry (r, 0) of the index column. -/
theorem D1_siIdx (j : S50000.Idx) (c : Fin D1.scatterDimsToOperandDims.length) :
    D1.siIdx j c = ix2 (j 0) 0 := by
  funext b
  match b with
  | ⟨0, _⟩ => rfl
  | ⟨1, _⟩ => exact Fin.ext (by have := c.isLt; show c.val = 0; simp only [D1, scatter_S128_S50000x1_S50000_n_0_0_1, List.length] at this; omega)

/-- The window starts at the signed value of row r's id, and has no coordinate of its own. -/
theorem D1_start0 {w : Nat} (j : S50000.Idx) (idx : IVec S50000x1 w) : D1.start j idx 0 = (idx (ix2 (j 0) 0)).toInt := by
  unfold ScatterDims.start
  rw [dif_pos (show (0 : Fin S128.rank) ∈ D1.scatterDimsToOperandDims by decide), D1_siIdx]
  rfl

theorem D1_window0 (j : S50000.Idx) : D1.window j 0 = 0 := by
  unfold ScatterDims.window
  rw [dif_neg (show ¬ (0 : Fin S128.rank) ∈ D1.sKept by decide)]

/-- Update r lands at g exactly when row r's id has signed value g. -/
theorem D1_resultIdx_iff {w : Nat} (j : S50000.Idx) (idx : IVec S50000x1 w) (i : S128.Idx) :
    D1.resultIdx? j idx = some i ↔ (idx (ix2 (j 0) 0)).toInt = (((i 0).val : ℕ) : ℤ) := by
  have s0 : D1.start j idx 0 + ((D1.window j 0 : ℕ) : ℤ) = (idx (ix2 (j 0) 0)).toInt := by
    rw [D1_start0, D1_window0, Nat.cast_zero, add_zero]
  have hi0 : (i 0).val < 128 := (i 0).isLt
  unfold ScatterDims.resultIdx?
  split
  · rename_i H
    rw [Option.some.injEq]
    constructor
    · intro e
      have e0 := congrArg Fin.val (congrFun e 0)
      have H0 := (H 0).1
      simp only [s0] at e0 H0
      omega
    · intro e0
      funext a
      match a with
      | ⟨0, _⟩ => exact Fin.ext (by show (D1.start j idx 0 + ((D1.window j 0 : ℕ) : ℤ)).toNat = (i 0).val; rw [s0, e0]; rfl)
  · rename_i H
    refine ⟨fun e => (by cases e), ?_⟩
    intro e0
    exfalso
    apply H
    intro a
    match a with
    | ⟨0, _⟩ =>
      show 0 ≤ D1.start j idx 0 + ((D1.window j 0 : ℕ) : ℤ) ∧ D1.start j idx 0 + ((D1.window j 0 : ℕ) : ℤ) < ((128 : ℕ) : ℤ)
      rw [s0, e0]; omega

/-- Entry g of the scatter-added ones is the number of rows of graph g. -/
theorem segcnt_apply (gid : IVec S50000 32) (g : Fin 128) :
    Host.scatterAdd (F := Ideal) scatter_S128_S50000x1_S50000_n_0_0_1 (broadcastInDim S128 ![] bcast_S_S128 (constant S_ .f32 0x00000000#32)) (broadcastInDim S50000x1 ![0] bcast_S50000_S50000x1_0 gid) (broadcastInDim S50000 ![] bcast_S_S50000 (constant S_ .f32 0x3F800000#32)) (ValueIdx.ix1 g)
      = Cert.KernelIdeal.Val.segCnt (shapeCast Cert.KernelIdeal.S50000x1 gid Cert.KernelIdeal.Facts₀.shapeCasts_S50000_S50000x1) g := by
  show Ideal.ofBits .f32 0x00000000#32
      + ∑ j ∈ Finset.univ.filter (fun j : S50000.Idx => D1.resultIdx? j (broadcastInDim S50000x1 ![0] bcast_S50000_S50000x1_0 gid) = some (ix1 g)),
          Ideal.ofBits .f32 0x3F800000#32 = _
  rw [Cert.KernelIdeal.Val.zero_f32, zero_add, Cert.KernelIdeal.Val.one_f32, Finset.sum_filter,
    ← Equiv.sum_comp (idxEquiv1 (n := 50000)).symm]
  unfold Cert.KernelIdeal.Val.segCnt
  refine Finset.sum_congr rfl fun r _ => ?_
  have hc : (D1.resultIdx? (ix1 r) (broadcastInDim S50000x1 ![0] bcast_S50000_S50000x1_0 gid) = some (ix1 g))
      ↔ Cert.KernelIdeal.Val.inGraph (shapeCast Cert.KernelIdeal.S50000x1 gid Cert.KernelIdeal.Facts₀.shapeCasts_S50000_S50000x1) r g := by
    rw [D1_resultIdx_iff]
    unfold Cert.KernelIdeal.Val.inGraph
    rw [gidcast_apply]
    show (broadcastInDim S50000x1 ![0] bcast_S50000_S50000x1_0 gid (ix2 r 0)).toInt = ((g.val : ℕ) : ℤ) ↔ _
    rw [gidcol_apply, toInt_eq_iff]
  show (if D1.resultIdx? (ix1 r) (broadcastInDim S50000x1 ![0] bcast_S50000_S50000x1_0 gid) = some (ix1 g) then (1 : EReal) else 0) = _
  by_cases hr : Cert.KernelIdeal.Val.inGraph (shapeCast Cert.KernelIdeal.S50000x1 gid Cert.KernelIdeal.Facts₀.shapeCasts_S50000_S50000x1) r g
  · rw [if_pos (hc.2 hr), if_pos hr]
  · rw [if_neg (fun e => hr (hc.1 e)), if_neg hr]

/-! ## The pooled classifier -/

/-- The dimension numbers of the product of the [128, 128] means with the [128, 10] weights. -/
abbrev DD := dot_S128x128_S128x10_S128x10_1_0_0_1_n_n

/-- At output (g, j) and contraction position d the product reads the means at (g, d) and the weights at (d, j). -/
theorem DD_lhs_0 (i : S128x10.Idx) (q : DD.contr.Idx) : (DD.lhsIdx i q 0).val = (i 0).val := by
  unfold DotDims.lhsIdx
  rw [dif_neg (show ¬(0 : Fin S128x128.rank) ∈ DD.lhsBatch by decide),
    dif_pos (show (0 : Fin S128x128.rank) ∈ DD.lhsNonContracting by decide)]
  rfl
theorem DD_lhs_1 (i : S128x10.Idx) (q : DD.contr.Idx) : (DD.lhsIdx i q 1).val = (q ⟨0, by decide⟩).val :=
  DD.lhsIdx_val_of_single rfl i q
theorem DD_rhs_0 (i : S128x10.Idx) (q : DD.contr.Idx) : (DD.rhsIdx i q 0).val = (q ⟨0, by decide⟩).val :=
  DD.rhsIdx_val_of_single rfl i q
theorem DD_rhs_1 (i : S128x10.Idx) (q : DD.contr.Idx) : (DD.rhsIdx i q 1).val = (i 1).val := by
  unfold DotDims.rhsIdx
  rw [dif_neg (show ¬(1 : Fin S128x10.rank) ∈ DD.rhsBatch by decide),
    dif_pos (show (1 : Fin S128x10.rank) ∈ DD.rhsNonContracting by decide)]
  rfl

/-- The product at (g, j) is the sum over the 128 features d of A[g, d]·wf[d, j]. -/
theorem pooldot_apply (A : FVec Ideal S128x128 .f32) (wf : FVec Ideal S128x10 .f32) (g : Fin 128) (j : Fin 10) :
    Host.dotGeneral DD none A wf (ix2 g j) = ∑ d : Fin 128, A (ix2 g d) * wf (ix2 d j) := by
  simp only [Host.dotGeneral]
  rw [Ideal.dotGeneral_apply, ← Equiv.sum_comp (contrEquiv1 DD 128 rfl rfl).symm]
  refine Finset.sum_congr rfl fun d _ => ?_
  have hk := contrEquiv1_symm_val DD 128 rfl rfl d
  have el : DD.lhsIdx (ix2 g j) ((contrEquiv1 DD 128 rfl rfl).symm d) = ix2 g d :=
    funext fun a => Fin.ext (by
      match a with
      | ⟨0, _⟩ => exact DD_lhs_0 _ _
      | ⟨1, _⟩ => exact (DD_lhs_1 _ _).trans hk)
  have er : DD.rhsIdx (ix2 g j) ((contrEquiv1 DD 128 rfl rfl).symm d) = ix2 d j :=
    funext fun a => Fin.ext (by
      match a with
      | ⟨0, _⟩ => exact (DD_rhs_0 _ _).trans hk
      | ⟨1, _⟩ => exact DD_rhs_1 _ _)
  rw [el, er]

/-- A [128] vector spread as a column and then along the rows reads, at (g, d), its entry g. -/
theorem cntcol_apply (c : FVec Ideal S128 .f32) (g d : Fin 128) :
    broadcastInDim S128x128 ![0, 1] bcast_S128x1_S128x128_0_1 (broadcastInDim S128x1 ![0] bcast_S128_S128x1_0 c) (ix2 g d) = c (ix1 g) := by
  rw [broadcastInDim_apply _ _ _ (ix2 g d) (ix2 g 0) (fun a => by
    match a with
    | ⟨0, _⟩ => rfl
    | ⟨1, _⟩ => rfl)]
  exact broadcastInDim_apply _ _ c (ix2 g 0) (ix1 g) (fun a => by
    match a with
    | ⟨0, _⟩ => rfl)

/-- A [10] vector spread as a row and then down the rows reads, at (g, j), its entry j. -/
theorem biasrow_apply (bf : FVec Ideal S10 .f32) (g : Fin 128) (j : Fin 10) :
    broadcastInDim S128x10 ![0, 1] bcast_S1x10_S128x10_0_1 (broadcastInDim S1x10 ![1] bcast_S10_S1x10_1 bf) (ix2 g j) = bf (ix1 j) := by
  rw [broadcastInDim_apply _ _ _ (ix2 g j) (ix2 0 j) (fun a => by
    match a with
    | ⟨0, _⟩ => rfl
    | ⟨1, _⟩ => rfl)]
  exact broadcastInDim_apply _ _ bf (ix2 0 j) (ix1 j) (fun a => by
    match a with
    | ⟨0, _⟩ => rfl)

/-- Entry (g, j) of the reference's pooled classifier is the stated one: the sum over d of the mean of graph g at
    feature d (its segment sum over its size clamped below by one) times wf[d, j], plus bf[j]. -/
theorem rpoolT_apply (h : FVec Ideal S50000x128 .f32) (gid : IVec S50000 32) (wf : FVec Ideal S128x10 .f32) (bf : FVec Ideal S10 .f32)
    (g : Fin 128) (j : Fin 10) :
    rpoolT (F := Ideal) h gid wf bf (ix2 g j)
      = Cert.KernelIdeal.Val.poolAt h (shapeCast Cert.KernelIdeal.S50000x1 gid Cert.KernelIdeal.Facts₀.shapeCasts_S50000_S50000x1) wf
          (shapeCast Cert.KernelIdeal.S1x10 bf Cert.KernelIdeal.Facts₀.shapeCasts_S10_S1x10) g j := by
  show Host.dotGeneral DD none _ wf (ix2 g j) + broadcastInDim S128x10 ![0, 1] bcast_S1x10_S128x10_0_1 (broadcastInDim S1x10 ![1] bcast_S10_S1x10_1 bf) (ix2 g j)
    = _
  unfold Cert.KernelIdeal.Val.poolAt
  rw [pooldot_apply, biasrow_apply, shapeCast_a_1a_apply]
  refine congrArg (· + bf (ix1 j)) (Finset.sum_congr rfl fun d _ => ?_)
  rw [hostDivf_apply, segsum_apply, cntcol_apply, maximumf_apply, segcnt_apply]
  show Ideal.div _ (max _ (Ideal.ofBits .f32 0x3F800000#32)) * _ = _
  rw [Cert.KernelIdeal.Val.one_f32]

/-- The reference's pooled classifier is the stated whole-array function. -/
theorem rpoolT_eq (h : FVec Ideal S50000x128 .f32) (gid : IVec S50000 32) (wf : FVec Ideal S128x10 .f32) (bf : FVec Ideal S10 .f32) :
    rpoolT (F := Ideal) h gid wf bf
      = Cert.KernelIdeal.Val.poolK h (shapeCast Cert.KernelIdeal.S50000x1 gid Cert.KernelIdeal.Facts₀.shapeCasts_S50000_S50000x1) wf
          (shapeCast Cert.KernelIdeal.S1x10 bf Cert.KernelIdeal.Facts₀.shapeCasts_S10_S1x10) := by
  funext i
  have hi : i = ix2 (i 0) (i 1) := eq_ix2 (n0 := 128) (n1 := 10) i
  exact (congrArg (rpoolT (F := Ideal) h gid wf bf) hi).trans (rpoolT_apply h gid wf bf (i 0) (i 1))

end Cert.ReferenceIdeal.RefValue

end
-- ==== Proof.Val.Ref.lean ====
/- The reference's result buffer as the network function of its argument arrays: the composed term read back in
   layers, each layer the entry-wise formula, the shared host operations the same functions in both programs. -/
import proofs.«411194_j75926431859108_1_alg».proof.Proof.Val.RefDefs
import proofs.«411194_j75926431859108_1_alg».proof.Proof.Val.RefLayer
import proofs.«411194_j75926431859108_1_alg».proof.Proof.Val.RefPool
import proofs.«411194_j75926431859108_1_alg».proof.Proof.Val.Net

noncomputable section

namespace Cert.ReferenceIdeal.RefValue

open Idealize.ShloMosaic Idealize.ShloMosaic.TcCoe Idealize.SL.Sem

/-- Three SAGE layers over the shared in-degree column, then the pooled classifier: the network function. -/
theorem ref_value (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v79 (F := Ideal) m c
      = Cert.KernelIdeal.Val.netK (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) := by
  rw [res_eq]
  simp only [rdegT_eq, raggT_eq, rlayerT_eq, rpoolT_eq]
  rfl

end Cert.ReferenceIdeal.RefValue

end
-- ==== Proof.lean ====
/- The kernel program (three SAGE-layer launches and one pooling launch among host stretches of gathers, scatter-adds
   and divisions) against its reference, over the extended reals.
   The frames: each program's @main runs to the end and leaves its argument arrays as launched — for the kernel program,
   at either reading of the floats, by the run through its four regions; for the reference by its run read back.
   The value: both programs end with the result buffer at ONE function of the arguments (`Val.netK`): three layers
   out[r,j] = max (Σ_k h[r,k]·Ws[k,j] + Σ_k a[r,k]·Wn[k,j] + b[j]) 0 on the node features and their neighbourhood means
   (the neighbourhood means are the same host operations in both programs and are never opened), then the graph means
   against the classifier. The kernel pools with a one-hot product block by block; the reference scatter-adds by graph id;
   both give Σ over the rows whose id is the graph's number, a row with any other id word belonging to no graph. No law
   used needs finiteness: sums are regrouped and 0·x = 0, 1·x = x hold for every extended real. -/
import proofs.«411194_j75926431859108_1_alg».proof.Defs
import proofs.«411194_j75926431859108_1_alg».proof.Proof.Gen.Kernel
import proofs.«411194_j75926431859108_1_alg».proof.Proof.Gen.KernelIdeal
import proofs.«411194_j75926431859108_1_alg».proof.Proof.Gen.ReferenceIdeal
import proofs.«411194_j75926431859108_1_alg».proof.Proof.Gen.Pre_finite_inputs
import proofs.«411194_j75926431859108_1_alg».proof.Proof.K.Run
import proofs.«411194_j75926431859108_1_alg».proof.Proof.KI.Run
import proofs.«411194_j75926431859108_1_alg».proof.Proof.Val.Kernel
import proofs.«411194_j75926431859108_1_alg».proof.Proof.Val.Ref
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result at the network function of the arguments, which agree. -/
theorem algebraic : Cert.algebraic_KernelIdeal_ReferenceIdeal := by
  intro m ρ m' ρ' _ hagree
  refine ⟨fun c => Cert.KernelIdeal.Val.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · refine (θ_run Cert.KernelIdeal.defs _ _).mono (fun r h c => ⟨?_, ?_⟩) (Cert.KernelIdeal.Hand.run_all m ρ)
    · exact (h c _ (Cert.KernelIdeal.Hand.mem_uc Cert.KernelIdeal.main_v51 (by decide))).trans (Cert.KernelIdeal.Val.kernel_value m ρ c)
    · exact ⟨(h c _ (Cert.KernelIdeal.Hand.mem_uc Cert.KernelIdeal.main_arg0 (by decide))).trans (Cert.KernelIdeal.Hand.W8_main_arg0 m ρ c),
        (h c _ (Cert.KernelIdeal.Hand.mem_uc Cert.KernelIdeal.main_arg1 (by decide))).trans (Cert.KernelIdeal.Hand.W8_main_arg1 m ρ c),
        (h c _ (Cert.KernelIdeal.Hand.mem_uc Cert.KernelIdeal.main_arg2 (by decide))).trans (Cert.KernelIdeal.Hand.W8_main_arg2 m ρ c),
        (h c _ (Cert.KernelIdeal.Hand.mem_uc Cert.KernelIdeal.main_arg3 (by decide))).trans (Cert.KernelIdeal.Hand.W8_main_arg3 m ρ c),
        (h c _ (Cert.KernelIdeal.Hand.mem_uc Cert.KernelIdeal.main_arg4 (by decide))).trans (Cert.KernelIdeal.Hand.W8_main_arg4 m ρ c),
        (h c _ (Cert.KernelIdeal.Hand.mem_uc Cert.KernelIdeal.main_arg5 (by decide))).trans (Cert.KernelIdeal.Hand.W8_main_arg5 m ρ c),
        (h c _ (Cert.KernelIdeal.Hand.mem_uc Cert.KernelIdeal.main_arg6 (by decide))).trans (Cert.KernelIdeal.Hand.W8_main_arg6 m ρ c),
        (h c _ (Cert.KernelIdeal.Hand.mem_uc Cert.KernelIdeal.main_arg7 (by decide))).trans (Cert.KernelIdeal.Hand.W8_main_arg7 m ρ c),
        (h c _ (Cert.KernelIdeal.Hand.mem_uc Cert.KernelIdeal.main_arg8 (by decide))).trans (Cert.KernelIdeal.Hand.W8_main_arg8 m ρ c),
        (h c _ (Cert.KernelIdeal.Hand.mem_uc Cert.KernelIdeal.main_arg9 (by decide))).trans (Cert.KernelIdeal.Hand.W8_main_arg9 m ρ c),
        (h c _ (Cert.KernelIdeal.Hand.mem_uc Cert.KernelIdeal.main_arg10 (by decide))).trans (Cert.KernelIdeal.Hand.W8_main_arg10 m ρ c),
        (h c _ (Cert.KernelIdeal.Hand.mem_uc Cert.KernelIdeal.main_arg11 (by decide))).trans (Cert.KernelIdeal.Hand.W8_main_arg11 m ρ c),
        (h c _ (Cert.KernelIdeal.Hand.mem_uc Cert.KernelIdeal.main_arg12 (by decide))).trans (Cert.KernelIdeal.Hand.W8_main_arg12 m ρ c),
        (h c _ (Cert.KernelIdeal.Hand.mem_uc Cert.KernelIdeal.main_arg13 (by decide))).trans (Cert.KernelIdeal.Hand.W8_main_arg13 m ρ c),
        (h c _ (Cert.KernelIdeal.Hand.mem_uc Cert.KernelIdeal.main_arg14 (by decide))).trans (Cert.KernelIdeal.Hand.W8_main_arg14 m ρ c)⟩
  · refine (θ_run Cert.ReferenceIdeal.defs _ _).mono (fun r h c => ⟨?_, (h c).2⟩) (Cert.ReferenceIdeal.Value.run (F := Ideal) m' ρ')
    rw [(h c).1, Cert.ReferenceIdeal.RefValue.ref_value m' c]
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
